-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S400000 : Shape := ⟨1, ![400000]⟩
abbrev S100000 : Shape := ⟨1, ![100000]⟩
abbrev S25600 : Shape := ⟨1, ![25600]⟩
abbrev S512x256 : Shape := ⟨2, ![512, 256]⟩
abbrev S256 : Shape := ⟨1, ![256]⟩
abbrev S256x256 : Shape := ⟨2, ![256, 256]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S400000 : S_.BroadcastsInDim S400000 (![] : Fin 0 → Fin S400000.rank)
  reducesTo_S400000_S_d0 : S400000.ReducesTo [0] S_
  bcast_S_S100000 : S_.BroadcastsInDim S100000 (![] : Fin 0 → Fin S100000.rank)
  reducesTo_S100000_S_d0 : S100000.ReducesTo [0] S_
  bcast_S_S25600 : S_.BroadcastsInDim S25600 (![] : Fin 0 → Fin S25600.rank)
  reducesTo_S25600_S_d0 : S25600.ReducesTo [0] S_

variable [Facts]

def fn_part4 {F : FTy → Type} [FloatOps F] (main_arg3 : IVec S100000 32) (main_arg5 : IVec S25600 32) (main_v66 : IVec S_ 1) (main_c_26 : IVec S_ 32) : IVec S_ 1 :=
  let main_v67 : IVec S100000 32 := broadcastInDim S100000 ![] bcast_S_S100000 main_c_26
  let main_v68 : IVec S100000 1 := cmpi .sge main_arg3 main_v67
  let main_c_27 : IVec S_ 1 := constantI S_ 1 1#1
  let main_v69 : IVec S_ 1 := (fun x v => Host.reduce IntOp.andi x v reducesTo_S100000_S_d0 h_S_) main_v68 main_c_27
  let main_v70 : IVec S_ 1 := andi main_v66 main_v69
  let main_c_28 : IVec S_ 32 := constantI S_ 32 25000#32
  let main_v71 : IVec S100000 32 := broadcastInDim S100000 ![] bcast_S_S100000 main_c_28
  let main_v72 : IVec S100000 1 := cmpi .slt main_arg3 main_v71
  let main_c_29 : IVec S_ 1 := constantI S_ 1 1#1
  let main_v73 : IVec S_ 1 := (fun x v => Host.reduce IntOp.andi x v reducesTo_S100000_S_d0 h_S_) main_v72 main_c_29
  let main_v74 : IVec S_ 1 := andi main_v70 main_v73
  let main_c_30 : IVec S_ 32 := constantI S_ 32 0#32
  let main_v75 : IVec S25600 32 := broadcastInDim S25600 ![] bcast_S_S25600 main_c_30
  let main_v76 : IVec S25600 1 := cmpi .sge main_arg5 main_v75
  let main_c_31 : IVec S_ 1 := constantI S_ 1 1#1
  let main_v77 : IVec S_ 1 := (fun x v => Host.reduce IntOp.andi x v reducesTo_S25600_S_d0 h_S_) main_v76 main_c_31
  let main_v78 : IVec S_ 1 := andi main_v74 main_v77
  let main_c_32 : IVec S_ 32 := constantI S_ 32 6250#32
  let main_v79 : IVec S25600 32 := broadcastInDim S25600 ![] bcast_S_S25600 main_c_32
  let main_v80 : IVec S25600 1 := cmpi .slt main_arg5 main_v79
  let main_c_33 : IVec S_ 1 := constantI S_ 1 1#1
  let main_v81 : IVec S_ 1 := (fun x v => Host.reduce IntOp.andi x v reducesTo_S25600_S_d0 h_S_) main_v80 main_c_33
  let main_v82 : IVec S_ 1 := andi main_v78 main_v81
  main_v82

def fn_part3 {F : FTy → Type} [FloatOps F] (main_arg1 : IVec S400000 32) (main_arg3 : IVec S100000 32) (main_arg5 : IVec S25600 32) (main_arg17 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg17
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_c_22 : IVec S_ 32 := constantI S_ 32 0#32
  let main_v59 : IVec S400000 32 := broadcastInDim S400000 ![] bcast_S_S400000 main_c_22
  let main_v60 : IVec S400000 1 := cmpi .sge main_arg1 main_v59
  let main_c_23 : IVec S_ 1 := constantI S_ 1 1#1
  let main_v61 : IVec S_ 1 := (fun x v => Host.reduce IntOp.andi x v reducesTo_S400000_S_d0 h_S_) main_v60 main_c_23
  let main_v62 : IVec S_ 1 := andi main_v58 main_v61
  let main_c_24 : IVec S_ 32 := constantI S_ 32 100000#32
  let main_v63 : IVec S400000 32 := broadcastInDim S400000 ![] bcast_S_S400000 main_c_24
  let main_v64 : IVec S400000 1 := cmpi .slt main_arg1 main_v63
  let main_c_25 : IVec S_ 1 := constantI S_ 1 1#1
  let main_v65 : IVec S_ 1 := (fun x v => Host.reduce IntOp.andi x v reducesTo_S400000_S_d0 h_S_) main_v64 main_c_25
  let main_v66 : IVec S_ 1 := andi main_v62 main_v65
  let main_c_26 : IVec S_ 32 := constantI S_ 32 0#32
  fn_part4 (F := F) main_arg3 main_arg5 main_v66 main_c_26

def fn_part2 {F : FTy → Type} [FloatOps F] (main_arg1 : IVec S400000 32) (main_arg3 : IVec S100000 32) (main_arg5 : IVec S25600 32) (main_arg13 : FVec F S256x256 .f32) (main_arg14 : FVec F S256x256 .f32) (main_arg15 : FVec F S256 .f32) (main_arg16 : FVec F S256x256 .f32) (main_arg17 : FVec F S256 .f32) (main_v33 : IVec S_ 1) : IVec S_ 1 :=
  let main_v34 : FVec F S256x256 .f32 := Host.absf main_arg13
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256x256 .f32 := Host.absf main_arg14
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg15
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg16
  let main_cst_18 : FVec F S_ .f32 := constant S_ .f32 0x7F800000#32
  let main_v50 : FVec F S256x256 .f32 := broadcastInDim S256x256 ![] bcast_S_S256x256 main_cst_18
  fn_part3 (F := F) main_arg1 main_arg3 main_arg5 main_arg17 main_v48 main_v49 main_v50

def fn_part1 {F : FTy → Type} [FloatOps F] (main_arg1 : IVec S400000 32) (main_arg3 : IVec S100000 32) (main_arg5 : IVec S25600 32) (main_arg10 : FVec F S256x256 .f32) (main_arg11 : FVec F S256x256 .f32) (main_arg12 : FVec F S256 .f32) (main_arg13 : FVec F S256x256 .f32) (main_arg14 : FVec F S256x256 .f32) (main_arg15 : FVec F S256 .f32) (main_arg16 : FVec F S256x256 .f32) (main_arg17 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg10
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg11
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg12
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg3 main_arg5 main_arg13 main_arg14 main_arg15 main_arg16 main_arg17 main_v33

def fn {F : FTy → Type} [FloatOps F] (main_arg0 : FVec F S100000x512 .f32) (main_arg1 : IVec S400000 32) (main_arg2 : IVec S400000 32) (main_arg3 : IVec S100000 32) (main_arg4 : IVec S100000 32) (main_arg5 : IVec S25600 32) (main_arg6 : IVec S25600 32) (main_arg7 : FVec F S512x256 .f32) (main_arg8 : FVec F S512x256 .f32) (main_arg9 : FVec F S256 .f32) (main_arg10 : FVec F S256x256 .f32) (main_arg11 : FVec F S256x256 .f32) (main_arg12 : FVec F S256 .f32) (main_arg13 : FVec F S256x256 .f32) (main_arg14 : FVec F S256x256 .f32) (main_arg15 : FVec F S256 .f32) (main_arg16 : FVec F S256x256 .f32) (main_arg17 : FVec F S256 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x256 .f32 := Host.absf main_arg7
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x256 .f32 := Host.absf main_arg8
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg9
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg3 main_arg5 main_arg10 main_arg11 main_arg12 main_arg13 main_arg14 main_arg15 main_arg16 main_arg17 main_v13 main_v16
-- ==== Kernel.lean ====
abbrev S100000x512 : Shape := ⟨2, ![100000, 512]⟩
abbrev S400000 : Shape := ⟨1, ![400000]⟩
abbrev S100000 : Shape := ⟨1, ![100000]⟩
abbrev S25600 : Shape := ⟨1, ![25600]⟩
abbrev S512x256 : Shape := ⟨2, ![512, 256]⟩
abbrev S256 : Shape := ⟨1, ![256]⟩
abbrev S256x256 : Shape := ⟨2, ![256, 256]⟩
abbrev S100000x256 : Shape := ⟨2, ![100000, 256]⟩
abbrev S2000x512 : Shape := ⟨2, ![2000, 512]⟩
abbrev S2000x256 : Shape := ⟨2, ![2000, 256]⟩
abbrev S_ : Shape := ⟨0, ![]⟩
abbrev S400000x1 : Shape := ⟨2, ![400000, 1]⟩
abbrev S1 : Shape := ⟨1, ![1]⟩
abbrev S1x1 : Shape := ⟨2, ![1, 1]⟩
abbrev S400000x256 : Shape := ⟨2, ![400000, 256]⟩
abbrev S25000x256 : Shape := ⟨2, ![25000, 256]⟩
abbrev S25000 : Shape := ⟨1, ![25000]⟩
abbrev S25000x1 : Shape := ⟨2, ![25000, 1]⟩
abbrev S1000x512 : Shape := ⟨2, ![1000, 512]⟩
abbrev S1000x256 : Shape := ⟨2, ![1000, 256]⟩
abbrev S1000x1 : Shape := ⟨2, ![1000, 1]⟩
abbrev S1x256 : Shape := ⟨2, ![1, 256]⟩
abbrev S100000x1 : Shape := ⟨2, ![100000, 1]⟩
abbrev S6400x256 : Shape := ⟨2, ![6400, 256]⟩
abbrev S6400 : Shape := ⟨1, ![6400]⟩
abbrev S6400x1 : Shape := ⟨2, ![6400, 1]⟩
abbrev S800x256 : Shape := ⟨2, ![800, 256]⟩
abbrev S800x1 : Shape := ⟨2, ![800, 1]⟩
abbrev S25600x1 : Shape := ⟨2, ![25600, 1]⟩
abbrev S25600x256 : Shape := ⟨2, ![25600, 256]⟩
abbrev S1600x256 : Shape := ⟨2, ![1600, 256]⟩
abbrev S1600 : Shape := ⟨1, ![1600]⟩
abbrev S1600x1 : Shape := ⟨2, ![1600, 1]⟩
abbrev S400x256 : Shape := ⟨2, ![400, 256]⟩
abbrev S400x1 : Shape := ⟨2, ![400, 1]⟩

abbrev nBuf : Space → Nat
  | .hbm => 124
  | .vmem => 39
  | .smem => 0
  | _ => 0

abbrev bufTy : (tb : Table) → Fin (tcTables nBuf tb) → BufTy
  | .hbm, ⟨0, _⟩ => ⟨S100000x512, .f32⟩
  | .hbm, ⟨1, _⟩ => ⟨S400000, .i32⟩
  | .hbm, ⟨2, _⟩ => ⟨S400000, .i32⟩
  | .hbm, ⟨3, _⟩ => ⟨S100000, .i32⟩
  | .hbm, ⟨4, _⟩ => ⟨S100000, .i32⟩
  | .hbm, ⟨5, _⟩ => ⟨S25600, .i32⟩
  | .hbm, ⟨6, _⟩ => ⟨S25600, .i32⟩
  | .hbm, ⟨7, _⟩ => ⟨S512x256, .f32⟩
  | .hbm, ⟨8, _⟩ => ⟨S512x256, .f32⟩
  | .hbm, ⟨9, _⟩ => ⟨S256, .f32⟩
  | .hbm, ⟨10, _⟩ => ⟨S256x256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S100000x256, .f32⟩
  | .hbm, ⟨19, _⟩ => ⟨S_, .i32⟩
  | .hbm, ⟨20, _⟩ => ⟨S400000, .i32⟩
  | .hbm, ⟨21, _⟩ => ⟨S400000, .i1⟩
  | .hbm, ⟨22, _⟩ => ⟨S_, .i32⟩
  | .hbm, ⟨23, _⟩ => ⟨S400000, .i32⟩
  | .hbm, ⟨24, _⟩ => ⟨S400000, .i32⟩
  | .hbm, ⟨25, _⟩ => ⟨S400000, .i32⟩
  | .hbm, ⟨26, _⟩ => ⟨S400000x1, .i32⟩
  | .hbm, ⟨27, _⟩ => ⟨S1, .i32⟩
  | .hbm, ⟨28, _⟩ => ⟨S_, .i32⟩
  | .hbm, ⟨29, _⟩ => ⟨S400000x1, .i32⟩
  | .hbm, ⟨30, _⟩ => ⟨S400000x1, .i1⟩
  | .hbm, ⟨31, _⟩ => ⟨S1x1, .i32⟩
  | .hbm, ⟨32, _⟩ => ⟨S400000x1, .i32⟩
  | .hbm, ⟨33, _⟩ => ⟨S400000x1, .i1⟩
  | .hbm, ⟨34, _⟩ => ⟨S400000x1, .i1⟩
  | .hbm, ⟨35, _⟩ => ⟨S_, .i1⟩
  | .hbm, ⟨36, _⟩ => ⟨S400000, .i1⟩
  | .hbm, ⟨37, _⟩ => ⟨S400000x256, .f32⟩
  | .hbm, ⟨38, _⟩ => ⟨S400000x256, .i1⟩
  | .hbm, ⟨39, _⟩ => ⟨S_, .f32⟩
  | .hbm, ⟨40, _⟩ => ⟨S400000x256, .f32⟩
  | .hbm, ⟨41, _⟩ => ⟨S400000x256, .f32⟩
  | .hbm, ⟨42, _⟩ => ⟨S_, .f32⟩
  | .hbm, ⟨43, _⟩ => ⟨S25000x256, .f32⟩
  | .hbm, ⟨44, _⟩ => ⟨S400000x1, .i32⟩
  | .hbm, ⟨45, _⟩ => ⟨S25000x256, .f32⟩
  | .hbm, ⟨46, _⟩ => ⟨S_, .f32⟩
  | .hbm, ⟨47, _⟩ => ⟨S400000, .f32⟩
  | .hbm, ⟨48, _⟩ => ⟨S_, .f32⟩
  | .hbm, ⟨49, _⟩ => ⟨S25000, .f32⟩
  | .hbm, ⟨50, _⟩ => ⟨S400000x1, .i32⟩
  | .hbm, ⟨51, _⟩ => ⟨S25000, .f32⟩
  | .hbm, ⟨52, _⟩ => ⟨S25000x1, .f32⟩
  | .hbm, ⟨53, _⟩ => ⟨S25000x256, .f32⟩
  | .hbm, ⟨54, _⟩ => ⟨S_, .i32⟩
  | .hbm, ⟨55, _⟩ => ⟨S100000, .i32⟩
  | .hbm, ⟨56, _⟩ => ⟨S100000, .i1⟩
  | .hbm, ⟨57, _⟩ => ⟨S_, .i32⟩
  | .hbm, ⟨58, _⟩ => ⟨S100000, .i32⟩
  | .hbm, ⟨59, _⟩ => ⟨S100000, .i32⟩
  | .hbm, ⟨60, _⟩ => ⟨S100000, .i32⟩
  | .hbm, ⟨61, _⟩ => ⟨S100000x1, .i32⟩
  | .hbm, ⟨62, _⟩ => ⟨S1, .i32⟩
  | .hbm, ⟨63, _⟩ => ⟨S_, .i32⟩
  | .hbm, ⟨64, _⟩ => ⟨S100000x1, .i32⟩
  | .hbm, ⟨65, _⟩ => ⟨S100000x1, .i1⟩
  | .hbm, ⟨66, _⟩ => ⟨S1x1, .i32⟩
  | .hbm, ⟨67, _⟩ => ⟨S100000x1, .i32⟩
  | .hbm, ⟨68, _⟩ => ⟨S100000x1, .i1⟩
  | .hbm, ⟨69, _⟩ => ⟨S100000x1, .i1⟩
  | .hbm, ⟨70, _⟩ => ⟨S_, .i1⟩
  | .hbm, ⟨71, _⟩ => ⟨S100000, .i1⟩
  | .hbm, ⟨72, _⟩ => ⟨S100000x256, .f32⟩
  | .hbm, ⟨73, _⟩ => ⟨S100000x256, .i1⟩
  | .hbm, ⟨74, _⟩ => ⟨S_, .f32⟩
  | .hbm, ⟨75, _⟩ => ⟨S100000x256, .f32⟩
  | .hbm, ⟨76, _⟩ => ⟨S100000x256, .f32⟩
  | .hbm, ⟨77, _⟩ => ⟨S_, .f32⟩
  | .hbm, ⟨78, _⟩ => ⟨S6400x256, .f32⟩
  | .hbm, ⟨79, _⟩ => ⟨S100000x1, .i32⟩
  | .hbm, ⟨80, _⟩ => ⟨S6400x256, .f32⟩
  | .hbm, ⟨81, _⟩ => ⟨S_, .f32⟩
  | .hbm, ⟨82, _⟩ => ⟨S100000, .f32⟩
  | .hbm, ⟨83, _⟩ => ⟨S_, .f32⟩
  | .hbm, ⟨84, _⟩ => ⟨S6400, .f32⟩
  | .hbm, ⟨85, _⟩ => ⟨S100000x1, .i32⟩
  | .hbm, ⟨86, _⟩ => ⟨S6400, .f32⟩
  | .hbm, ⟨87, _⟩ => ⟨S6400x1, .f32⟩
  | .hbm, ⟨88, _⟩ => ⟨S6400x256, .f32⟩
  | .hbm, ⟨89, _⟩ => ⟨S_, .i32⟩
  | .hbm, ⟨90, _⟩ => ⟨S25600, .i32⟩
  | .hbm, ⟨91, _⟩ => ⟨S25600, .i1⟩
  | .hbm, ⟨92, _⟩ => ⟨S_, .i32⟩
  | .hbm, ⟨93, _⟩ => ⟨S25600, .i32⟩
  | .hbm, ⟨94, _⟩ => ⟨S25600, .i32⟩
  | .hbm, ⟨95, _⟩ => ⟨S25600, .i32⟩
  | .hbm, ⟨96, _⟩ => ⟨S25600x1, .i32⟩
  | .hbm, ⟨97, _⟩ => ⟨S1, .i32⟩
  | .hbm, ⟨98, _⟩ => ⟨S_, .i32⟩
  | .hbm, ⟨99, _⟩ => ⟨S25600x1, .i32⟩
  | .hbm, ⟨100, _⟩ => ⟨S25600x1, .i1⟩
  | .hbm, ⟨101, _⟩ => ⟨S1x1, .i32⟩
  | .hbm, ⟨102, _⟩ => ⟨S25600x1, .i32⟩
  | .hbm, ⟨103, _⟩ => ⟨S25600x1, .i1⟩
  | .hbm, ⟨104, _⟩ => ⟨S25600x1, .i1⟩
  | .hbm, ⟨105, _⟩ => ⟨S_, .i1⟩
  | .hbm, ⟨106, _⟩ => ⟨S25600, .i1⟩
  | .hbm, ⟨107, _⟩ => ⟨S25600x256, .f32⟩
  | .hbm, ⟨108, _⟩ => ⟨S25600x256, .i1⟩
  | .hbm, ⟨109, _⟩ => ⟨S_, .f32⟩
  | .hbm, ⟨110, _⟩ => ⟨S25600x256, .f32⟩
  | .hbm, ⟨111, _⟩ => ⟨S25600x256, .f32⟩
  | .hbm, ⟨112, _⟩ => ⟨S_, .f32⟩
  | .hbm, ⟨113, _⟩ => ⟨S1600x256, .f32⟩
  | .hbm, ⟨114, _⟩ => ⟨S25600x1, .i32⟩
  | .hbm, ⟨115, _⟩ => ⟨S1600x256, .f32⟩
  | .hbm, ⟨116, _⟩ => ⟨S_, .f32⟩
  | .hbm, ⟨117, _⟩ => ⟨S25600, .f32⟩
  | .hbm, ⟨118, _⟩ => ⟨S_, .f32⟩
  | .hbm, ⟨119, _⟩ => ⟨S1600, .f32⟩
  | .hbm, ⟨120, _⟩ => ⟨S25600x1, .i32⟩
  | .hbm, ⟨121, _⟩ => ⟨S1600, .f32⟩
  | .hbm, ⟨122, _⟩ => ⟨S1600x1, .f32⟩
  | .hbm, ⟨123, _⟩ => ⟨S1600x256, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S1000x512, .f32⟩
  | .local _ .vmem, ⟨6, _⟩ => ⟨S1000x512, .f32⟩
  | .local _ .vmem, ⟨7, _⟩ => ⟨S1000x256, .f32⟩
  | .local _ .vmem, ⟨8, _⟩ => ⟨S1000x256, .f32⟩
  | .local _ .vmem, ⟨9, _⟩ => ⟨S1000x1, .f32⟩
  | .local _ .vmem, ⟨10, _⟩ => ⟨S1000x1, .f32⟩
  | .local _ .vmem, ⟨11, _⟩ => ⟨S512x256, .f32⟩
  | .local _ .vmem, ⟨12, _⟩ => ⟨S256, .f32⟩
  | .local _ .vmem, ⟨13, _⟩ => ⟨S1000x256, .f32⟩
  | .local _ .vmem, ⟨14, _⟩ => ⟨S1000x256, .f32⟩
  | .local _ .vmem, ⟨15, _⟩ => ⟨S800x256, .f32⟩
  | .local _ .vmem, ⟨16, _⟩ => ⟨S800x256, .f32⟩
  | .local _ .vmem, ⟨17, _⟩ => ⟨S800x256, .f32⟩
  | .local _ .vmem, ⟨18, _⟩ => ⟨S800x256, .f32⟩
  | .local _ .vmem, ⟨19, _⟩ => ⟨S800x1, .f32⟩
  | .local _ .vmem, ⟨20, _⟩ => ⟨S800x1, .f32⟩
  | .local _ .vmem, ⟨21, _⟩ => ⟨S256x256, .f32⟩
  | .local _ .vmem, ⟨22, _⟩ => ⟨S256x256, .f32⟩
  | .local _ .vmem, ⟨23, _⟩ => ⟨S256, .f32⟩
  | .local _ .vmem, ⟨24, _⟩ => ⟨S800x256, .f32⟩
  | .local _ .vmem, ⟨25, _⟩ => ⟨S800x256, .f32⟩
  | .local _ .vmem, ⟨26, _⟩ => ⟨S400x256, .f32⟩
  | .local _ .vmem, ⟨27, _⟩ => ⟨S400x256, .f32⟩
  | .local _ .vmem, ⟨28, _⟩ => ⟨S400x256, .f32⟩
  | .local _ .vmem, ⟨29, _⟩ => ⟨S400x256, .f32⟩
  | .local _ .vmem, ⟨30, _⟩ => ⟨S400x1, .f32⟩
  | .local _ .vmem, ⟨31, _⟩ => ⟨S400x1, .f32⟩
  | .local _ .vmem, ⟨32, _⟩ => ⟨S256x256, .f32⟩
  | .local _ .vmem, ⟨33, _⟩ => ⟨S256x256, .f32⟩
  | .local _ .vmem, ⟨34, _⟩ => ⟨S256, .f32⟩
  | .local _ .vmem, ⟨35, _⟩ => ⟨S256x256, .f32⟩
  | .local _ .vmem, ⟨36, _⟩ => ⟨S256, .f32⟩
  | .local _ .vmem, ⟨37, _⟩ => ⟨S400x256, .f32⟩
  | .local _ .vmem, ⟨38, _⟩ => ⟨S400x256, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v1 : Ref sig .tc := ⟨.hbm, 41, rfl⟩
abbrev main_cst : Ref sig .tc := ⟨.hbm, 42, rfl⟩
abbrev main_v2 : Ref sig .tc := ⟨.hbm, 43, rfl⟩
abbrev main_v3 : Ref sig .tc := ⟨.hbm, 44, rfl⟩
abbrev main_v4 : Ref sig .tc := ⟨.hbm, 45, rfl⟩
abbrev main_cst_0 : Ref sig .tc := ⟨.hbm, 46, rfl⟩
abbrev main_v5 : Ref sig .tc := ⟨.hbm, 47, rfl⟩
abbrev main_cst_1 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_cst : Ref sig .tc := ⟨.hbm, 74, rfl⟩
abbrev main_call1_v15 : Ref sig .tc := ⟨.hbm, 75, rfl⟩
abbrev main_v11 : Ref sig .tc := ⟨.hbm, 76, rfl⟩
abbrev main_cst_2 : Ref sig .tc := ⟨.hbm, 77, rfl⟩
abbrev main_v12 : Ref sig .tc := ⟨.hbm, 78, rfl⟩
abbrev main_v13 : Ref sig .tc := ⟨.hbm, 79, rfl⟩
abbrev main_v14 : Ref sig .tc := ⟨.hbm, 80, rfl⟩
abbrev main_cst_3 : Ref sig .tc := ⟨.hbm, 81, rfl⟩
abbrev main_v15 : Ref sig .tc := ⟨.hbm, 82, rfl⟩
abbrev main_cst_4 : Ref sig .tc := ⟨.hbm, 83, rfl⟩
abbrev main_v16 : Ref sig .tc := ⟨.hbm, 84, rfl⟩
abbrev main_v17 : Ref sig .tc := ⟨.hbm, 85, rfl⟩
abbrev main_v18 : Ref sig .tc := ⟨.hbm, 86, rfl⟩
abbrev main_v19 : Ref sig .tc := ⟨.hbm, 87, rfl⟩
abbrev main_v20 : Ref sig .tc := ⟨.hbm, 88, rfl⟩
abbrev main_call2_c : Ref sig .tc := ⟨.hbm, 89, rfl⟩
abbrev main_call2_v0 : Ref sig .tc := ⟨.hbm, 90, rfl⟩
abbrev main_call2_v1 : Ref sig .tc := ⟨.hbm, 91, rfl⟩
abbrev main_call2_c_0 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_c_1 : Ref sig .tc := ⟨.hbm, 97, rfl⟩
abbrev main_call2_c_2 : Ref sig .tc := ⟨.hbm, 98, rfl⟩
abbrev main_call2_v6 : Ref sig .tc := ⟨.hbm, 99, rfl⟩
abbrev main_call2_v7 : Ref sig .tc := ⟨.hbm, 100, rfl⟩
abbrev main_call2_v8 : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_call2_c_3 : Ref sig .tc := ⟨.hbm, 105, rfl⟩
abbrev main_call2_v12 : Ref sig .tc := ⟨.hbm, 106, rfl⟩
abbrev main_call2_v13 : Ref sig .tc := ⟨.hbm, 107, rfl⟩
abbrev main_call2_v14 : Ref sig .tc := ⟨.hbm, 108, rfl⟩
abbrev main_call2_cst : Ref sig .tc := ⟨.hbm, 109, rfl⟩
abbrev main_call2_v15 : Ref sig .tc := ⟨.hbm, 110, rfl⟩
abbrev main_v21 : Ref sig .tc := ⟨.hbm, 111, rfl⟩
abbrev main_cst_5 : Ref sig .tc := ⟨.hbm, 112, rfl⟩
abbrev main_v22 : Ref sig .tc := ⟨.hbm, 113, rfl⟩
abbrev main_v23 : Ref sig .tc := ⟨.hbm, 114, rfl⟩
abbrev main_v24 : Ref sig .tc := ⟨.hbm, 115, rfl⟩
abbrev main_cst_6 : Ref sig .tc := ⟨.hbm, 116, rfl⟩
abbrev main_v25 : Ref sig .tc := ⟨.hbm, 117, rfl⟩
abbrev main_cst_7 : Ref sig .tc := ⟨.hbm, 118, rfl⟩
abbrev main_v26 : Ref sig .tc := ⟨.hbm, 119, rfl⟩
abbrev main_v27 : Ref sig .tc := ⟨.hbm, 120, rfl⟩
abbrev main_v28 : Ref sig .tc := ⟨.hbm, 121, rfl⟩
abbrev main_v29 : Ref sig .tc := ⟨.hbm, 122, rfl⟩
abbrev main_v30 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg8_0 : Ref sig .tc := ⟨.vmem, 37, rfl⟩
abbrev cc3_stg8_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem8_0 : DmaSem sig := 37
abbrev cc3_sem8_1 : DmaSem sig := 38

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S800x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S800x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S800x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S800x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S400x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S400x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S400x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  inb_S2000x512_S2000x512_0_0 : ∀ a, (![0, 0] : Fin 2 → Nat) a + S2000x512.size a ≤ S2000x512.size a
  h_S2000x512 : 0 < S2000x512.numel
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x256_0 : S400000.BroadcastsInDim S400000x256 (![0] : Fin 1 → Fin S400000x256.rank)
  bcast_S_S400000x256 : S_.BroadcastsInDim S400000x256 (![] : Fin 0 → Fin S400000x256.rank)
  bcast_S_S25000x256 : S_.BroadcastsInDim S25000x256 (![] : Fin 0 → Fin S25000x256.rank)
  bcast_S_S25000 : S_.BroadcastsInDim S25000 (![] : Fin 0 → Fin S25000.rank)
  bcast_S25000_S25000x1_0 : S25000.BroadcastsInDim S25000x1 (![0] : Fin 1 → Fin S25000x1.rank)
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  broadcasts_S1000x1_S1000x256 : S1000x1.Broadcasts S1000x256
  inb_S1000x512_S1000x512_0_0 : ∀ a, (![0, 0] : Fin 2 → Nat) a + S1000x512.size a ≤ S1000x512.size a
  h_S1000x512 : 0 < S1000x512.numel
  inb_S256_S256_0 : ∀ a, (![0] : Fin 1 → Nat) a + S256.size a ≤ S256.size a
  h_S256 : 0 < S256.numel
  shapeCasts_S256_S1x256 : S256.ShapeCasts S1x256
  broadcasts_S1x256_S1000x256 : S1x256.Broadcasts S1000x256
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1x1_S100000x1_0_1 : S1x1.BroadcastsInDim S100000x1 (![0, 1] : Fin 2 → Fin S100000x1.rank)
  reducesTo_S100000x1_S100000_d1 : S100000x1.ReducesTo [1] S100000
  bcast_S100000_S100000x256_0 : S100000.BroadcastsInDim S100000x256 (![0] : Fin 1 → Fin S100000x256.rank)
  bcast_S_S100000x256 : S_.BroadcastsInDim S100000x256 (![] : Fin 0 → Fin S100000x256.rank)
  bcast_S_S6400x256 : S_.BroadcastsInDim S6400x256 (![] : Fin 0 → Fin S6400x256.rank)
  bcast_S_S6400 : S_.BroadcastsInDim S6400 (![] : Fin 0 → Fin S6400.rank)
  bcast_S6400_S6400x1_0 : S6400.BroadcastsInDim S6400x1 (![0] : Fin 1 → Fin S6400x1.rank)
  inb_S800x1_S800x1_0_0 : ∀ a, (![0, 0] : Fin 2 → Nat) a + S800x1.size a ≤ S800x1.size a
  h_S800x1 : 0 < S800x1.numel
  shapeCasts_S800x1_S800x1 : S800x1.ShapeCasts S800x1
  inb_S800x256_S800x256_0_0 : ∀ a, (![0, 0] : Fin 2 → Nat) a + S800x256.size a ≤ S800x256.size a
  h_S800x256 : 0 < S800x256.numel
  shapeCasts_S800x256_S800x256 : S800x256.ShapeCasts S800x256
  broadcasts_S800x1_S800x256 : S800x1.Broadcasts S800x256
  inb_S256x256_S256x256_0_0 : ∀ a, (![0, 0] : Fin 2 → Nat) a + S256x256.size a ≤ S256x256.size a
  h_S256x256 : 0 < S256x256.numel
  broadcasts_S1x256_S800x256 : S1x256.Broadcasts S800x256
  bcast_S_S25600 : S_.BroadcastsInDim S25600 (![] : Fin 0 → Fin S25600.rank)
  bcast_S25600_S25600x1_0 : S25600.BroadcastsInDim S25600x1 (![0] : Fin 1 → Fin S25600x1.rank)
  bcast_S_S25600x1 : S_.BroadcastsInDim S25600x1 (![] : Fin 0 → Fin S25600x1.rank)
  bcast_S1x1_S25600x1_0_1 : S1x1.BroadcastsInDim S25600x1 (![0, 1] : Fin 2 → Fin S25600x1.rank)
  reducesTo_S25600x1_S25600_d1 : S25600x1.ReducesTo [1] S25600
  bcast_S25600_S25600x256_0 : S25600.BroadcastsInDim S25600x256 (![0] : Fin 1 → Fin S25600x256.rank)
  bcast_S_S25600x256 : S_.BroadcastsInDim S25600x256 (![] : Fin 0 → Fin S25600x256.rank)
  bcast_S_S1600x256 : S_.BroadcastsInDim S1600x256 (![] : Fin 0 → Fin S1600x256.rank)
  bcast_S_S1600 : S_.BroadcastsInDim S1600 (![] : Fin 0 → Fin S1600.rank)
  bcast_S1600_S1600x1_0 : S1600.BroadcastsInDim S1600x1 (![0] : Fin 1 → Fin S1600x1.rank)
  inb_S400x1_S400x1_0_0 : ∀ a, (![0, 0] : Fin 2 → Nat) a + S400x1.size a ≤ S400x1.size a
  h_S400x1 : 0 < S400x1.numel
  shapeCasts_S400x1_S400x1 : S400x1.ShapeCasts S400x1
  inb_S400x256_S400x256_0_0 : ∀ a, (![0, 0] : Fin 2 → Nat) a + S400x256.size a ≤ S400x256.size a
  h_S400x256 : 0 < S400x256.numel
  shapeCasts_S400x256_S400x256 : S400x256.ShapeCasts S400x256
  broadcasts_S400x1_S400x256 : S400x1.Broadcasts S400x256
  broadcasts_S1x256_S400x256 : S1x256.Broadcasts S400x256
  dot_S2000x512_S512x256_S2000x256_1_0_0_1_n_n_wf : DotDims.WF S2000x512 S512x256 S2000x256 [1] [0] [0] [1] [] []
  gather_S100000x256_S400000x1_S400000x256_1_0_n_n_0_1_1256_wf : GatherDims.WF S100000x256 S400000x1 S400000x256 [1] [0] [] [0] [] 1 ![1, 256]
  scatter_S25000x256_S400000x1_S400000x256_1_0_0_1_wf : ScatterDims.WF S25000x256 S400000x1 S400000x256 [1] [0] [0] 1
  scatter_S25000_S400000x1_S400000_n_0_0_1_wf : ScatterDims.WF S25000 S400000x1 S400000 [] [0] [0] 1
  dot_S1000x512_S512x256_S1000x256_1_0_0_1_n_n_wf : DotDims.WF S1000x512 S512x256 S1000x256 [1] [0] [0] [1] [] []
  gather_S25000x256_S100000x1_S100000x256_1_0_n_n_0_1_1256_wf : GatherDims.WF S25000x256 S100000x1 S100000x256 [1] [0] [] [0] [] 1 ![1, 256]
  scatter_S6400x256_S100000x1_S100000x256_1_0_0_1_wf : ScatterDims.WF S6400x256 S100000x1 S100000x256 [1] [0] [0] 1
  scatter_S6400_S100000x1_S100000_n_0_0_1_wf : ScatterDims.WF S6400 S100000x1 S100000 [] [0] [0] 1
  dot_S800x256_S256x256_S800x256_1_0_0_1_n_n_wf : DotDims.WF S800x256 S256x256 S800x256 [1] [0] [0] [1] [] []
  gather_S6400x256_S25600x1_S25600x256_1_0_n_n_0_1_1256_wf : GatherDims.WF S6400x256 S25600x1 S25600x256 [1] [0] [] [0] [] 1 ![1, 256]
  scatter_S1600x256_S25600x1_S25600x256_1_0_0_1_wf : ScatterDims.WF S1600x256 S25600x1 S25600x256 [1] [0] [0] 1
  scatter_S1600_S25600x1_S25600_n_0_0_1_wf : ScatterDims.WF S1600 S25600x1 S25600 [] [0] [0] 1
  dot_S400x256_S256x256_S400x256_1_0_0_1_n_n_wf : DotDims.WF S400x256 S256x256 S400x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S100000x256.size a
  hwx0_2 : ∀ i : grid0.Coords, EltTy.bits .f32 = 32 ∨ (Rect.block (s := S100000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S100000x512.size a
  hwx1_0 : ∀ i : grid1.Coords, EltTy.bits .f32 = 32 ∨ (Rect.block (s := S100000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S25000x256.size a
  hwx1_1 : ∀ i : grid1.Coords, EltTy.bits .f32 = 32 ∨ (Rect.block (s := S25000x256) S1000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S25000x1.size a
  hwx1_2 : ∀ i : grid1.Coords, EltTy.bits .f32 = 32 ∨ (Rect.block (s := S25000x1) S1000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S512x256.size a
  hwx1_3 : ∀ i : grid1.Coords, EltTy.bits .f32 = 32 ∨ (Rect.block (s := S512x256) S512x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x256.size a ≤ S25000x256.size a
  hwx1_5 : ∀ i : grid1.Coords, EltTy.bits .f32 = 32 ∨ (Rect.block (s := S25000x256) S1000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S800x256.size a < S25000x256.size a
  hwx2_0 : ∀ i : grid2.Coords, EltTy.bits .f32 = 32 ∨ (Rect.unit (s := S25000x256) (fun a => cc2_transform_0 i a * S800x256.size a) (fun a => (Pipeline.Clip.of (cc2_transform_0 i a) (S800x256.size a) (S25000x256.size a)).extent (S800x256.size a)) fun a => Pipeline.Clip.inb (Pipeline.Clip.ok_of (hstart2_0 i a))).WholeWords (EltTy.packing .f32)
  hwxs2_0 : ∀ i : grid2.Coords, EltTy.bits .f32 = 32 ∨ (Rect.unit (s := S800x256) (fun _ => 0) (fun a => (Pipeline.Clip.of (cc2_transform_0 i a) (S800x256.size a) (S25000x256.size a)).extent (S800x256.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S800x256.size a ≤ S6400x256.size a
  hwx2_1 : ∀ i : grid2.Coords, EltTy.bits .f32 = 32 ∨ (Rect.block (s := S6400x256) S800x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S800x1.size a ≤ S6400x1.size a
  hwx2_2 : ∀ i : grid2.Coords, EltTy.bits .f32 = 32 ∨ (Rect.block (s := S6400x1) S800x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256.size a ≤ S256.size a
  hwx2_5 : ∀ i : grid2.Coords, EltTy.bits .f32 = 32 ∨ (Rect.block (s := S256) S256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S800x256.size a ≤ S6400x256.size a
  hwx2_6 : ∀ i : grid2.Coords, EltTy.bits .f32 = 32 ∨ (Rect.block (s := S6400x256) S800x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x256.size a ≤ S6400x256.size a
  hwx3_0 : ∀ i : grid3.Coords, EltTy.bits .f32 = 32 ∨ (Rect.block (s := S6400x256) S400x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S400x256.size a ≤ S1600x256.size a
  hwx3_1 : ∀ i : grid3.Coords, EltTy.bits .f32 = 32 ∨ (Rect.block (s := S1600x256) S400x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x1.size a ≤ S1600x1.size a
  hwx3_2 : ∀ i : grid3.Coords, EltTy.bits .f32 = 32 ∨ (Rect.block (s := S1600x1) S400x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256.size a ≤ S256.size a
  hwx3_5 : ∀ i : grid3.Coords, EltTy.bits .f32 = 32 ∨ (Rect.block (s := S256) S256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256x256.size a ≤ S256x256.size a
  hwx3_6 : ∀ i : grid3.Coords, EltTy.bits .f32 = 32 ∨ (Rect.block (s := S256x256) S256x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S256.size a ≤ S256.size a
  hwx3_7 : ∀ i : grid3.Coords, EltTy.bits .f32 = 32 ∨ (Rect.block (s := S256) S256.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S400x256.size a ≤ S1600x256.size a
  hwx3_8 : ∀ i : grid3.Coords, EltTy.bits .f32 = 32 ∨ (Rect.block (s := S1600x256) S400x256.size (cc3_transform_8 i) (hinb3_8 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S25000x256_S400000x1_S400000x256_1_0_0_1 : ScatterDims S25000x256 S400000x1 S400000x256 where
  updateWindowDims := [1]
  insertedWindowDims := [0]
  scatterDimsToOperandDims := [0]
  indexVectorDim := 1
  wf := scatter_S25000x256_S400000x1_S400000x256_1_0_0_1_wf
def scatter_S25000_S400000x1_S400000_n_0_0_1 : ScatterDims S25000 S400000x1 S400000 where
  updateWindowDims := []
  insertedWindowDims := [0]
  scatterDimsToOperandDims := [0]
  indexVectorDim := 1
  wf := scatter_S25000_S400000x1_S400000_n_0_0_1_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def gather_S25000x256_S100000x1_S100000x256_1_0_n_n_0_1_1256 : GatherDims S25000x256 S100000x1 S100000x256 where
  offsetDims := [1]
  collapsedSliceDims := [0]
  operandBatchingDims := []
  startIndicesBatchingDims := []
  startIndexMap := [0]
  indexVectorDim := 1
  sliceSizes := ![1, 256]
  wf := gather_S25000x256_S100000x1_S100000x256_1_0_n_n_0_1_1256_wf
def scatter_S6400x256_S100000x1_S100000x256_1_0_0_1 : ScatterDims S6400x256 S100000x1 S100000x256 where
  updateWindowDims := [1]
  insertedWindowDims := [0]
  scatterDimsToOperandDims := [0]
  indexVectorDim := 1
  wf := scatter_S6400x256_S100000x1_S100000x256_1_0_0_1_wf
def scatter_S6400_S100000x1_S100000_n_0_0_1 : ScatterDims S6400 S100000x1 S100000 where
  updateWindowDims := []
  insertedWindowDims := [0]
  scatterDimsToOperandDims := [0]
  indexVectorDim := 1
  wf := scatter_S6400_S100000x1_S100000_n_0_0_1_wf
def dot_S800x256_S256x256_S800x256_1_0_0_1_n_n : DotDims S800x256 S256x256 S800x256 where
  lhsContracting := [1]
  rhsContracting := [0]
  lhsNonContracting := [0]
  rhsNonContracting := [1]
  lhsBatch := []
  rhsBatch := []
  wf := dot_S800x256_S256x256_S800x256_1_0_0_1_n_n_wf
def gather_S6400x256_S25600x1_S25600x256_1_0_n_n_0_1_1256 : GatherDims S6400x256 S25600x1 S25600x256 where
  offsetDims := [1]
  collapsedSliceDims := [0]
  operandBatchingDims := []
  startIndicesBatchingDims := []
  startIndexMap := [0]
  indexVectorDim := 1
  sliceSizes := ![1, 256]
  wf := gather_S6400x256_S25600x1_S25600x256_1_0_n_n_0_1_1256_wf
def scatter_S1600x256_S25600x1_S25600x256_1_0_0_1 : ScatterDims S1600x256 S25600x1 S25600x256 where
  updateWindowDims := [1]
  insertedWindowDims := [0]
  scatterDimsToOperandDims := [0]
  indexVectorDim := 1
  wf := scatter_S1600x256_S25600x1_S25600x256_1_0_0_1_wf
def scatter_S1600_S25600x1_S25600_n_0_0_1 : ScatterDims S1600 S25600x1 S25600 where
  updateWindowDims := []
  insertedWindowDims := [0]
  scatterDimsToOperandDims := [0]
  indexVectorDim := 1
  wf := scatter_S1600_S25600x1_S25600_n_0_0_1_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S512x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpecClip (Memref.whole main_v10) S800x256.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpec (Memref.whole main_v14) S800x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S800x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v20) S800x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v20) S400x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24) S400x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v29) S400x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg15) S256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg16) S256x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg17) S256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v30) S400x256.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S100000x512 : Shape := ⟨2, ![100000, 512]⟩
abbrev S400000 : Shape := ⟨1, ![400000]⟩
abbrev S100000 : Shape := ⟨1, ![100000]⟩
abbrev S25600 : Shape := ⟨1, ![25600]⟩
abbrev S512x256 : Shape := ⟨2, ![512, 256]⟩
abbrev S256 : Shape := ⟨1, ![256]⟩
abbrev S256x256 : Shape := ⟨2, ![256, 256]⟩
abbrev S25000x512 : Shape := ⟨2, ![25000, 512]⟩
abbrev S_ : Shape := ⟨0, ![]⟩
abbrev S400000x1 : Shape := ⟨2, ![400000, 1]⟩
abbrev S400000x512 : Shape := ⟨2, ![400000, 512]⟩
abbrev S25000 : Shape := ⟨1, ![25000]⟩
abbrev S25000x1 : Shape := ⟨2, ![25000, 1]⟩
abbrev S25000x256 : Shape := ⟨2, ![25000, 256]⟩
abbrev S1x256 : Shape := ⟨2, ![1, 256]⟩
abbrev S6250x256 : Shape := ⟨2, ![6250, 256]⟩
abbrev S100000x1 : Shape := ⟨2, ![100000, 1]⟩
abbrev S100000x256 : Shape := ⟨2, ![100000, 256]⟩
abbrev S6250 : Shape := ⟨1, ![6250]⟩
abbrev S6250x1 : Shape := ⟨2, ![6250, 1]⟩
abbrev S1600x256 : Shape := ⟨2, ![1600, 256]⟩
abbrev S25600x1 : Shape := ⟨2, ![25600, 1]⟩
abbrev S25600x256 : Shape := ⟨2, ![25600, 256]⟩
abbrev S1600 : Shape := ⟨1, ![1600]⟩
abbrev S1600x1 : Shape := ⟨2, ![1600, 1]⟩

abbrev nBuf : Space → Nat
  | .hbm => 124
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S400000, .i32⟩
  | .hbm, ⟨2, _⟩ => ⟨S400000, .i32⟩
  | .hbm, ⟨3, _⟩ => ⟨S100000, .i32⟩
  | .hbm, ⟨4, _⟩ => ⟨S100000, .i32⟩
  | .hbm, ⟨5, _⟩ => ⟨S25600, .i32⟩
  | .hbm, ⟨6, _⟩ => ⟨S25600, .i32⟩
  | .hbm, ⟨7, _⟩ => ⟨S512x256, .f32⟩
  | .hbm, ⟨8, _⟩ => ⟨S512x256, .f32⟩
  | .hbm, ⟨9, _⟩ => ⟨S256, .f32⟩
  | .hbm, ⟨10, _⟩ => ⟨S256x256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S25000x512, .f32⟩
  | .hbm, ⟨19, _⟩ => ⟨S_, .i32⟩
  | .hbm, ⟨20, _⟩ => ⟨S400000, .i32⟩
  | .hbm, ⟨21, _⟩ => ⟨S400000, .i1⟩
  | .hbm, ⟨22, _⟩ => ⟨S_, .i32⟩
  | .hbm, ⟨23, _⟩ => ⟨S400000, .i32⟩
  | .hbm, ⟨24, _⟩ => ⟨S400000, .i32⟩
  | .hbm, ⟨25, _⟩ => ⟨S400000, .i32⟩
  | .hbm, ⟨26, _⟩ => ⟨S400000x1, .i32⟩
  | .hbm, ⟨27, _⟩ => ⟨S400000x512, .f32⟩
  | .hbm, ⟨28, _⟩ => ⟨S_, .f32⟩
  | .hbm, ⟨29, _⟩ => ⟨S25000x512, .f32⟩
  | .hbm, ⟨30, _⟩ => ⟨S400000x1, .i32⟩
  | .hbm, ⟨31, _⟩ => ⟨S25000x512, .f32⟩
  | .hbm, ⟨32, _⟩ => ⟨S_, .f32⟩
  | .hbm, ⟨33, _⟩ => ⟨S400000, .f32⟩
  | .hbm, ⟨34, _⟩ => ⟨S_, .f32⟩
  | .hbm, ⟨35, _⟩ => ⟨S25000, .f32⟩
  | .hbm, ⟨36, _⟩ => ⟨S400000x1, .i32⟩
  | .hbm, ⟨37, _⟩ => ⟨S25000, .f32⟩
  | .hbm, ⟨38, _⟩ => ⟨S_, .f32⟩
  | .hbm, ⟨39, _⟩ => ⟨S25000, .f32⟩
  | .hbm, ⟨40, _⟩ => ⟨S25000, .f32⟩
  | .hbm, ⟨41, _⟩ => ⟨S25000x1, .f32⟩
  | .hbm, ⟨42, _⟩ => ⟨S25000x512, .f32⟩
  | .hbm, ⟨43, _⟩ => ⟨S25000x512, .f32⟩
  | .hbm, ⟨44, _⟩ => ⟨S25000x256, .f32⟩
  | .hbm, ⟨45, _⟩ => ⟨S25000x256, .f32⟩
  | .hbm, ⟨46, _⟩ => ⟨S25000x256, .f32⟩
  | .hbm, ⟨47, _⟩ => ⟨S1x256, .f32⟩
  | .hbm, ⟨48, _⟩ => ⟨S25000x256, .f32⟩
  | .hbm, ⟨49, _⟩ => ⟨S25000x256, .f32⟩
  | .hbm, ⟨50, _⟩ => ⟨S_, .f32⟩
  | .hbm, ⟨51, _⟩ => ⟨S25000x256, .f32⟩
  | .hbm, ⟨52, _⟩ => ⟨S25000x256, .f32⟩
  | .hbm, ⟨53, _⟩ => ⟨S6250x256, .f32⟩
  | .hbm, ⟨54, _⟩ => ⟨S_, .i32⟩
  | .hbm, ⟨55, _⟩ => ⟨S100000, .i32⟩
  | .hbm, ⟨56, _⟩ => ⟨S100000, .i1⟩
  | .hbm, ⟨57, _⟩ => ⟨S_, .i32⟩
  | .hbm, ⟨58, _⟩ => ⟨S100000, .i32⟩
  | .hbm, ⟨59, _⟩ => ⟨S100000, .i32⟩
  | .hbm, ⟨60, _⟩ => ⟨S100000, .i32⟩
  | .hbm, ⟨61, _⟩ => ⟨S100000x1, .i32⟩
  | .hbm, ⟨62, _⟩ => ⟨S100000x256, .f32⟩
  | .hbm, ⟨63, _⟩ => ⟨S_, .f32⟩
  | .hbm, ⟨64, _⟩ => ⟨S6250x256, .f32⟩
  | .hbm, ⟨65, _⟩ => ⟨S100000x1, .i32⟩
  | .hbm, ⟨66, _⟩ => ⟨S6250x256, .f32⟩
  | .hbm, ⟨67, _⟩ => ⟨S_, .f32⟩
  | .hbm, ⟨68, _⟩ => ⟨S100000, .f32⟩
  | .hbm, ⟨69, _⟩ => ⟨S_, .f32⟩
  | .hbm, ⟨70, _⟩ => ⟨S6250, .f32⟩
  | .hbm, ⟨71, _⟩ => ⟨S100000x1, .i32⟩
  | .hbm, ⟨72, _⟩ => ⟨S6250, .f32⟩
  | .hbm, ⟨73, _⟩ => ⟨S_, .f32⟩
  | .hbm, ⟨74, _⟩ => ⟨S6250, .f32⟩
  | .hbm, ⟨75, _⟩ => ⟨S6250, .f32⟩
  | .hbm, ⟨76, _⟩ => ⟨S6250x1, .f32⟩
  | .hbm, ⟨77, _⟩ => ⟨S6250x256, .f32⟩
  | .hbm, ⟨78, _⟩ => ⟨S6250x256, .f32⟩
  | .hbm, ⟨79, _⟩ => ⟨S6250x256, .f32⟩
  | .hbm, ⟨80, _⟩ => ⟨S6250x256, .f32⟩
  | .hbm, ⟨81, _⟩ => ⟨S6250x256, .f32⟩
  | .hbm, ⟨82, _⟩ => ⟨S1x256, .f32⟩
  | .hbm, ⟨83, _⟩ => ⟨S6250x256, .f32⟩
  | .hbm, ⟨84, _⟩ => ⟨S6250x256, .f32⟩
  | .hbm, ⟨85, _⟩ => ⟨S_, .f32⟩
  | .hbm, ⟨86, _⟩ => ⟨S6250x256, .f32⟩
  | .hbm, ⟨87, _⟩ => ⟨S6250x256, .f32⟩
  | .hbm, ⟨88, _⟩ => ⟨S1600x256, .f32⟩
  | .hbm, ⟨89, _⟩ => ⟨S_, .i32⟩
  | .hbm, ⟨90, _⟩ => ⟨S25600, .i32⟩
  | .hbm, ⟨91, _⟩ => ⟨S25600, .i1⟩
  | .hbm, ⟨92, _⟩ => ⟨S_, .i32⟩
  | .hbm, ⟨93, _⟩ => ⟨S25600, .i32⟩
  | .hbm, ⟨94, _⟩ => ⟨S25600, .i32⟩
  | .hbm, ⟨95, _⟩ => ⟨S25600, .i32⟩
  | .hbm, ⟨96, _⟩ => ⟨S25600x1, .i32⟩
  | .hbm, ⟨97, _⟩ => ⟨S25600x256, .f32⟩
  | .hbm, ⟨98, _⟩ => ⟨S_, .f32⟩
  | .hbm, ⟨99, _⟩ => ⟨S1600x256, .f32⟩
  | .hbm, ⟨100, _⟩ => ⟨S25600x1, .i32⟩
  | .hbm, ⟨101, _⟩ => ⟨S1600x256, .f32⟩
  | .hbm, ⟨102, _⟩ => ⟨S_, .f32⟩
  | .hbm, ⟨103, _⟩ => ⟨S25600, .f32⟩
  | .hbm, ⟨104, _⟩ => ⟨S_, .f32⟩
  | .hbm, ⟨105, _⟩ => ⟨S1600, .f32⟩
  | .hbm, ⟨106, _⟩ => ⟨S25600x1, .i32⟩
  | .hbm, ⟨107, _⟩ => ⟨S1600, .f32⟩
  | .hbm, ⟨108, _⟩ => ⟨S_, .f32⟩
  | .hbm, ⟨109, _⟩ => ⟨S1600, .f32⟩
  | .hbm, ⟨110, _⟩ => ⟨S1600, .f32⟩
  | .hbm, ⟨111, _⟩ => ⟨S1600x1, .f32⟩
  | .hbm, ⟨112, _⟩ => ⟨S1600x256, .f32⟩
  | .hbm, ⟨113, _⟩ => ⟨S1600x256, .f32⟩
  | .hbm, ⟨114, _⟩ => ⟨S1600x256, .f32⟩
  | .hbm, ⟨115, _⟩ => ⟨S1600x256, .f32⟩
  | .hbm, ⟨116, _⟩ => ⟨S1600x256, .f32⟩
  | .hbm, ⟨117, _⟩ => ⟨S1x256, .f32⟩
  | .hbm, ⟨118, _⟩ => ⟨S1600x256, .f32⟩
  | .hbm, ⟨119, _⟩ => ⟨S1600x256, .f32⟩
  | .hbm, ⟨120, _⟩ => ⟨S1600x256, .f32⟩
  | .hbm, ⟨121, _⟩ => ⟨S1x256, .f32⟩
  | .hbm, ⟨122, _⟩ => ⟨S1600x256, .f32⟩
  | .hbm, ⟨123, _⟩ => ⟨S1600x256, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_cst_2 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_3 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_call0_cst : Ref sig .tc := ⟨.hbm, 50, rfl⟩
abbrev main_call0_v0 : Ref sig .tc := ⟨.hbm, 51, rfl⟩
abbrev main_v26 : Ref sig .tc := ⟨.hbm, 52, rfl⟩
abbrev main_v27 : Ref sig .tc := ⟨.hbm, 53, rfl⟩
abbrev main_c_4 : Ref sig .tc := ⟨.hbm, 54, rfl⟩
abbrev main_v28 : Ref sig .tc := ⟨.hbm, 55, rfl⟩
abbrev main_v29 : Ref sig .tc := ⟨.hbm, 56, rfl⟩
abbrev main_c_5 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_6 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_7 : Ref sig .tc := ⟨.hbm, 67, rfl⟩
abbrev main_v38 : Ref sig .tc := ⟨.hbm, 68, rfl⟩
abbrev main_cst_8 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_9 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_call1_cst : Ref sig .tc := ⟨.hbm, 85, rfl⟩
abbrev main_call1_v0 : Ref sig .tc := ⟨.hbm, 86, rfl⟩
abbrev main_v53 : Ref sig .tc := ⟨.hbm, 87, rfl⟩
abbrev main_v54 : Ref sig .tc := ⟨.hbm, 88, rfl⟩
abbrev main_c_10 : Ref sig .tc := ⟨.hbm, 89, rfl⟩
abbrev main_v55 : Ref sig .tc := ⟨.hbm, 90, rfl⟩
abbrev main_v56 : Ref sig .tc := ⟨.hbm, 91, rfl⟩
abbrev main_c_11 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_12 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_13 : Ref sig .tc := ⟨.hbm, 102, rfl⟩
abbrev main_v65 : Ref sig .tc := ⟨.hbm, 103, rfl⟩
abbrev main_cst_14 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_15 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩

abbrev nD : Nat := 1
abbrev τ : Topo := Topo.v7x

variable {F : FTy → Type} [FloatOps F]

class Facts₀ : Prop where
  slices_S100000x512_S25000x512_0_0 : S100000x512.Slices ![0, 0] S25000x512
  bcast_S_S400000 : S_.BroadcastsInDim S400000 (![] : Fin 0 → Fin S400000.rank)
  bcast_S400000_S400000x1_0 : S400000.BroadcastsInDim S400000x1 (![0] : Fin 1 → Fin S400000x1.rank)
  bcast_S_S25000x512 : S_.BroadcastsInDim S25000x512 (![] : Fin 0 → Fin S25000x512.rank)
  bcast_S_S25000 : S_.BroadcastsInDim S25000 (![] : Fin 0 → Fin S25000.rank)
  bcast_S25000_S25000x1_0 : S25000.BroadcastsInDim S25000x1 (![0] : Fin 1 → Fin S25000x1.rank)
  bcast_S25000x1_S25000x512_0_1 : S25000x1.BroadcastsInDim S25000x512 (![0, 1] : Fin 2 → Fin S25000x512.rank)
  bcast_S256_S1x256_1 : S256.BroadcastsInDim S1x256 (![1] : Fin 1 → Fin S1x256.rank)
  bcast_S1x256_S25000x256_0_1 : S1x256.BroadcastsInDim S25000x256 (![0, 1] : Fin 2 → Fin S25000x256.rank)
  bcast_S_S25000x256 : S_.BroadcastsInDim S25000x256 (![] : Fin 0 → Fin S25000x256.rank)
  slices_S25000x256_S6250x256_0_0 : S25000x256.Slices ![0, 0] S6250x256
  bcast_S_S100000 : S_.BroadcastsInDim S100000 (![] : Fin 0 → Fin S100000.rank)
  bcast_S100000_S100000x1_0 : S100000.BroadcastsInDim S100000x1 (![0] : Fin 1 → Fin S100000x1.rank)
  bcast_S_S6250x256 : S_.BroadcastsInDim S6250x256 (![] : Fin 0 → Fin S6250x256.rank)
  bcast_S_S6250 : S_.BroadcastsInDim S6250 (![] : Fin 0 → Fin S6250.rank)
  bcast_S6250_S6250x1_0 : S6250.BroadcastsInDim S6250x1 (![0] : Fin 1 → Fin S6250x1.rank)
  bcast_S6250x1_S6250x256_0_1 : S6250x1.BroadcastsInDim S6250x256 (![0, 1] : Fin 2 → Fin S6250x256.rank)
  bcast_S1x256_S6250x256_0_1 : S1x256.BroadcastsInDim S6250x256 (![0, 1] : Fin 2 → Fin S6250x256.rank)
  slices_S6250x256_S1600x256_0_0 : S6250x256.Slices ![0, 0] S1600x256
  bcast_S_S25600 : S_.BroadcastsInDim S25600 (![] : Fin 0 → Fin S25600.rank)
  bcast_S25600_S25600x1_0 : S25600.BroadcastsInDim S25600x1 (![0] : Fin 1 → Fin S25600x1.rank)
  bcast_S_S1600x256 : S_.BroadcastsInDim S1600x256 (![] : Fin 0 → Fin S1600x256.rank)
  bcast_S_S1600 : S_.BroadcastsInDim S1600 (![] : Fin 0 → Fin S1600.rank)
  bcast_S1600_S1600x1_0 : S1600.BroadcastsInDim S1600x1 (![0] : Fin 1 → Fin S1600x1.rank)
  bcast_S1600x1_S1600x256_0_1 : S1600x1.BroadcastsInDim S1600x256 (![0, 1] : Fin 2 → Fin S1600x256.rank)
  bcast_S1x256_S1600x256_0_1 : S1x256.BroadcastsInDim S1600x256 (![0, 1] : Fin 2 → Fin S1600x256.rank)
  gather_S100000x512_S400000x1_S400000x512_1_0_n_n_0_1_1512_wf : GatherDims.WF S100000x512 S400000x1 S400000x512 [1] [0] [] [0] [] 1 ![1, 512]
  scatter_S25000x512_S400000x1_S400000x512_1_0_0_1_wf : ScatterDims.WF S25000x512 S400000x1 S400000x512 [1] [0] [0] 1
  scatter_S25000_S400000x1_S400000_n_0_0_1_wf : ScatterDims.WF S25000 S400000x1 S400000 [] [0] [0] 1
  dot_S25000x512_S512x256_S25000x256_1_0_0_1_n_n_wf : DotDims.WF S25000x512 S512x256 S25000x256 [1] [0] [0] [1] [] []
  gather_S25000x256_S100000x1_S100000x256_1_0_n_n_0_1_1256_wf : GatherDims.WF S25000x256 S100000x1 S100000x256 [1] [0] [] [0] [] 1 ![1, 256]
  scatter_S6250x256_S100000x1_S100000x256_1_0_0_1_wf : ScatterDims.WF S6250x256 S100000x1 S100000x256 [1] [0] [0] 1
  scatter_S6250_S100000x1_S100000_n_0_0_1_wf : ScatterDims.WF S6250 S100000x1 S100000 [] [0] [0] 1
  dot_S6250x256_S256x256_S6250x256_1_0_0_1_n_n_wf : DotDims.WF S6250x256 S256x256 S6250x256 [1] [0] [0] [1] [] []
  gather_S6250x256_S25600x1_S25600x256_1_0_n_n_0_1_1256_wf : GatherDims.WF S6250x256 S25600x1 S25600x256 [1] [0] [] [0] [] 1 ![1, 256]
  scatter_S1600x256_S25600x1_S25600x256_1_0_0_1_wf : ScatterDims.WF S1600x256 S25600x1 S25600x256 [1] [0] [0] 1
  scatter_S1600_S25600x1_S25600_n_0_0_1_wf : ScatterDims.WF S1600 S25600x1 S25600 [] [0] [0] 1
  dot_S1600x256_S256x256_S1600x256_1_0_0_1_n_n_wf : DotDims.WF S1600x256 S256x256 S1600x256 [1] [0] [0] [1] [] []

variable [Facts₀]

def gather_S100000x512_S400000x1_S400000x512_1_0_n_n_0_1_1512 : GatherDims S100000x512 S400000x1 S400000x512 where
  offsetDims := [1]
  collapsedSliceDims := [0]
  operandBatchingDims := []
  startIndicesBatchingDims := []
  startIndexMap := [0]
  indexVectorDim := 1
  sliceSizes := ![1, 512]
  wf := gather_S100000x512_S400000x1_S400000x512_1_0_n_n_0_1_1512_wf
def scatter_S25000x512_S400000x1_S400000x512_1_0_0_1 : ScatterDims S25000x512 S400000x1 S400000x512 where
  updateWindowDims := [1]
  insertedWindowDims := [0]
  scatterDimsToOperandDims := [0]
  indexVectorDim := 1
  wf := scatter_S25000x512_S400000x1_S400000x512_1_0_0_1_wf
def scatter_S25000_S400000x1_S400000_n_0_0_1 : ScatterDims S25000 S400000x1 S400000 where
  updateWindowDims := []
  insertedWindowDims := [0]
  scatterDimsToOperandDims := [0]
  indexVectorDim := 1
  wf := scatter_S25000_S400000x1_S400000_n_0_0_1_wf
def dot_S25000x512_S512x256_S25000x256_1_0_0_1_n_n : DotDims S25000x512 S512x256 S25000x256 where
  lhsContracting := [1]
  rhsContracting := [0]
  lhsNonContracting := [0]
  rhsNonContracting := [1]
  lhsBatch := []
  rhsBatch := []
  wf := dot_S25000x512_S512x256_S25000x256_1_0_0_1_n_n_wf
def gather_S25000x256_S100000x1_S100000x256_1_0_n_n_0_1_1256 : GatherDims S25000x256 S100000x1 S100000x256 where
  offsetDims := [1]
  collapsedSliceDims := [0]
  operandBatchingDims := []
  startIndicesBatchingDims := []
  startIndexMap := [0]
  indexVectorDim := 1
  sliceSizes := ![1, 256]
  wf := gather_S25000x256_S100000x1_S100000x256_1_0_n_n_0_1_1256_wf
def scatter_S6250x256_S100000x1_S100000x256_1_0_0_1 : ScatterDims S6250x256 S100000x1 S100000x256 where
  updateWindowDims := [1]
  insertedWindowDims := [0]
  scatterDimsToOperandDims := [0]
  indexVectorDim := 1
  wf := scatter_S6250x256_S100000x1_S100000x256_1_0_0_1_wf
def scatter_S6250_S100000x1_S100000_n_0_0_1 : ScatterDims S6250 S100000x1 S100000 where
  updateWindowDims := []
  insertedWindowDims := [0]
  scatterDimsToOperandDims := [0]
  indexVectorDim := 1
  wf := scatter_S6250_S100000x1_S100000_n_0_0_1_wf
def dot_S6250x256_S256x256_S6250x256_1_0_0_1_n_n : DotDims S6250x256 S256x256 S6250x256 where
  lhsContracting := [1]
  rhsContracting := [0]
  lhsNonContracting := [0]
  rhsNonContracting := [1]
  lhsBatch := []
  rhsBatch := []
  wf := dot_S6250x256_S256x256_S6250x256_1_0_0_1_n_n_wf
def gather_S6250x256_S25600x1_S25600x256_1_0_n_n_0_1_1256 : GatherDims S6250x256 S25600x1 S25600x256 where
  offsetDims := [1]
  collapsedSliceDims := [0]
  operandBatchingDims := []
  startIndicesBatchingDims := []
  startIndexMap := [0]
  indexVectorDim := 1
  sliceSizes := ![1, 256]
  wf := gather_S6250x256_S25600x1_S25600x256_1_0_n_n_0_1_1256_wf
def scatter_S1600x256_S25600x1_S25600x256_1_0_0_1 : ScatterDims S1600x256 S25600x1 S25600x256 where
  updateWindowDims := [1]
  insertedWindowDims := [0]
  scatterDimsToOperandDims := [0]
  indexVectorDim := 1
  wf := scatter_S1600x256_S25600x1_S25600x256_1_0_0_1_wf
def scatter_S1600_S25600x1_S25600_n_0_0_1 : ScatterDims S1600 S25600x1 S25600 where
  updateWindowDims := []
  insertedWindowDims := [0]
  scatterDimsToOperandDims := [0]
  indexVectorDim := 1
  wf := scatter_S1600_S25600x1_S25600_n_0_0_1_wf
def dot_S1600x256_S256x256_S1600x256_1_0_0_1_n_n : DotDims S1600x256 S256x256 S1600x256 where
  lhsContracting := [1]
  rhsContracting := [0]
  lhsNonContracting := [0]
  rhsNonContracting := [1]
  lhsBatch := []
  rhsBatch := []
  wf := dot_S1600x256_S256x256_S1600x256_1_0_0_1_n_n_wf

class Facts : Prop extends Facts₀ where

variable [Facts]
-- ==== Proof.KB.Region0.lean ====
/-
  The first pallas_call: the projection `x · Wn0`, 2000 rows of `x` at a grid point against the whole of `Wn0`.

  At grid point `t` the body finds rows `2000 t … 2000 t + 1999` of `x` in its first buffer and `Wn0` in its
  second (fetched at the first point and left there), and stores their product over the whole of its output
  buffer.  Stated at any float instance: what each input buffer holds at every point, what the output buffer
  holds after the body (the one store's value, which covers the buffer), the body's triple, and the pipeline's
  obligation at every point.
-/
import proofs.«417426_j23381801959787_3_alg».proof.Proof.Gen.Kernel.Launch
import proofs.«417426_j23381801959787_3_alg».proof.Proof.Gen.Kernel.Skeleton
import proofs.«417426_j23381801959787_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, fetched there or not: where it is not fetched the
    block index has not moved, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_x : Rect S2000x512 := Rect.unit (s := S2000x512) ![0, 0] S2000x512.size inb_S2000x512_S2000x512_0_0
abbrev r0_w : Rect S512x256 := Rect.unit (s := S512x256) ![0, 0] S512x256.size inb_S512x256_S512x256_0_0
abbrev r0_o : Rect S2000x256 := Rect.unit (s := S2000x256) ![0, 0] S2000x256.size inb_S2000x256_S2000x256_0_0

/-! ## What the body leaves in the output buffer -/

/-- The output buffer after the body: its one store, of the product of the two loaded blocks. -/
def out0_2 (x0 : Vec F S2000x512 .f32) (x1 : Vec F S512x256 .f32) : Vec F S2000x256 .f32 :=
  View.canon [⟨r0_o, k0_pay1 (View.ld x0 r0_x) (View.ld x1 r0_w)⟩]

/-- The store is of the whole buffer, so it covers it. -/
theorem cover0_2 (p0 : Vec F S2000x256 .f32) (y : S2000x256.Idx) :
    ∃ pc ∈ ([⟨r0_o, p0⟩] : List (View.Piece (Elt F) S2000x256 .f32)), y ∈ pc.1.set :=
  View.cover_of_tiled [⟨r0_o, p0⟩] S2000x256.size (by rfl) y

/-! ## The body's triple -/

set_option maxHeartbeats 1000000 in
/-- The body on whole buffers, the inputs' at contents `x0`, `x1` and the output's at anything, runs to the
    continuation holding the inputs' as they were and the output's at `out0_2 x0 x1`. -/
theorem sound_kernel0 (c : Dev nD) (E : Set ℕ) (i : grid0.Coords)
    (arg1 : Memref sig .tc .vmem S2000x512 .f32) (harg1 : arg1.IsWhole) (arg2 : Memref sig .tc .vmem S512x256 .f32) (harg2 : arg2.IsWhole)
    (arg3 : Memref sig .tc .vmem S2000x256 .f32) (harg3 : arg3.IsWhole)
    (x0 : Vec F S2000x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at point `t` each input buffer at its block and the
    output's at `out0_2` of the two input blocks; the invariant the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Region1.lean ====
/-
  The second pallas_call: the combine step with projection, 1000 rows at a grid point.

  At grid point `t` the body finds rows `1000 t … 1000 t + 999` of `x` in its first buffer, the same rows of the
  projected segment sums in its second, the same rows of the column of segment sizes in its third, `Ws0` in its
  fourth and the bias `b0` in its fifth (the last two fetched at the first point and left there).  It stores,
  over the whole of its output buffer, `max (x · Ws0 + sums / max sizes 1 + b0) 0`, the sizes' column broadcast
  along the row and the bias along the column.  Stated at any float instance: what each input buffer holds at
  every point, what the output buffer holds after the body (the one store's value, which covers the buffer), the
  body's triple, and the pipeline's obligation at every point.
-/
import proofs.«417426_j23381801959787_3_alg».proof.Proof.Gen.Kernel.Launch
import proofs.«417426_j23381801959787_3_alg».proof.Proof.Gen.Kernel.Skeleton
import proofs.«417426_j23381801959787_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, fetched there or not: where it is not fetched the
    block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_x : Rect S1000x512 := Rect.unit (s := S1000x512) ![0, 0] S1000x512.size inb_S1000x512_S1000x512_0_0
abbrev r1_s : Rect S1000x256 := Rect.unit (s := S1000x256) ![0, 0] S1000x256.size inb_S1000x256_S1000x256_0_0
abbrev r1_n : Rect S1000x1 := Rect.unit (s := S1000x1) ![0, 0] S1000x1.size inb_S1000x1_S1000x1_0_0
abbrev r1_w : Rect S512x256 := Rect.unit (s := S512x256) ![0, 0] S512x256.size inb_S512x256_S512x256_0_0
abbrev r1_b : Rect S256 := Rect.unit (s := S256) ![0] S256.size inb_S256_S256_0
abbrev r1_o : Rect S1000x256 := Rect.unit (s := S1000x256) ![0, 0] S1000x256.size inb_S1000x256_S1000x256_0_0

/-! ## What the body leaves in the output buffer -/

/-- The output buffer after the body: its one store, of the combined value of the five loaded blocks (the rows of
    `x`, of the segment sums and of the segment sizes, then `Ws0` and `b0`). -/
def out1_5 (x0 : Vec F S1000x512 .f32) (x1 : Vec F S1000x256 .f32) (x2 : Vec F S1000x1 .f32) (x3 : Vec F S512x256 .f32)
    (x4 : Vec F S256 .f32) : Vec F S1000x256 .f32 :=
  View.canon [⟨r1_o, k1_pay1 (View.ld x2 r1_n) (View.ld x1 r1_s) (View.ld x0 r1_x) (View.ld x3 r1_w) (View.ld x4 r1_b)⟩]

/-- The store is of the whole buffer, so it covers it. -/
theorem cover1_5 (p0 : Vec F S1000x256 .f32) (y : S1000x256.Idx) :
    ∃ pc ∈ ([⟨r1_o, p0⟩] : List (View.Piece (Elt F) S1000x256 .f32)), y ∈ pc.1.set :=
  View.cover_of_tiled [⟨r1_o, p0⟩] S1000x256.size (by rfl) y

/-! ## The body's triple -/

set_option maxHeartbeats 2000000 in
/-- The body on whole buffers, the inputs' at contents `x0 … x4` and the output's at anything, runs to the
    continuation holding the inputs' as they were and the output's at `out1_5 x0 x1 x2 x3 x4`. -/
theorem sound_kernel1 (c : Dev nD) (E : Set ℕ) (i : grid1.Coords)
    (arg1 : Memref sig .tc .vmem S1000x512 .f32) (harg1 : arg1.IsWhole) (arg2 : Memref sig .tc .vmem S1000x256 .f32) (harg2 : arg2.IsWhole)
    (arg3 : Memref sig .tc .vmem S1000x1 .f32) (harg3 : arg3.IsWhole) (arg4 : Memref sig .tc .vmem S512x256 .f32) (harg4 : arg4.IsWhole)
    (arg5 : Memref sig .tc .vmem S256 .f32) (harg5 : arg5.IsWhole) (arg6 : Memref sig .tc .vmem S1000x256 .f32) (harg6 : arg6.IsWhole)
    (x0 : Vec F S1000x512 .f32) (x1 : Vec F S1000x256 .f32) (x2 : Vec F S1000x1 .f32) (x3 : Vec F S512x256 .f32) (x4 : Vec F S256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__combine_kernel_proj i arg1 harg1 arg2 harg2 arg3 harg3 arg4 harg4 arg5 harg5 arg6 harg6) K := by
  simp only [cc1__combine_kernel_proj_eq_skeleton]; unfold cc1__combine_kernel_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The arrays as the region finds them; after the body at point `t` each input buffer at its block and the
    output's at `out1_5` of the five input blocks; the invariant the scoped rest and the generator register,
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Region2.lean ====
/-
  The third pallas_call: the combine step, 800 rows at a grid point.

  At grid point `t` the body finds rows `800 t … 800 t + 799` of `h` in its first buffer, the same rows of the
  segment sums and of the segment sizes in its second and third, and the two weight matrices and the bias in the
  next three (fetched at the first point and left there).  It stores, over the whole of its output buffer,
  `max (h · Ws1 + (sums / max sizes 1) · Wn1 + b1) 0`.  Stated at any float instance: what each input buffer
  holds at every point, what the output buffer holds after the body (the one store's value, which covers the
  buffer), the body's triple, and the pipeline's obligation at every point.

  The array of `h` has 25000 rows, which 800 does not divide: its window cuts a block at the array's end.  The
  grid has 8 points, rows `0 … 6399`, so no block of this call is cut; that is decided point by point, and the
  first buffer's contents are stated over the full block of 800 rows.
-/

import proofs.«417426_j23381801959787_3_alg».proof.Proof.Gen.Kernel.Launch
import proofs.«417426_j23381801959787_3_alg».proof.Proof.Gen.Kernel.Skeleton
import proofs.«417426_j23381801959787_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The first window: no block of the eight is cut -/

/-- At each of the eight points the block of `h` ends inside the array: `800 (t + 1) ≤ 6400 ≤ 25000`, and the
    columns are all of the array's. -/
theorem clip2_0_none (t : Fin cfg2.N) (a) : (cfg2.win 0).clip (cfg2.grid.coords t) a = none := by
  rcases fin_N2 t with rfl | rfl | rfl | rfl | rfl | rfl | rfl | rfl <;>
    (revert a; decide)

/-- The first window's block index at point `t` is `(t, 0)`. -/
theorem index2_0 (t : Fin cfg2.N) : (cfg2.win 0).index t = ![t.val, 0] := by
  rcases fin_N2 t with rfl | rfl | rfl | rfl | rfl | rfl | rfl | rfl <;> decide

/-- Rows `800 t … 800 t + 799` of `h` as the region finds it, over the full block. -/
def h2blk (c : Dev nD) (t : Fin cfg2.N) : S800x256.Idx → Elt F .f32 :=
  (cfg2.win 0).fill (cfg2.grid.coords t) (fun _ => Scalar.ofBits .f32 0#32) (iblk2 V c 0 t)

/-- The first window's buffer holds the full block at every point: it is fetched at every point, and an uncut
    fetch fills the whole buffer. -/
theorem before2_0_of {c : Dev nD} (dat : Dat τ (Elt F) Unit ℕ (UR sig nD τ) ℕ cfg2 c) (hA : dat.A 0 = V c (Pipeline.arrRef spec2 0))
    (hafter : ∀ t, dat.after 0 t = h2blk V c t) (t : Fin cfg2.N) (d) : dat.before 0 t d = h2blk V c t := by
  rw [dat.before_fetched 0 t (fetch2_0 t) d, dat.fetched_of_clip_none 0 t (clip2_0_none t) d (fun _ => Scalar.ofBits .f32 0#32)]
  unfold Dat.fetched Dat.blockOf h2blk iblk2; rw [hA]

/-- Every index of the full block is one the fetch moves, the block being uncut. -/
theorem moved2_0 (t : Fin cfg2.N) (j : S800x256.Idx) : (cfg2.win 0).moved (cfg2.grid.coords t) j = true :=
  ((cfg2.win 0).moved_iff _ j).mpr fun a => by have := (j a).isLt; unfold Window.xsize; rw [clip2_0_none t a]; exact this

/-- Row `p`, column `q` of the full block at point `t` is row `800 t + p`, column `q` of `h`. -/
theorem h2blk_apply (c : Dev nD) (t : Fin cfg2.N) (p : Fin 800) (q : Fin 256) :
    h2blk V c t (ValueIdx.ix2 p q)
      = (V c (Pipeline.arrRef spec2 0) : S25000x256.Idx → Elt F .f32)
          (ValueIdx.ix2 ⟨800 * t.val + p.val, by have := Nat.lt_of_lt_of_eq t.isLt N_2; have := p.isLt; omega⟩ q) := by
  unfold h2blk Window.fill
  rw [dif_pos (moved2_0 t _)]
  unfold iblk2
  rw [View.read_apply, cast_eq]
  congr 1
  funext a
  apply Fin.ext
  show (((cfg2.win 0).rect t).emb _ a : Nat) = _
  rw [Window.rect_emb_val, index2_0]
  match a with
  | ⟨0, _⟩ => show t.val * 800 + p.val = 800 * t.val + p.val; omega
  | ⟨1, _⟩ => show 0 * 256 + q.val = q.val; omega

/-- An input window's buffer holds its block at every point, fetched there or not: where it is not fetched the
    block index has not moved, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_x : Rect S800x256 := Rect.unit (s := S800x256) ![0, 0] S800x256.size inb_S800x256_S800x256_0_0
abbrev r2_n : Rect S800x1 := Rect.unit (s := S800x1) ![0, 0] S800x1.size inb_S800x1_S800x1_0_0
abbrev r2_w : Rect S256x256 := Rect.unit (s := S256x256) ![0, 0] S256x256.size inb_S256x256_S256x256_0_0
abbrev r2_b : Rect S256 := Rect.unit (s := S256) ![0] S256.size inb_S256_S256_0
abbrev r2_o : Rect S800x256 := Rect.unit (s := S800x256) ![0, 0] S800x256.size inb_S800x256_S800x256_0_0

/-! ## What the body leaves in the output buffer -/

/-- The output buffer after the body: its one store, of `max (h · Ws1 + (sums / max sizes 1) · Wn1 + b1) 0` over
    the loaded blocks (`x0` the rows of `h`, `x1` the sums, `x2` the sizes, `x3`, `x4` the weights, `x5` the bias). -/
def out2_6 (x0 : Vec F S800x256 .f32) (x1 : Vec F S800x256 .f32) (x2 : Vec F S800x1 .f32) (x3 : Vec F S256x256 .f32) (x4 : Vec F S256x256 .f32)
    (x5 : Vec F S256 .f32) : Vec F S800x256 .f32 :=
  View.canon [⟨r2_o, k2_pay1 (View.ld x2 r2_n) (View.ld x1 r2_x) (View.ld x0 r2_x) (View.ld x3 r2_w) (View.ld x4 r2_w) (View.ld x5 r2_b)⟩]

/-- The store is of the whole buffer, so it covers it. -/
theorem cover2_6 (p0 : Vec F S800x256 .f32) (y : S800x256.Idx) :
    ∃ pc ∈ ([⟨r2_o, p0⟩] : List (View.Piece (Elt F) S800x256 .f32)), y ∈ pc.1.set :=
  View.cover_of_tiled [⟨r2_o, p0⟩] S800x256.size (by rfl) y

/-! ## The body's triple -/

set_option maxHeartbeats 2000000 in
/-- The body on whole buffers, the inputs' at contents `x0 … x5` and the output's at anything, runs to the
    continuation holding the inputs' as they were and the output's at `out2_6 x0 … x5`. -/
theorem sound_kernel2 (c : Dev nD) (E : Set ℕ) (i : grid2.Coords)
    (arg1 : Memref sig .tc .vmem S800x256 .f32) (harg1 : arg1.IsWhole)
    (arg2 : Memref sig .tc .vmem S800x256 .f32) (harg2 : arg2.IsWhole)
    (arg3 : Memref sig .tc .vmem S800x1 .f32) (harg3 : arg3.IsWhole)
    (arg4 : Memref sig .tc .vmem S256x256 .f32) (harg4 : arg4.IsWhole)
    (arg5 : Memref sig .tc .vmem S256x256 .f32) (harg5 : arg5.IsWhole)
    (arg6 : Memref sig .tc .vmem S256 .f32) (harg6 : arg6.IsWhole)
    (arg7 : Memref sig .tc .vmem S800x256 .f32) (harg7 : arg7.IsWhole)
    (x0 : Vec F S800x256 .f32) (x1 : Vec F S800x256 .f32) (x2 : Vec F S800x1 .f32) (x3 : Vec F S256x256 .f32) (x4 : Vec F S256x256 .f32) (x5 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__combine_kernel i arg1 harg1 arg2 harg2 arg3 harg3 arg4 harg4 arg5 harg5 arg6 harg6 arg7 harg7) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The arrays as the region finds them; after the body at point `t` each input buffer at its block (the first
    at the full block of `h`) and the output's at `out2_6` of the six input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => h2blk V c t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (h2blk V c t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = h2blk V c t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (h2blk V c t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = h2blk V c t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so the triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (h2blk V c t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Region3.lean ====
/-
  The fourth pallas_call: the last layer's combination followed by the final linear map, 400 rows at a grid
  point.

  At grid point `t` the body finds rows `400 t … 400 t + 399` of the node features `h`, of the segment sums
  and of the segment sizes in its first three buffers, and the weights `Ws2`, `Wn2`, `b2`, `W_fc`, `b_fc`
  whole in the next five (fetched at the first point and left there).  It stores, over the whole of its output
  buffer, `(h · Ws2 + (sums / max sizes 1) · Wn2 + b2) · W_fc + b_fc`.  Stated at any float instance: what each
  input buffer holds at every point, what the output buffer holds after the body (the one store's value, which
  covers the buffer), the body's triple, and the pipeline's obligation at every point.
-/
import proofs.«417426_j23381801959787_3_alg».proof.Proof.Gen.Kernel.Launch
import proofs.«417426_j23381801959787_3_alg».proof.Proof.Gen.Kernel.Skeleton
import proofs.«417426_j23381801959787_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's buffer holds its block at every point, fetched there or not: where it is not fetched the
    block index has not moved, and the body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_x : Rect S400x256 := Rect.unit (s := S400x256) ![0, 0] S400x256.size inb_S400x256_S400x256_0_0
abbrev r3_n : Rect S400x1 := Rect.unit (s := S400x1) ![0, 0] S400x1.size inb_S400x1_S400x1_0_0
abbrev r3_w : Rect S256x256 := Rect.unit (s := S256x256) ![0, 0] S256x256.size inb_S256x256_S256x256_0_0
abbrev r3_b : Rect S256 := Rect.unit (s := S256) ![0] S256.size inb_S256_S256_0
abbrev r3_o : Rect S400x256 := Rect.unit (s := S400x256) ![0, 0] S400x256.size inb_S400x256_S400x256_0_0

/-! ## What the body leaves in the output buffer -/

/-- The output buffer after the body: its one store, of the combined and linearly mapped rows.  The blocks are
    named in window order (`h`, sums, sizes, `Ws2`, `Wn2`, `b2`, `W_fc`, `b_fc`); the body reads the sizes
    first, then the sums, then `h`, then the weights in order. -/
def out3_8 (x0 : Vec F S400x256 .f32) (x1 : Vec F S400x256 .f32) (x2 : Vec F S400x1 .f32) (x3 : Vec F S256x256 .f32)
    (x4 : Vec F S256x256 .f32) (x5 : Vec F S256 .f32) (x6 : Vec F S256x256 .f32) (x7 : Vec F S256 .f32) : Vec F S400x256 .f32 :=
  View.canon [⟨r3_o, k3_pay1 (View.ld x2 r3_n) (View.ld x1 r3_x) (View.ld x0 r3_x) (View.ld x3 r3_w) (View.ld x4 r3_w)
    (View.ld x5 r3_b) (View.ld x6 r3_w) (View.ld x7 r3_b)⟩]

/-- The store is of the whole buffer, so it covers it. -/
theorem cover3_8 (p0 : Vec F S400x256 .f32) (y : S400x256.Idx) :
    ∃ pc ∈ ([⟨r3_o, p0⟩] : List (View.Piece (Elt F) S400x256 .f32)), y ∈ pc.1.set :=
  View.cover_of_tiled [⟨r3_o, p0⟩] S400x256.size (by rfl) y

/-! ## The body's triple -/

set_option maxHeartbeats 4000000 in
/-- The body on whole buffers, the inputs' at contents `x0 … x7` and the output's at anything, runs to the
    continuation holding the inputs' as they were and the output's at `out3_8 x0 … x7`. -/
theorem sound_kernel3 (c : Dev nD) (E : Set ℕ) (i : grid3.Coords)
    (arg1 : Memref sig .tc .vmem S400x256 .f32) (harg1 : arg1.IsWhole)
    (arg2 : Memref sig .tc .vmem S400x256 .f32) (harg2 : arg2.IsWhole)
    (arg3 : Memref sig .tc .vmem S400x1 .f32) (harg3 : arg3.IsWhole)
    (arg4 : Memref sig .tc .vmem S256x256 .f32) (harg4 : arg4.IsWhole)
    (arg5 : Memref sig .tc .vmem S256x256 .f32) (harg5 : arg5.IsWhole)
    (arg6 : Memref sig .tc .vmem S256 .f32) (harg6 : arg6.IsWhole)
    (arg7 : Memref sig .tc .vmem S256x256 .f32) (harg7 : arg7.IsWhole)
    (arg8 : Memref sig .tc .vmem S256 .f32) (harg8 : arg8.IsWhole)
    (arg9 : Memref sig .tc .vmem S400x256 .f32) (harg9 : arg9.IsWhole)
    (x0 : Vec F S400x256 .f32) (x1 : Vec F S400x256 .f32) (x2 : Vec F S400x1 .f32) (x3 : Vec F S256x256 .f32) (x4 : Vec F S256x256 .f32) (x5 : Vec F S256 .f32) (x6 : Vec F S256x256 .f32) (x7 : Vec F S256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ (∃ d, owns (c : Thread nD τ) arg9 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare (out3_8 x0 x1 x2 x3 x4 x5 x6 x7)) -∗ K ⟨⟩))
      ⊢ wp frame (wpE (defs₀ (F := F)) Variants.none c none) E (cc3__combine_fc_kernel i arg1 harg1 arg2 harg2 arg3 harg3 arg4 harg4 arg5 harg5 arg6 harg6 arg7 harg7 arg8 harg8 arg9 harg9) K := by
  simp only [cc3__combine_fc_kernel_eq_skeleton]; unfold cc3__combine_fc_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover3_8 _)

/-! ## The pipeline's proof data -/

/-- The arrays as the region finds them; after the body at point `t` each input buffer at its block and the
    output's at `out3_8` of the eight input blocks; the invariant the scoped rest and the generator register,
    untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) :
    (dat3 V c).after 8 t = out3_8 (iblk3 V c 0 t) (iblk3 V c 1 t) (iblk3 V c 2 t) (iblk3 V c 3 t) (iblk3 V c 4 t) (iblk3 V c 5 t) (iblk3 V c 6 t) (iblk3 V c 7 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

/-- The body at any point: the inputs' buffers hold their blocks, so the triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Run.lean ====
/-
  The whole program's run: four pallas_calls among host operations.

  Between two items every unscoped buffer of the core is held at a known valuation: the launch memory; after a
  pallas_call the same with its result array replaced by the fold of the call's write-backs; after a stretch of host
  operations what those operations compute.  Each pallas_call is entered from the valuation before it, with its
  proof data taken at that valuation, and left at the one after it.  The conclusion: every weakly fair execution
  terminates without a fault, and every unscoped buffer ends at the last valuation — from which both "the arguments
  end unchanged" and "the result array is the last call's fold" are read.
-/
import proofs.«417426_j23381801959787_3_alg».proof.Proof.KB.Region0
import proofs.«417426_j23381801959787_3_alg».proof.Proof.KB.Region1
import proofs.«417426_j23381801959787_3_alg».proof.Proof.KB.Region2
import proofs.«417426_j23381801959787_3_alg».proof.Proof.KB.Region3
import proofs.«417426_j23381801959787_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- A valuation read at the TensorCore's references. -/
abbrev atRefs (W : Dev nD → Valuation τ sig (Elt F)) : (c : Dev nD) → (b : Ref sig .tc) → Buf (Elt F) ((c : Thread nD τ).loc b) :=
  fun c b => W c b

/-- Replacing a buffer's contents leaves another reference's alone. -/
theorem upd_ne {c : Dev nD} (W : Valuation τ sig (Elt F)) (a : Ref sig .tc) (v : Buf (Elt F) ((c : Thread nD τ).loc a)) (r : Ref sig .tc) (h : r ≠ a) :
    Function.update W (Proc.devRef .tc a) v (Proc.devRef .tc r) = W (Proc.devRef .tc r) :=
  Function.update_of_ne (StableHlo.devRef_ne_of_ne h) _ _

/-- After the first pallas_call: the launch memory with the projection in `main_v0`. -/
def B1 (c : Dev nD) : Valuation τ sig (Elt F) :=
  Function.update (V0 m c) main_v0 ((dat0 (atRefs (V0 m)) c).arrAt 2 cfg0.N)
/-- After the first take and the first pair of segment sums. -/
abbrev B2 (c : Dev nD) : Valuation τ sig (Elt F) := StableHlo.after hostOps1 (B1 m c)
abbrev B3 (c : Dev nD) : Valuation τ sig (Elt F) := StableHlo.after hostOps1_1 (B2 m c)
/-- After the second pallas_call: the first layer in `main_v10`. -/
def B4 (c : Dev nD) : Valuation τ sig (Elt F) :=
  Function.update (B3 m c) main_v10 ((dat1 (atRefs (B3 m)) c).arrAt 5 cfg1.N)
abbrev B5 (c : Dev nD) : Valuation τ sig (Elt F) := StableHlo.after hostOps2 (B4 m c)
abbrev B6 (c : Dev nD) : Valuation τ sig (Elt F) := StableHlo.after hostOps2_1 (B5 m c)
/-- After the third pallas_call: the second layer in `main_v20`. -/
def B7 (c : Dev nD) : Valuation τ sig (Elt F) :=
  Function.update (B6 m c) main_v20 ((dat2 (atRefs (B6 m)) c).arrAt 6 cfg2.N)
abbrev B8 (c : Dev nD) : Valuation τ sig (Elt F) := StableHlo.after hostOps3 (B7 m c)
abbrev B9 (c : Dev nD) : Valuation τ sig (Elt F) := StableHlo.after hostOps3_1 (B8 m c)
/-- After the last pallas_call: the result in `main_v30`. -/
def B10 (c : Dev nD) : Valuation τ sig (Elt F) :=
  Function.update (B9 m c) main_v30 ((dat3 (atRefs (B9 m)) c).arrAt 8 cfg3.N)

/-- What each pallas_call leaves, as the generated boundary valuations take it. -/
def outs : Outs (F := F) := fun J r c =>
  match J with
  | 1 => B1 m c r
  | 4 => B4 m c r
  | 7 => B7 m c r
  | 10 => B10 m c r
  | _ => m ((c : Thread nD τ).loc r)

/-- The generated boundary valuations at these contents are the ones above. -/
theorem VB1 (c : Dev nD) : V1 m (outs m) c = B1 m c := by
  show Function.update (V0 m c) (main_v0 : DevRef τ sig) (B1 m c main_v0) = B1 m c
  unfold B1; rw [Function.update_self]
theorem VB3 (c : Dev nD) : V3 m (outs m) c = B3 m c := by
  show StableHlo.after hostOps1_1 (StableHlo.after hostOps1 (V1 m (outs m) c)) = _
  rw [VB1]
theorem VB4 (c : Dev nD) : V4 m (outs m) c = B4 m c := by
  show Function.update (V3 m (outs m) c) (main_v10 : DevRef τ sig) (B4 m c main_v10) = B4 m c
  rw [VB3]; unfold B4; rw [Function.update_self]
theorem VB6 (c : Dev nD) : V6 m (outs m) c = B6 m c := by
  show StableHlo.after hostOps2_1 (StableHlo.after hostOps2 (V4 m (outs m) c)) = _
  rw [VB4]
theorem VB7 (c : Dev nD) : V7 m (outs m) c = B7 m c := by
  show Function.update (V6 m (outs m) c) (main_v20 : DevRef τ sig) (B7 m c main_v20) = B7 m c
  rw [VB6]; unfold B7; rw [Function.update_self]
theorem VB9 (c : Dev nD) : V9 m (outs m) c = B9 m c := by
  show StableHlo.after hostOps3_1 (StableHlo.after hostOps3 (V7 m (outs m) c)) = _
  rw [VB7]
theorem VB10 (c : Dev nD) : V10 m (outs m) c = B10 m c := by
  show Function.update (V9 m (outs m) c) (main_v30 : DevRef τ sig) (B10 m c main_v30) = B10 m c
  rw [VB9]; unfold B10; rw [Function.update_self]

/-! ## The proof data family and the thread state -/

/-- Every pipeline's proof data, each at its region's entry contents. -/
def pdats : (p : Fin 4) → (c : Dev nD) → Dat τ (Elt F) Unit ℕ (UR sig nD τ) ℕ (cfgs p) c
  | ⟨0, _⟩ => fun c => dat0 (atRefs (V0 m)) c
  | ⟨1, _⟩ => fun c => dat1 (atRefs (B3 m)) c
  | ⟨2, _⟩ => fun c => dat2 (atRefs (B6 m)) c
  | ⟨3, _⟩ => fun c => dat3 (atRefs (B9 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-- At region 0's exit each of its arrays holds what the pipeline leaves: an input's array is untouched, the result's is
    the fold of the write-backs. -/
theorem hF0 (c : Dev nD) (w : Fin cfg0.W) :
    (pdats m 0 c).arrAt w cfg0.N = atRefs (B1 m) c (Pipeline.arrRef spec0 w) := by
  match w with
  | ⟨0, _⟩ => exact ((dat0 _ c).arrAt_in 0 rfl _).trans ((A_eq0 _ c 0).trans (upd_ne _ _ _ _ (by decide)).symm)
  | ⟨1, _⟩ => exact ((dat0 _ c).arrAt_in 1 rfl _).trans ((A_eq0 _ c 1).trans (upd_ne _ _ _ _ (by decide)).symm)
  | ⟨2, _⟩ => exact (Function.update_self (β := fun b : DevRef τ sig => Buf (Elt F) ((c : Thread nD τ).1, b)) _ _ _).symm

/-- and every other buffer holds what it held at entry. -/
theorem hrest0 (c : Dev nD) : ∀ b, b ∉ Finset.univ.image (Pipeline.arrRef spec0) → atRefs (B1 m) c b = atRefs (V0 m) c b :=
  fun b hb => upd_ne _ _ _ b fun e => hb (Finset.mem_image.mpr ⟨2, Finset.mem_univ _, (show Pipeline.arrRef spec0 2 = main_v0 from rfl).trans e.symm⟩)

/-- At region 1's exit each of its arrays holds what the pipeline leaves: an input's array is untouched, the result's is
    the fold of the write-backs. -/
theorem hF1 (c : Dev nD) (w : Fin cfg1.W) :
    (pdats m 1 c).arrAt w cfg1.N = atRefs (B4 m) c (Pipeline.arrRef spec1 w) := by
  match w with
  | ⟨0, _⟩ => exact ((dat1 _ c).arrAt_in 0 rfl _).trans ((A_eq1 _ c 0).trans (upd_ne _ _ _ _ (by decide)).symm)
  | ⟨1, _⟩ => exact ((dat1 _ c).arrAt_in 1 rfl _).trans ((A_eq1 _ c 1).trans (upd_ne _ _ _ _ (by decide)).symm)
  | ⟨2, _⟩ => exact ((dat1 _ c).arrAt_in 2 rfl _).trans ((A_eq1 _ c 2).trans (upd_ne _ _ _ _ (by decide)).symm)
  | ⟨3, _⟩ => exact ((dat1 _ c).arrAt_in 3 rfl _).trans ((A_eq1 _ c 3).trans (upd_ne _ _ _ _ (by decide)).symm)
  | ⟨4, _⟩ => exact ((dat1 _ c).arrAt_in 4 rfl _).trans ((A_eq1 _ c 4).trans (upd_ne _ _ _ _ (by decide)).symm)
  | ⟨5, _⟩ => exact (Function.update_self (β := fun b : DevRef τ sig => Buf (Elt F) ((c : Thread nD τ).1, b)) _ _ _).symm

/-- and every other buffer holds what it held at entry. -/
theorem hrest1 (c : Dev nD) : ∀ b, b ∉ Finset.univ.image (Pipeline.arrRef spec1) → atRefs (B4 m) c b = atRefs (B3 m) c b :=
  fun b hb => upd_ne _ _ _ b fun e => hb (Finset.mem_image.mpr ⟨5, Finset.mem_univ _, (show Pipeline.arrRef spec1 5 = main_v10 from rfl).trans e.symm⟩)

set_option maxHeartbeats 4000000 in
/-- At region 2's exit each of its arrays holds what the pipeline leaves: an input's array is untouched, the result's is
    the fold of the write-backs. -/
theorem hF2 (c : Dev nD) (w : Fin cfg2.W) :
    (pdats m 2 c).arrAt w cfg2.N = atRefs (B7 m) c (Pipeline.arrRef spec2 w) := by
  match w with
  | ⟨0, _⟩ => exact ((dat2 _ c).arrAt_in 0 rfl _).trans ((A_eq2 _ c 0).trans (upd_ne _ _ _ _ (by decide)).symm)
  | ⟨1, _⟩ => exact ((dat2 _ c).arrAt_in 1 rfl _).trans ((A_eq2 _ c 1).trans (upd_ne _ _ _ _ (by decide)).symm)
  | ⟨2, _⟩ => exact ((dat2 _ c).arrAt_in 2 rfl _).trans ((A_eq2 _ c 2).trans (upd_ne _ _ _ _ (by decide)).symm)
  | ⟨3, _⟩ => exact ((dat2 _ c).arrAt_in 3 rfl _).trans ((A_eq2 _ c 3).trans (upd_ne _ _ _ _ (by decide)).symm)
  | ⟨4, _⟩ => exact ((dat2 _ c).arrAt_in 4 rfl _).trans ((A_eq2 _ c 4).trans (upd_ne _ _ _ _ (by decide)).symm)
  | ⟨5, _⟩ => exact ((dat2 _ c).arrAt_in 5 rfl _).trans ((A_eq2 _ c 5).trans (upd_ne _ _ _ _ (by decide)).symm)
  | ⟨6, _⟩ => exact (Function.update_self (β := fun b : DevRef τ sig => Buf (Elt F) ((c : Thread nD τ).1, b)) _ _ _).symm

/-- and every other buffer holds what it held at entry. -/
theorem hrest2 (c : Dev nD) : ∀ b, b ∉ Finset.univ.image (Pipeline.arrRef spec2) → atRefs (B7 m) c b = atRefs (B6 m) c b :=
  fun b hb => upd_ne _ _ _ b fun e => hb (Finset.mem_image.mpr ⟨6, Finset.mem_univ _, (show Pipeline.arrRef spec2 6 = main_v20 from rfl).trans e.symm⟩)

set_option maxHeartbeats 4000000 in
/-- At region 3's exit each of its arrays holds what the pipeline leaves: an input's array is untouched, the result's is
    the fold of the write-backs. -/
theorem hF3 (c : Dev nD) (w : Fin cfg3.W) :
    (pdats m 3 c).arrAt w cfg3.N = atRefs (B10 m) c (Pipeline.arrRef spec3 w) := by
  match w with
  | ⟨0, _⟩ => exact ((dat3 _ c).arrAt_in 0 rfl _).trans ((A_eq3 _ c 0).trans (upd_ne _ _ _ _ (by decide)).symm)
  | ⟨1, _⟩ => exact ((dat3 _ c).arrAt_in 1 rfl _).trans ((A_eq3 _ c 1).trans (upd_ne _ _ _ _ (by decide)).symm)
  | ⟨2, _⟩ => exact ((dat3 _ c).arrAt_in 2 rfl _).trans ((A_eq3 _ c 2).trans (upd_ne _ _ _ _ (by decide)).symm)
  | ⟨3, _⟩ => exact ((dat3 _ c).arrAt_in 3 rfl _).trans ((A_eq3 _ c 3).trans (upd_ne _ _ _ _ (by decide)).symm)
  | ⟨4, _⟩ => exact ((dat3 _ c).arrAt_in 4 rfl _).trans ((A_eq3 _ c 4).trans (upd_ne _ _ _ _ (by decide)).symm)
  | ⟨5, _⟩ => exact ((dat3 _ c).arrAt_in 5 rfl _).trans ((A_eq3 _ c 5).trans (upd_ne _ _ _ _ (by decide)).symm)
  | ⟨6, _⟩ => exact ((dat3 _ c).arrAt_in 6 rfl _).trans ((A_eq3 _ c 6).trans (upd_ne _ _ _ _ (by decide)).symm)
  | ⟨7, _⟩ => exact ((dat3 _ c).arrAt_in 7 rfl _).trans ((A_eq3 _ c 7).trans (upd_ne _ _ _ _ (by decide)).symm)
  | ⟨8, _⟩ => exact (Function.update_self (β := fun b : DevRef τ sig => Buf (Elt F) ((c : Thread nD τ).1, b)) _ _ _).symm

/-- and every other buffer holds what it held at entry. -/
theorem hrest3 (c : Dev nD) : ∀ b, b ∉ Finset.univ.image (Pipeline.arrRef spec3) → atRefs (B10 m) c b = atRefs (B9 m) c b :=
  fun b hb => upd_ne _ _ _ b fun e => hb (Finset.mem_image.mpr ⟨8, Finset.mem_univ _, (show Pipeline.arrRef spec3 8 = main_v30 from rfl).trans e.symm⟩)

/-! ## The regions as items -/

-- a library lemma stated over the pinned configuration unifies with the printed one only when unification may unfold
-- plain definitions in a metavariable's type
set_option backward.isDefEq.respectTransparency.types false in
/-- Region 0 over the thread state: entered with every unscoped buffer at its entry contents, left with them at
    the exit contents.  Its arrays are split out of the unscoped buffers and put back at what the pipeline leaves;
    the generator register goes into the invariant and comes back; nothing is owed; the kernel has no semaphore
    of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atRefs (V0 m)) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (B1 m c) ∗ R c)
  X c := iprop(∃ r, prngReg c r)
  Y c := iprop(∃ r, prngReg c r)
  Z c := Pipeline.unscopedRest (Ix := Unit) (Name := ℕ) (U := UR sig nD τ) (Lvl := ℕ) spec0 c (atRefs (V0 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atRefs (V0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atRefs (V0 m) c) (atRefs (B1 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at its entry contents, left with them at
    the exit contents.  Its arrays are split out of the unscoped buffers and put back at what the pipeline leaves;
    the generator register goes into the invariant and comes back; nothing is owed; the kernel has no semaphore
    of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atRefs (B3 m)) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (atRefs (B3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atRefs (B3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atRefs (B3 m) c) (atRefs (B4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at its entry contents, left with them at
    the exit contents.  Its arrays are split out of the unscoped buffers and put back at what the pipeline leaves;
    the generator register goes into the invariant and comes back; nothing is owed; the kernel has no semaphore
    of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atRefs (B6 m)) c).loose
  hwaits := Pipeline.hwaits_of_owed_zero _ _ _ _ L lv 2 fun _ _ => rfl
  pre c := iprop(StableHlo.held (c : Thread nD τ) (Pipeline.ucRefs τ sig) (B6 m c) ∗ R c)
  post c := iprop(StableHlo.held (c : Thread nD τ) (Pipeline.ucRefs τ sig) (B7 m c) ∗ R c)
  X c := iprop(∃ r, prngReg c r)
  Y c := iprop(∃ r, prngReg c r)
  Z c := Pipeline.unscopedRest (Ix := Unit) (Name := ℕ) (U := UR sig nD τ) (Lvl := ℕ) spec2 c (atRefs (B6 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atRefs (B6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atRefs (B6 m) c) (atRefs (B7 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 over the thread state: entered with every unscoped buffer at its entry contents, left with them at
    the exit contents.  Its arrays are split out of the unscoped buffers and put back at what the pipeline leaves;
    the generator register goes into the invariant and comes back; nothing is owed; the kernel has no semaphore
    of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atRefs (B9 m)) c).loose
  hwaits := Pipeline.hwaits_of_owed_zero _ _ _ _ L lv 3 fun _ _ => rfl
  pre c := iprop(StableHlo.held (c : Thread nD τ) (Pipeline.ucRefs τ sig) (B9 m c) ∗ R c)
  post c := iprop(StableHlo.held (c : Thread nD τ) (Pipeline.ucRefs τ sig) (B10 m c) ∗ R c)
  X c := iprop(∃ r, prngReg c r)
  Y c := iprop(∃ r, prngReg c r)
  Z c := Pipeline.unscopedRest (Ix := Unit) (Name := ℕ) (U := UR sig nD τ) (Lvl := ℕ) spec3 c (atRefs (B9 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atRefs (B9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atRefs (B9 m) c) (atRefs (B10 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

section
-- the launch theorem's implicit arguments are found by unifying its conclusion with this one, which takes unfolding
-- plain definitions in a metavariable's type
set_option backward.isDefEq.respectTransparency.types false in
/-- The run, given the regions' records: every weakly fair execution of the program from memory `m` with zero counters
    terminates, and in every final memory each unscoped buffer holds what the last boundary's valuation says. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V6 m outs c) ∗ E 2 c) ⊢ R2.pre c)
    (hpost2 : ∀ c : Dev nD, R2.post c ⊢ iprop(StableHlo.held (c : Thread nD τ) (Pipeline.ucRefs τ sig) (V7 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c)) :
    θ_run defs (onTc (τ := τ) (main (F := F))) ⟨m, fun _ => 0, ρ⟩ (fun r => ∀ c : Dev nD,
      ∀ b ∈ Pipeline.ucRefs τ sig, r.2.mem ((c : Thread nD τ).1, b) = V10 m outs c b) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          StableHlo.seq hostOps3,
          StableHlo.seq hostOps3_1,
          Prog.lift (.customCall (Pipeline.entry 3) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨hpre0 c, hpost0 c, .rfl, hpre1 c, hpost1 c, .rfl, hpre2 c, hpost2 c, .rfl, hpre3 c, (hpost3 c).trans (sep_mono .rfl (hE4 c))⟩)
    (hinit := ?_) (QY := fun c s => ∀ b ∈ Pipeline.ucRefs τ sig, s.mem ((c : Thread nD τ).1, b) = V10 m outs c b)
    (hfin := fun c s' => ?_) (hQ := fun _ h => h)
  · -- the launch: the unscoped buffers are held at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V10 m outs c) s') $$ [Hh HSI]
    · isplitl [Hh] <;> iassumption
    icases Hr with ⟨%h, HSI⟩
    imodintro
    isplitr
    · ipureintro
      exact h
    · iexact HSI

end

variable (ρ : Dev nD → PrngReg)

-- the records' thread states are stated at the valuations above; the launch theorem's at the generated ones
set_option maxHeartbeats 4000000 in
set_option backward.isDefEq.respectTransparency.types false in
/-- THE RUN.  Every weakly fair execution of the program from memory `m` with zero counters terminates, nothing faulting,
    and every unscoped buffer ends holding the last boundary's contents. -/
theorem run : θ_run defs (onTc (τ := τ) (main (F := F))) ⟨m, fun _ => 0, ρ⟩ (fun r => ∀ c : Dev nD,
      ∀ b ∈ Pipeline.ucRefs τ sig, r.2.mem ((c : Thread nD τ).1, b) = B10 m c b) := by
  have h := run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => by rw [VB1]; exact .rfl)
    (reg1 m) (fun c => by rw [VB3]; exact .rfl) (fun c => by rw [VB4]; exact .rfl)
    (reg2 m) (fun c => by rw [VB6]; exact .rfl) (fun c => by rw [VB7]; exact .rfl)
    (reg3 m) (fun c => by rw [VB9]; exact .rfl) (fun c => by rw [VB10]; exact .rfl)
  refine (θ_run defs _ _).mono (fun r hr c b hb => ?_) h
  rw [← VB10]; exact hr c b hb

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the program runs to the end, nothing faulting, and every argument array ends as launched — no host
    operation writes an argument and no pallas_call's result array is one. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_arg0 (by decide))).trans ((congrFun (VB10 m c).symm _).trans (V10_main_arg0 m (outs m) c)),
     (h c _ (mem_uc main_arg1 (by decide))).trans ((congrFun (VB10 m c).symm _).trans (V10_main_arg1 m (outs m) c)),
     (h c _ (mem_uc main_arg2 (by decide))).trans ((congrFun (VB10 m c).symm _).trans (V10_main_arg2 m (outs m) c)),
     (h c _ (mem_uc main_arg3 (by decide))).trans ((congrFun (VB10 m c).symm _).trans (V10_main_arg3 m (outs m) c)),
     (h c _ (mem_uc main_arg4 (by decide))).trans ((congrFun (VB10 m c).symm _).trans (V10_main_arg4 m (outs m) c)),
     (h c _ (mem_uc main_arg5 (by decide))).trans ((congrFun (VB10 m c).symm _).trans (V10_main_arg5 m (outs m) c)),
     (h c _ (mem_uc main_arg6 (by decide))).trans ((congrFun (VB10 m c).symm _).trans (V10_main_arg6 m (outs m) c)),
     (h c _ (mem_uc main_arg7 (by decide))).trans ((congrFun (VB10 m c).symm _).trans (V10_main_arg7 m (outs m) c)),
     (h c _ (mem_uc main_arg8 (by decide))).trans ((congrFun (VB10 m c).symm _).trans (V10_main_arg8 m (outs m) c)),
     (h c _ (mem_uc main_arg9 (by decide))).trans ((congrFun (VB10 m c).symm _).trans (V10_main_arg9 m (outs m) c)),
     (h c _ (mem_uc main_arg10 (by decide))).trans ((congrFun (VB10 m c).symm _).trans (V10_main_arg10 m (outs m) c)),
     (h c _ (mem_uc main_arg11 (by decide))).trans ((congrFun (VB10 m c).symm _).trans (V10_main_arg11 m (outs m) c)),
     (h c _ (mem_uc main_arg12 (by decide))).trans ((congrFun (VB10 m c).symm _).trans (V10_main_arg12 m (outs m) c)),
     (h c _ (mem_uc main_arg13 (by decide))).trans ((congrFun (VB10 m c).symm _).trans (V10_main_arg13 m (outs m) c)),
     (h c _ (mem_uc main_arg14 (by decide))).trans ((congrFun (VB10 m c).symm _).trans (V10_main_arg14 m (outs m) c)),
     (h c _ (mem_uc main_arg15 (by decide))).trans ((congrFun (VB10 m c).symm _).trans (V10_main_arg15 m (outs m) c)),
     (h c _ (mem_uc main_arg16 (by decide))).trans ((congrFun (VB10 m c).symm _).trans (V10_main_arg16 m (outs m) c)),
     (h c _ (mem_uc main_arg17 (by decide))).trans ((congrFun (VB10 m c).symm _).trans (V10_main_arg17 m (outs m) c))⟩) (run m ρ)

/-- The result array after the run: what the last pallas_call's write-backs leave. -/
theorem result_eq (c : Dev nD) : B10 m c main_v30 = (dat3 (atRefs (B9 m)) c).arrAt 8 cfg3.N := by
  unfold B10; exact Function.update_self (β := fun b : DevRef τ sig => Buf (Elt F) ((c : Thread nD τ).1, b)) _ _ _

/-- The run with the result named: besides the arguments ending as launched, the result array `main_v30` ends at the
    last boundary's contents, the last pallas_call's fold. -/
theorem run_result :
    θ_run defs (onTc (τ := τ) (main (F := F))) ⟨m, fun _ => 0, ρ⟩ (fun r => ∀ c : Dev nD,
      r.2.mem ((c.tc : Thread nD τ).loc main_v30) = B10 m c main_v30
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨h c _ (mem_uc main_v30 (by decide)),
     (h c _ (mem_uc main_arg0 (by decide))).trans ((congrFun (VB10 m c).symm _).trans (V10_main_arg0 m (outs m) c)),
     (h c _ (mem_uc main_arg1 (by decide))).trans ((congrFun (VB10 m c).symm _).trans (V10_main_arg1 m (outs m) c)),
     (h c _ (mem_uc main_arg2 (by decide))).trans ((congrFun (VB10 m c).symm _).trans (V10_main_arg2 m (outs m) c)),
     (h c _ (mem_uc main_arg3 (by decide))).trans ((congrFun (VB10 m c).symm _).trans (V10_main_arg3 m (outs m) c)),
     (h c _ (mem_uc main_arg4 (by decide))).trans ((congrFun (VB10 m c).symm _).trans (V10_main_arg4 m (outs m) c)),
     (h c _ (mem_uc main_arg5 (by decide))).trans ((congrFun (VB10 m c).symm _).trans (V10_main_arg5 m (outs m) c)),
     (h c _ (mem_uc main_arg6 (by decide))).trans ((congrFun (VB10 m c).symm _).trans (V10_main_arg6 m (outs m) c)),
     (h c _ (mem_uc main_arg7 (by decide))).trans ((congrFun (VB10 m c).symm _).trans (V10_main_arg7 m (outs m) c)),
     (h c _ (mem_uc main_arg8 (by decide))).trans ((congrFun (VB10 m c).symm _).trans (V10_main_arg8 m (outs m) c)),
     (h c _ (mem_uc main_arg9 (by decide))).trans ((congrFun (VB10 m c).symm _).trans (V10_main_arg9 m (outs m) c)),
     (h c _ (mem_uc main_arg10 (by decide))).trans ((congrFun (VB10 m c).symm _).trans (V10_main_arg10 m (outs m) c)),
     (h c _ (mem_uc main_arg11 (by decide))).trans ((congrFun (VB10 m c).symm _).trans (V10_main_arg11 m (outs m) c)),
     (h c _ (mem_uc main_arg12 (by decide))).trans ((congrFun (VB10 m c).symm _).trans (V10_main_arg12 m (outs m) c)),
     (h c _ (mem_uc main_arg13 (by decide))).trans ((congrFun (VB10 m c).symm _).trans (V10_main_arg13 m (outs m) c)),
     (h c _ (mem_uc main_arg14 (by decide))).trans ((congrFun (VB10 m c).symm _).trans (V10_main_arg14 m (outs m) c)),
     (h c _ (mem_uc main_arg15 (by decide))).trans ((congrFun (VB10 m c).symm _).trans (V10_main_arg15 m (outs m) c)),
     (h c _ (mem_uc main_arg16 (by decide))).trans ((congrFun (VB10 m c).symm _).trans (V10_main_arg16 m (outs m) c)),
     (h c _ (mem_uc main_arg17 (by decide))).trans ((congrFun (VB10 m c).symm _).trans (V10_main_arg17 m (outs m) c))⟩) (run m ρ)

end Cert.Kernel.Hand

end
-- ==== Proof.KI.Region0.lean ====
/-
  The first pallas_call: the projection `x · Wn0`, 2000 rows of `x` at a grid point against the whole of `Wn0`.

  At grid point `t` the body finds rows `2000 t … 2000 t + 1999` of `x` in its first buffer and `Wn0` in its
  second (fetched at the first point and left there), and stores their product over the whole of its output
  buffer.  Stated at any float instance: what each input buffer holds at every point, what the output buffer
  holds after the body (the one store's value, which covers the buffer), the body's triple, and the pipeline's
  obligation at every point.
-/
import proofs.«417426_j23381801959787_3_alg».proof.Proof.Gen.KernelIdeal.Launch
import proofs.«417426_j23381801959787_3_alg».proof.Proof.Gen.KernelIdeal.Skeleton
import proofs.«417426_j23381801959787_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, fetched there or not: where it is not fetched the
    block index has not moved, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_x : Rect S2000x512 := Rect.unit (s := S2000x512) ![0, 0] S2000x512.size inb_S2000x512_S2000x512_0_0
abbrev r0_w : Rect S512x256 := Rect.unit (s := S512x256) ![0, 0] S512x256.size inb_S512x256_S512x256_0_0
abbrev r0_o : Rect S2000x256 := Rect.unit (s := S2000x256) ![0, 0] S2000x256.size inb_S2000x256_S2000x256_0_0

/-! ## What the body leaves in the output buffer -/

/-- The output buffer after the body: its one store, of the product of the two loaded blocks. -/
def out0_2 (x0 : Vec F S2000x512 .f32) (x1 : Vec F S512x256 .f32) : Vec F S2000x256 .f32 :=
  View.canon [⟨r0_o, k0_pay1 (View.ld x0 r0_x) (View.ld x1 r0_w)⟩]

/-- The store is of the whole buffer, so it covers it. -/
theorem cover0_2 (p0 : Vec F S2000x256 .f32) (y : S2000x256.Idx) :
    ∃ pc ∈ ([⟨r0_o, p0⟩] : List (View.Piece (Elt F) S2000x256 .f32)), y ∈ pc.1.set :=
  View.cover_of_tiled [⟨r0_o, p0⟩] S2000x256.size (by rfl) y

/-! ## The body's triple -/

set_option maxHeartbeats 1000000 in
/-- The body on whole buffers, the inputs' at contents `x0`, `x1` and the output's at anything, runs to the
    continuation holding the inputs' as they were and the output's at `out0_2 x0 x1`. -/
theorem sound_kernel0 (c : Dev nD) (E : Set ℕ) (i : grid0.Coords)
    (arg1 : Memref sig .tc .vmem S2000x512 .f32) (harg1 : arg1.IsWhole) (arg2 : Memref sig .tc .vmem S512x256 .f32) (harg2 : arg2.IsWhole)
    (arg3 : Memref sig .tc .vmem S2000x256 .f32) (harg3 : arg3.IsWhole)
    (x0 : Vec F S2000x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at point `t` each input buffer at its block and the
    output's at `out0_2` of the two input blocks; the invariant the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  The second pallas_call: the combine step with projection, 1000 rows at a grid point.

  At grid point `t` the body finds rows `1000 t … 1000 t + 999` of `x` in its first buffer, the same rows of the
  projected segment sums in its second, the same rows of the column of segment sizes in its third, `Ws0` in its
  fourth and the bias `b0` in its fifth (the last two fetched at the first point and left there).  It stores,
  over the whole of its output buffer, `max (x · Ws0 + sums / max sizes 1 + b0) 0`, the sizes' column broadcast
  along the row and the bias along the column.  Stated at any float instance: what each input buffer holds at
  every point, what the output buffer holds after the body (the one store's value, which covers the buffer), the
  body's triple, and the pipeline's obligation at every point.
-/
import proofs.«417426_j23381801959787_3_alg».proof.Proof.Gen.KernelIdeal.Launch
import proofs.«417426_j23381801959787_3_alg».proof.Proof.Gen.KernelIdeal.Skeleton
import proofs.«417426_j23381801959787_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, fetched there or not: where it is not fetched the
    block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_x : Rect S1000x512 := Rect.unit (s := S1000x512) ![0, 0] S1000x512.size inb_S1000x512_S1000x512_0_0
abbrev r1_s : Rect S1000x256 := Rect.unit (s := S1000x256) ![0, 0] S1000x256.size inb_S1000x256_S1000x256_0_0
abbrev r1_n : Rect S1000x1 := Rect.unit (s := S1000x1) ![0, 0] S1000x1.size inb_S1000x1_S1000x1_0_0
abbrev r1_w : Rect S512x256 := Rect.unit (s := S512x256) ![0, 0] S512x256.size inb_S512x256_S512x256_0_0
abbrev r1_b : Rect S256 := Rect.unit (s := S256) ![0] S256.size inb_S256_S256_0
abbrev r1_o : Rect S1000x256 := Rect.unit (s := S1000x256) ![0, 0] S1000x256.size inb_S1000x256_S1000x256_0_0

/-! ## What the body leaves in the output buffer -/

/-- The output buffer after the body: its one store, of the combined value of the five loaded blocks (the rows of
    `x`, of the segment sums and of the segment sizes, then `Ws0` and `b0`). -/
def out1_5 (x0 : Vec F S1000x512 .f32) (x1 : Vec F S1000x256 .f32) (x2 : Vec F S1000x1 .f32) (x3 : Vec F S512x256 .f32)
    (x4 : Vec F S256 .f32) : Vec F S1000x256 .f32 :=
  View.canon [⟨r1_o, k1_pay1 (View.ld x2 r1_n) (View.ld x1 r1_s) (View.ld x0 r1_x) (View.ld x3 r1_w) (View.ld x4 r1_b)⟩]

/-- The store is of the whole buffer, so it covers it. -/
theorem cover1_5 (p0 : Vec F S1000x256 .f32) (y : S1000x256.Idx) :
    ∃ pc ∈ ([⟨r1_o, p0⟩] : List (View.Piece (Elt F) S1000x256 .f32)), y ∈ pc.1.set :=
  View.cover_of_tiled [⟨r1_o, p0⟩] S1000x256.size (by rfl) y

/-! ## The body's triple -/

set_option maxHeartbeats 2000000 in
/-- The body on whole buffers, the inputs' at contents `x0 … x4` and the output's at anything, runs to the
    continuation holding the inputs' as they were and the output's at `out1_5 x0 x1 x2 x3 x4`. -/
theorem sound_kernel1 (c : Dev nD) (E : Set ℕ) (i : grid1.Coords)
    (arg1 : Memref sig .tc .vmem S1000x512 .f32) (harg1 : arg1.IsWhole) (arg2 : Memref sig .tc .vmem S1000x256 .f32) (harg2 : arg2.IsWhole)
    (arg3 : Memref sig .tc .vmem S1000x1 .f32) (harg3 : arg3.IsWhole) (arg4 : Memref sig .tc .vmem S512x256 .f32) (harg4 : arg4.IsWhole)
    (arg5 : Memref sig .tc .vmem S256 .f32) (harg5 : arg5.IsWhole) (arg6 : Memref sig .tc .vmem S1000x256 .f32) (harg6 : arg6.IsWhole)
    (x0 : Vec F S1000x512 .f32) (x1 : Vec F S1000x256 .f32) (x2 : Vec F S1000x1 .f32) (x3 : Vec F S512x256 .f32) (x4 : Vec F S256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__combine_kernel_proj i arg1 harg1 arg2 harg2 arg3 harg3 arg4 harg4 arg5 harg5 arg6 harg6) K := by
  simp only [cc1__combine_kernel_proj_eq_skeleton]; unfold cc1__combine_kernel_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The arrays as the region finds them; after the body at point `t` each input buffer at its block and the
    output's at `out1_5` of the five input blocks; the invariant the scoped rest and the generator register,
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/-
  The third pallas_call: the combine step, 800 rows at a grid point.

  At grid point `t` the body finds rows `800 t … 800 t + 799` of `h` in its first buffer, the same rows of the
  segment sums and of the segment sizes in its second and third, and the two weight matrices and the bias in the
  next three (fetched at the first point and left there).  It stores, over the whole of its output buffer,
  `max (h · Ws1 + (sums / max sizes 1) · Wn1 + b1) 0`.  Stated at any float instance: what each input buffer
  holds at every point, what the output buffer holds after the body (the one store's value, which covers the
  buffer), the body's triple, and the pipeline's obligation at every point.

  The array of `h` has 25000 rows, which 800 does not divide: its window cuts a block at the array's end.  The
  grid has 8 points, rows `0 … 6399`, so no block of this call is cut; that is decided point by point, and the
  first buffer's contents are stated over the full block of 800 rows.
-/

import proofs.«417426_j23381801959787_3_alg».proof.Proof.Gen.KernelIdeal.Launch
import proofs.«417426_j23381801959787_3_alg».proof.Proof.Gen.KernelIdeal.Skeleton
import proofs.«417426_j23381801959787_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The first window: no block of the eight is cut -/

/-- At each of the eight points the block of `h` ends inside the array: `800 (t + 1) ≤ 6400 ≤ 25000`, and the
    columns are all of the array's. -/
theorem clip2_0_none (t : Fin cfg2.N) (a) : (cfg2.win 0).clip (cfg2.grid.coords t) a = none := by
  rcases fin_N2 t with rfl | rfl | rfl | rfl | rfl | rfl | rfl | rfl <;>
    (revert a; decide)

/-- The first window's block index at point `t` is `(t, 0)`. -/
theorem index2_0 (t : Fin cfg2.N) : (cfg2.win 0).index t = ![t.val, 0] := by
  rcases fin_N2 t with rfl | rfl | rfl | rfl | rfl | rfl | rfl | rfl <;> decide

/-- Rows `800 t … 800 t + 799` of `h` as the region finds it, over the full block. -/
def h2blk (c : Dev nD) (t : Fin cfg2.N) : S800x256.Idx → Elt F .f32 :=
  (cfg2.win 0).fill (cfg2.grid.coords t) (fun _ => Scalar.ofBits .f32 0#32) (iblk2 V c 0 t)

/-- The first window's buffer holds the full block at every point: it is fetched at every point, and an uncut
    fetch fills the whole buffer. -/
theorem before2_0_of {c : Dev nD} (dat : Dat τ (Elt F) Unit ℕ (UR sig nD τ) ℕ cfg2 c) (hA : dat.A 0 = V c (Pipeline.arrRef spec2 0))
    (hafter : ∀ t, dat.after 0 t = h2blk V c t) (t : Fin cfg2.N) (d) : dat.before 0 t d = h2blk V c t := by
  rw [dat.before_fetched 0 t (fetch2_0 t) d, dat.fetched_of_clip_none 0 t (clip2_0_none t) d (fun _ => Scalar.ofBits .f32 0#32)]
  unfold Dat.fetched Dat.blockOf h2blk iblk2; rw [hA]

/-- Every index of the full block is one the fetch moves, the block being uncut. -/
theorem moved2_0 (t : Fin cfg2.N) (j : S800x256.Idx) : (cfg2.win 0).moved (cfg2.grid.coords t) j = true :=
  ((cfg2.win 0).moved_iff _ j).mpr fun a => by have := (j a).isLt; unfold Window.xsize; rw [clip2_0_none t a]; exact this

/-- Row `p`, column `q` of the full block at point `t` is row `800 t + p`, column `q` of `h`. -/
theorem h2blk_apply (c : Dev nD) (t : Fin cfg2.N) (p : Fin 800) (q : Fin 256) :
    h2blk V c t (ValueIdx.ix2 p q)
      = (V c (Pipeline.arrRef spec2 0) : S25000x256.Idx → Elt F .f32)
          (ValueIdx.ix2 ⟨800 * t.val + p.val, by have := Nat.lt_of_lt_of_eq t.isLt N_2; have := p.isLt; omega⟩ q) := by
  unfold h2blk Window.fill
  rw [dif_pos (moved2_0 t _)]
  unfold iblk2
  rw [View.read_apply, cast_eq]
  congr 1
  funext a
  apply Fin.ext
  show (((cfg2.win 0).rect t).emb _ a : Nat) = _
  rw [Window.rect_emb_val, index2_0]
  match a with
  | ⟨0, _⟩ => show t.val * 800 + p.val = 800 * t.val + p.val; omega
  | ⟨1, _⟩ => show 0 * 256 + q.val = q.val; omega

/-- An input window's buffer holds its block at every point, fetched there or not: where it is not fetched the
    block index has not moved, and the body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_x : Rect S800x256 := Rect.unit (s := S800x256) ![0, 0] S800x256.size inb_S800x256_S800x256_0_0
abbrev r2_n : Rect S800x1 := Rect.unit (s := S800x1) ![0, 0] S800x1.size inb_S800x1_S800x1_0_0
abbrev r2_w : Rect S256x256 := Rect.unit (s := S256x256) ![0, 0] S256x256.size inb_S256x256_S256x256_0_0
abbrev r2_b : Rect S256 := Rect.unit (s := S256) ![0] S256.size inb_S256_S256_0
abbrev r2_o : Rect S800x256 := Rect.unit (s := S800x256) ![0, 0] S800x256.size inb_S800x256_S800x256_0_0

/-! ## What the body leaves in the output buffer -/

/-- The output buffer after the body: its one store, of `max (h · Ws1 + (sums / max sizes 1) · Wn1 + b1) 0` over
    the loaded blocks (`x0` the rows of `h`, `x1` the sums, `x2` the sizes, `x3`, `x4` the weights, `x5` the bias). -/
def out2_6 (x0 : Vec F S800x256 .f32) (x1 : Vec F S800x256 .f32) (x2 : Vec F S800x1 .f32) (x3 : Vec F S256x256 .f32) (x4 : Vec F S256x256 .f32)
    (x5 : Vec F S256 .f32) : Vec F S800x256 .f32 :=
  View.canon [⟨r2_o, k2_pay1 (View.ld x2 r2_n) (View.ld x1 r2_x) (View.ld x0 r2_x) (View.ld x3 r2_w) (View.ld x4 r2_w) (View.ld x5 r2_b)⟩]

/-- The store is of the whole buffer, so it covers it. -/
theorem cover2_6 (p0 : Vec F S800x256 .f32) (y : S800x256.Idx) :
    ∃ pc ∈ ([⟨r2_o, p0⟩] : List (View.Piece (Elt F) S800x256 .f32)), y ∈ pc.1.set :=
  View.cover_of_tiled [⟨r2_o, p0⟩] S800x256.size (by rfl) y

/-! ## The body's triple -/

set_option maxHeartbeats 2000000 in
/-- The body on whole buffers, the inputs' at contents `x0 … x5` and the output's at anything, runs to the
    continuation holding the inputs' as they were and the output's at `out2_6 x0 … x5`. -/
theorem sound_kernel2 (c : Dev nD) (E : Set ℕ) (i : grid2.Coords)
    (arg1 : Memref sig .tc .vmem S800x256 .f32) (harg1 : arg1.IsWhole)
    (arg2 : Memref sig .tc .vmem S800x256 .f32) (harg2 : arg2.IsWhole)
    (arg3 : Memref sig .tc .vmem S800x1 .f32) (harg3 : arg3.IsWhole)
    (arg4 : Memref sig .tc .vmem S256x256 .f32) (harg4 : arg4.IsWhole)
    (arg5 : Memref sig .tc .vmem S256x256 .f32) (harg5 : arg5.IsWhole)
    (arg6 : Memref sig .tc .vmem S256 .f32) (harg6 : arg6.IsWhole)
    (arg7 : Memref sig .tc .vmem S800x256 .f32) (harg7 : arg7.IsWhole)
    (x0 : Vec F S800x256 .f32) (x1 : Vec F S800x256 .f32) (x2 : Vec F S800x1 .f32) (x3 : Vec F S256x256 .f32) (x4 : Vec F S256x256 .f32) (x5 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__combine_kernel i arg1 harg1 arg2 harg2 arg3 harg3 arg4 harg4 arg5 harg5 arg6 harg6 arg7 harg7) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The arrays as the region finds them; after the body at point `t` each input buffer at its block (the first
    at the full block of `h`) and the output's at `out2_6` of the six input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => h2blk V c t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (h2blk V c t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = h2blk V c t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (h2blk V c t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = h2blk V c t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so the triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (h2blk V c t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region3.lean ====
/-
  The fourth pallas_call: the last layer's combination followed by the final linear map, 400 rows at a grid
  point.

  At grid point `t` the body finds rows `400 t … 400 t + 399` of the node features `h`, of the segment sums
  and of the segment sizes in its first three buffers, and the weights `Ws2`, `Wn2`, `b2`, `W_fc`, `b_fc`
  whole in the next five (fetched at the first point and left there).  It stores, over the whole of its output
  buffer, `(h · Ws2 + (sums / max sizes 1) · Wn2 + b2) · W_fc + b_fc`.  Stated at any float instance: what each
  input buffer holds at every point, what the output buffer holds after the body (the one store's value, which
  covers the buffer), the body's triple, and the pipeline's obligation at every point.
-/
import proofs.«417426_j23381801959787_3_alg».proof.Proof.Gen.KernelIdeal.Launch
import proofs.«417426_j23381801959787_3_alg».proof.Proof.Gen.KernelIdeal.Skeleton
import proofs.«417426_j23381801959787_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: every statement below is at this parameter
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's buffer holds its block at every point, fetched there or not: where it is not fetched the
    block index has not moved, and the body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_x : Rect S400x256 := Rect.unit (s := S400x256) ![0, 0] S400x256.size inb_S400x256_S400x256_0_0
abbrev r3_n : Rect S400x1 := Rect.unit (s := S400x1) ![0, 0] S400x1.size inb_S400x1_S400x1_0_0
abbrev r3_w : Rect S256x256 := Rect.unit (s := S256x256) ![0, 0] S256x256.size inb_S256x256_S256x256_0_0
abbrev r3_b : Rect S256 := Rect.unit (s := S256) ![0] S256.size inb_S256_S256_0
abbrev r3_o : Rect S400x256 := Rect.unit (s := S400x256) ![0, 0] S400x256.size inb_S400x256_S400x256_0_0

/-! ## What the body leaves in the output buffer -/

/-- The output buffer after the body: its one store, of the combined and linearly mapped rows.  The blocks are
    named in window order (`h`, sums, sizes, `Ws2`, `Wn2`, `b2`, `W_fc`, `b_fc`); the body reads the sizes
    first, then the sums, then `h`, then the weights in order. -/
def out3_8 (x0 : Vec F S400x256 .f32) (x1 : Vec F S400x256 .f32) (x2 : Vec F S400x1 .f32) (x3 : Vec F S256x256 .f32)
    (x4 : Vec F S256x256 .f32) (x5 : Vec F S256 .f32) (x6 : Vec F S256x256 .f32) (x7 : Vec F S256 .f32) : Vec F S400x256 .f32 :=
  View.canon [⟨r3_o, k3_pay1 (View.ld x2 r3_n) (View.ld x1 r3_x) (View.ld x0 r3_x) (View.ld x3 r3_w) (View.ld x4 r3_w)
    (View.ld x5 r3_b) (View.ld x6 r3_w) (View.ld x7 r3_b)⟩]

/-- The store is of the whole buffer, so it covers it. -/
theorem cover3_8 (p0 : Vec F S400x256 .f32) (y : S400x256.Idx) :
    ∃ pc ∈ ([⟨r3_o, p0⟩] : List (View.Piece (Elt F) S400x256 .f32)), y ∈ pc.1.set :=
  View.cover_of_tiled [⟨r3_o, p0⟩] S400x256.size (by rfl) y

/-! ## The body's triple -/

set_option maxHeartbeats 4000000 in
/-- The body on whole buffers, the inputs' at contents `x0 … x7` and the output's at anything, runs to the
    continuation holding the inputs' as they were and the output's at `out3_8 x0 … x7`. -/
theorem sound_kernel3 (c : Dev nD) (E : Set ℕ) (i : grid3.Coords)
    (arg1 : Memref sig .tc .vmem S400x256 .f32) (harg1 : arg1.IsWhole)
    (arg2 : Memref sig .tc .vmem S400x256 .f32) (harg2 : arg2.IsWhole)
    (arg3 : Memref sig .tc .vmem S400x1 .f32) (harg3 : arg3.IsWhole)
    (arg4 : Memref sig .tc .vmem S256x256 .f32) (harg4 : arg4.IsWhole)
    (arg5 : Memref sig .tc .vmem S256x256 .f32) (harg5 : arg5.IsWhole)
    (arg6 : Memref sig .tc .vmem S256 .f32) (harg6 : arg6.IsWhole)
    (arg7 : Memref sig .tc .vmem S256x256 .f32) (harg7 : arg7.IsWhole)
    (arg8 : Memref sig .tc .vmem S256 .f32) (harg8 : arg8.IsWhole)
    (arg9 : Memref sig .tc .vmem S400x256 .f32) (harg9 : arg9.IsWhole)
    (x0 : Vec F S400x256 .f32) (x1 : Vec F S400x256 .f32) (x2 : Vec F S400x1 .f32) (x3 : Vec F S256x256 .f32) (x4 : Vec F S256x256 .f32) (x5 : Vec F S256 .f32) (x6 : Vec F S256x256 .f32) (x7 : Vec F S256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ (∃ d, owns (c : Thread nD τ) arg9 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare (out3_8 x0 x1 x2 x3 x4 x5 x6 x7)) -∗ K ⟨⟩))
      ⊢ wp frame (wpE (defs₀ (F := F)) Variants.none c none) E (cc3__combine_fc_kernel i arg1 harg1 arg2 harg2 arg3 harg3 arg4 harg4 arg5 harg5 arg6 harg6 arg7 harg7 arg8 harg8 arg9 harg9) K := by
  simp only [cc3__combine_fc_kernel_eq_skeleton]; unfold cc3__combine_fc_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover3_8 _)

/-! ## The pipeline's proof data -/

/-- The arrays as the region finds them; after the body at point `t` each input buffer at its block and the
    output's at `out3_8` of the eight input blocks; the invariant the scoped rest and the generator register,
    untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) :
    (dat3 V c).after 8 t = out3_8 (iblk3 V c 0 t) (iblk3 V c 1 t) (iblk3 V c 2 t) (iblk3 V c 3 t) (iblk3 V c 4 t) (iblk3 V c 5 t) (iblk3 V c 6 t) (iblk3 V c 7 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

/-- The body at any point: the inputs' buffers hold their blocks, so the triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
/-
  The whole program's run: four pallas_calls among host operations.

  Between two items every unscoped buffer of the core is held at a known valuation: the launch memory; after a
  pallas_call the same with its result array replaced by the fold of the call's write-backs; after a stretch of host
  operations what those operations compute.  Each pallas_call is entered from the valuation before it, with its
  proof data taken at that valuation, and left at the one after it.  The conclusion: every weakly fair execution
  terminates without a fault, and every unscoped buffer ends at the last valuation — from which both "the arguments
  end unchanged" and "the result array is the last call's fold" are read.
-/
import proofs.«417426_j23381801959787_3_alg».proof.Proof.KI.Region0
import proofs.«417426_j23381801959787_3_alg».proof.Proof.KI.Region1
import proofs.«417426_j23381801959787_3_alg».proof.Proof.KI.Region2
import proofs.«417426_j23381801959787_3_alg».proof.Proof.KI.Region3
import proofs.«417426_j23381801959787_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- A valuation read at the TensorCore's references. -/
abbrev atRefs (W : Dev nD → Valuation τ sig (Elt F)) : (c : Dev nD) → (b : Ref sig .tc) → Buf (Elt F) ((c : Thread nD τ).loc b) :=
  fun c b => W c b

/-- Replacing a buffer's contents leaves another reference's alone. -/
theorem upd_ne {c : Dev nD} (W : Valuation τ sig (Elt F)) (a : Ref sig .tc) (v : Buf (Elt F) ((c : Thread nD τ).loc a)) (r : Ref sig .tc) (h : r ≠ a) :
    Function.update W (Proc.devRef .tc a) v (Proc.devRef .tc r) = W (Proc.devRef .tc r) :=
  Function.update_of_ne (StableHlo.devRef_ne_of_ne h) _ _

/-- After the first pallas_call: the launch memory with the projection in `main_v0`. -/
def B1 (c : Dev nD) : Valuation τ sig (Elt F) :=
  Function.update (V0 m c) main_v0 ((dat0 (atRefs (V0 m)) c).arrAt 2 cfg0.N)
/-- After the first take and the first pair of segment sums. -/
abbrev B2 (c : Dev nD) : Valuation τ sig (Elt F) := StableHlo.after hostOps1 (B1 m c)
abbrev B3 (c : Dev nD) : Valuation τ sig (Elt F) := StableHlo.after hostOps1_1 (B2 m c)
/-- After the second pallas_call: the first layer in `main_v10`. -/
def B4 (c : Dev nD) : Valuation τ sig (Elt F) :=
  Function.update (B3 m c) main_v10 ((dat1 (atRefs (B3 m)) c).arrAt 5 cfg1.N)
abbrev B5 (c : Dev nD) : Valuation τ sig (Elt F) := StableHlo.after hostOps2 (B4 m c)
abbrev B6 (c : Dev nD) : Valuation τ sig (Elt F) := StableHlo.after hostOps2_1 (B5 m c)
/-- After the third pallas_call: the second layer in `main_v20`. -/
def B7 (c : Dev nD) : Valuation τ sig (Elt F) :=
  Function.update (B6 m c) main_v20 ((dat2 (atRefs (B6 m)) c).arrAt 6 cfg2.N)
abbrev B8 (c : Dev nD) : Valuation τ sig (Elt F) := StableHlo.after hostOps3 (B7 m c)
abbrev B9 (c : Dev nD) : Valuation τ sig (Elt F) := StableHlo.after hostOps3_1 (B8 m c)
/-- After the last pallas_call: the result in `main_v30`. -/
def B10 (c : Dev nD) : Valuation τ sig (Elt F) :=
  Function.update (B9 m c) main_v30 ((dat3 (atRefs (B9 m)) c).arrAt 8 cfg3.N)

/-- What each pallas_call leaves, as the generated boundary valuations take it. -/
def outs : Outs (F := F) := fun J r c =>
  match J with
  | 1 => B1 m c r
  | 4 => B4 m c r
  | 7 => B7 m c r
  | 10 => B10 m c r
  | _ => m ((c : Thread nD τ).loc r)

/-- The generated boundary valuations at these contents are the ones above. -/
theorem VB1 (c : Dev nD) : V1 m (outs m) c = B1 m c := by
  show Function.update (V0 m c) (main_v0 : DevRef τ sig) (B1 m c main_v0) = B1 m c
  unfold B1; rw [Function.update_self]
theorem VB3 (c : Dev nD) : V3 m (outs m) c = B3 m c := by
  show StableHlo.after hostOps1_1 (StableHlo.after hostOps1 (V1 m (outs m) c)) = _
  rw [VB1]
theorem VB4 (c : Dev nD) : V4 m (outs m) c = B4 m c := by
  show Function.update (V3 m (outs m) c) (main_v10 : DevRef τ sig) (B4 m c main_v10) = B4 m c
  rw [VB3]; unfold B4; rw [Function.update_self]
theorem VB6 (c : Dev nD) : V6 m (outs m) c = B6 m c := by
  show StableHlo.after hostOps2_1 (StableHlo.after hostOps2 (V4 m (outs m) c)) = _
  rw [VB4]
theorem VB7 (c : Dev nD) : V7 m (outs m) c = B7 m c := by
  show Function.update (V6 m (outs m) c) (main_v20 : DevRef τ sig) (B7 m c main_v20) = B7 m c
  rw [VB6]; unfold B7; rw [Function.update_self]
theorem VB9 (c : Dev nD) : V9 m (outs m) c = B9 m c := by
  show StableHlo.after hostOps3_1 (StableHlo.after hostOps3 (V7 m (outs m) c)) = _
  rw [VB7]
theorem VB10 (c : Dev nD) : V10 m (outs m) c = B10 m c := by
  show Function.update (V9 m (outs m) c) (main_v30 : DevRef τ sig) (B10 m c main_v30) = B10 m c
  rw [VB9]; unfold B10; rw [Function.update_self]

/-! ## The proof data family and the thread state -/

/-- Every pipeline's proof data, each at its region's entry contents. -/
def pdats : (p : Fin 4) → (c : Dev nD) → Dat τ (Elt F) Unit ℕ (UR sig nD τ) ℕ (cfgs p) c
  | ⟨0, _⟩ => fun c => dat0 (atRefs (V0 m)) c
  | ⟨1, _⟩ => fun c => dat1 (atRefs (B3 m)) c
  | ⟨2, _⟩ => fun c => dat2 (atRefs (B6 m)) c
  | ⟨3, _⟩ => fun c => dat3 (atRefs (B9 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-- At region 0's exit each of its arrays holds what the pipeline leaves: an input's array is untouched, the result's is
    the fold of the write-backs. -/
theorem hF0 (c : Dev nD) (w : Fin cfg0.W) :
    (pdats m 0 c).arrAt w cfg0.N = atRefs (B1 m) c (Pipeline.arrRef spec0 w) := by
  match w with
  | ⟨0, _⟩ => exact ((dat0 _ c).arrAt_in 0 rfl _).trans ((A_eq0 _ c 0).trans (upd_ne _ _ _ _ (by decide)).symm)
  | ⟨1, _⟩ => exact ((dat0 _ c).arrAt_in 1 rfl _).trans ((A_eq0 _ c 1).trans (upd_ne _ _ _ _ (by decide)).symm)
  | ⟨2, _⟩ => exact (Function.update_self (β := fun b : DevRef τ sig => Buf (Elt F) ((c : Thread nD τ).1, b)) _ _ _).symm

/-- and every other buffer holds what it held at entry. -/
theorem hrest0 (c : Dev nD) : ∀ b, b ∉ Finset.univ.image (Pipeline.arrRef spec0) → atRefs (B1 m) c b = atRefs (V0 m) c b :=
  fun b hb => upd_ne _ _ _ b fun e => hb (Finset.mem_image.mpr ⟨2, Finset.mem_univ _, (show Pipeline.arrRef spec0 2 = main_v0 from rfl).trans e.symm⟩)

/-- At region 1's exit each of its arrays holds what the pipeline leaves: an input's array is untouched, the result's is
    the fold of the write-backs. -/
theorem hF1 (c : Dev nD) (w : Fin cfg1.W) :
    (pdats m 1 c).arrAt w cfg1.N = atRefs (B4 m) c (Pipeline.arrRef spec1 w) := by
  match w with
  | ⟨0, _⟩ => exact ((dat1 _ c).arrAt_in 0 rfl _).trans ((A_eq1 _ c 0).trans (upd_ne _ _ _ _ (by decide)).symm)
  | ⟨1, _⟩ => exact ((dat1 _ c).arrAt_in 1 rfl _).trans ((A_eq1 _ c 1).trans (upd_ne _ _ _ _ (by decide)).symm)
  | ⟨2, _⟩ => exact ((dat1 _ c).arrAt_in 2 rfl _).trans ((A_eq1 _ c 2).trans (upd_ne _ _ _ _ (by decide)).symm)
  | ⟨3, _⟩ => exact ((dat1 _ c).arrAt_in 3 rfl _).trans ((A_eq1 _ c 3).trans (upd_ne _ _ _ _ (by decide)).symm)
  | ⟨4, _⟩ => exact ((dat1 _ c).arrAt_in 4 rfl _).trans ((A_eq1 _ c 4).trans (upd_ne _ _ _ _ (by decide)).symm)
  | ⟨5, _⟩ => exact (Function.update_self (β := fun b : DevRef τ sig => Buf (Elt F) ((c : Thread nD τ).1, b)) _ _ _).symm

/-- and every other buffer holds what it held at entry. -/
theorem hrest1 (c : Dev nD) : ∀ b, b ∉ Finset.univ.image (Pipeline.arrRef spec1) → atRefs (B4 m) c b = atRefs (B3 m) c b :=
  fun b hb => upd_ne _ _ _ b fun e => hb (Finset.mem_image.mpr ⟨5, Finset.mem_univ _, (show Pipeline.arrRef spec1 5 = main_v10 from rfl).trans e.symm⟩)

set_option maxHeartbeats 4000000 in
/-- At region 2's exit each of its arrays holds what the pipeline leaves: an input's array is untouched, the result's is
    the fold of the write-backs. -/
theorem hF2 (c : Dev nD) (w : Fin cfg2.W) :
    (pdats m 2 c).arrAt w cfg2.N = atRefs (B7 m) c (Pipeline.arrRef spec2 w) := by
  match w with
  | ⟨0, _⟩ => exact ((dat2 _ c).arrAt_in 0 rfl _).trans ((A_eq2 _ c 0).trans (upd_ne _ _ _ _ (by decide)).symm)
  | ⟨1, _⟩ => exact ((dat2 _ c).arrAt_in 1 rfl _).trans ((A_eq2 _ c 1).trans (upd_ne _ _ _ _ (by decide)).symm)
  | ⟨2, _⟩ => exact ((dat2 _ c).arrAt_in 2 rfl _).trans ((A_eq2 _ c 2).trans (upd_ne _ _ _ _ (by decide)).symm)
  | ⟨3, _⟩ => exact ((dat2 _ c).arrAt_in 3 rfl _).trans ((A_eq2 _ c 3).trans (upd_ne _ _ _ _ (by decide)).symm)
  | ⟨4, _⟩ => exact ((dat2 _ c).arrAt_in 4 rfl _).trans ((A_eq2 _ c 4).trans (upd_ne _ _ _ _ (by decide)).symm)
  | ⟨5, _⟩ => exact ((dat2 _ c).arrAt_in 5 rfl _).trans ((A_eq2 _ c 5).trans (upd_ne _ _ _ _ (by decide)).symm)
  | ⟨6, _⟩ => exact (Function.update_self (β := fun b : DevRef τ sig => Buf (Elt F) ((c : Thread nD τ).1, b)) _ _ _).symm

/-- and every other buffer holds what it held at entry. -/
theorem hrest2 (c : Dev nD) : ∀ b, b ∉ Finset.univ.image (Pipeline.arrRef spec2) → atRefs (B7 m) c b = atRefs (B6 m) c b :=
  fun b hb => upd_ne _ _ _ b fun e => hb (Finset.mem_image.mpr ⟨6, Finset.mem_univ _, (show Pipeline.arrRef spec2 6 = main_v20 from rfl).trans e.symm⟩)

set_option maxHeartbeats 4000000 in
/-- At region 3's exit each of its arrays holds what the pipeline leaves: an input's array is untouched, the result's is
    the fold of the write-backs. -/
theorem hF3 (c : Dev nD) (w : Fin cfg3.W) :
    (pdats m 3 c).arrAt w cfg3.N = atRefs (B10 m) c (Pipeline.arrRef spec3 w) := by
  match w with
  | ⟨0, _⟩ => exact ((dat3 _ c).arrAt_in 0 rfl _).trans ((A_eq3 _ c 0).trans (upd_ne _ _ _ _ (by decide)).symm)
  | ⟨1, _⟩ => exact ((dat3 _ c).arrAt_in 1 rfl _).trans ((A_eq3 _ c 1).trans (upd_ne _ _ _ _ (by decide)).symm)
  | ⟨2, _⟩ => exact ((dat3 _ c).arrAt_in 2 rfl _).trans ((A_eq3 _ c 2).trans (upd_ne _ _ _ _ (by decide)).symm)
  | ⟨3, _⟩ => exact ((dat3 _ c).arrAt_in 3 rfl _).trans ((A_eq3 _ c 3).trans (upd_ne _ _ _ _ (by decide)).symm)
  | ⟨4, _⟩ => exact ((dat3 _ c).arrAt_in 4 rfl _).trans ((A_eq3 _ c 4).trans (upd_ne _ _ _ _ (by decide)).symm)
  | ⟨5, _⟩ => exact ((dat3 _ c).arrAt_in 5 rfl _).trans ((A_eq3 _ c 5).trans (upd_ne _ _ _ _ (by decide)).symm)
  | ⟨6, _⟩ => exact ((dat3 _ c).arrAt_in 6 rfl _).trans ((A_eq3 _ c 6).trans (upd_ne _ _ _ _ (by decide)).symm)
  | ⟨7, _⟩ => exact ((dat3 _ c).arrAt_in 7 rfl _).trans ((A_eq3 _ c 7).trans (upd_ne _ _ _ _ (by decide)).symm)
  | ⟨8, _⟩ => exact (Function.update_self (β := fun b : DevRef τ sig => Buf (Elt F) ((c : Thread nD τ).1, b)) _ _ _).symm

/-- and every other buffer holds what it held at entry. -/
theorem hrest3 (c : Dev nD) : ∀ b, b ∉ Finset.univ.image (Pipeline.arrRef spec3) → atRefs (B10 m) c b = atRefs (B9 m) c b :=
  fun b hb => upd_ne _ _ _ b fun e => hb (Finset.mem_image.mpr ⟨8, Finset.mem_univ _, (show Pipeline.arrRef spec3 8 = main_v30 from rfl).trans e.symm⟩)

/-! ## The regions as items -/

-- a library lemma stated over the pinned configuration unifies with the printed one only when unification may unfold
-- plain definitions in a metavariable's type
set_option backward.isDefEq.respectTransparency.types false in
/-- Region 0 over the thread state: entered with every unscoped buffer at its entry contents, left with them at
    the exit contents.  Its arrays are split out of the unscoped buffers and put back at what the pipeline leaves;
    the generator register goes into the invariant and comes back; nothing is owed; the kernel has no semaphore
    of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atRefs (V0 m)) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (B1 m c) ∗ R c)
  X c := iprop(∃ r, prngReg c r)
  Y c := iprop(∃ r, prngReg c r)
  Z c := Pipeline.unscopedRest (Ix := Unit) (Name := ℕ) (U := UR sig nD τ) (Lvl := ℕ) spec0 c (atRefs (V0 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atRefs (V0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atRefs (V0 m) c) (atRefs (B1 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at its entry contents, left with them at
    the exit contents.  Its arrays are split out of the unscoped buffers and put back at what the pipeline leaves;
    the generator register goes into the invariant and comes back; nothing is owed; the kernel has no semaphore
    of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atRefs (B3 m)) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (atRefs (B3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atRefs (B3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atRefs (B3 m) c) (atRefs (B4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at its entry contents, left with them at
    the exit contents.  Its arrays are split out of the unscoped buffers and put back at what the pipeline leaves;
    the generator register goes into the invariant and comes back; nothing is owed; the kernel has no semaphore
    of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atRefs (B6 m)) c).loose
  hwaits := Pipeline.hwaits_of_owed_zero _ _ _ _ L lv 2 fun _ _ => rfl
  pre c := iprop(StableHlo.held (c : Thread nD τ) (Pipeline.ucRefs τ sig) (B6 m c) ∗ R c)
  post c := iprop(StableHlo.held (c : Thread nD τ) (Pipeline.ucRefs τ sig) (B7 m c) ∗ R c)
  X c := iprop(∃ r, prngReg c r)
  Y c := iprop(∃ r, prngReg c r)
  Z c := Pipeline.unscopedRest (Ix := Unit) (Name := ℕ) (U := UR sig nD τ) (Lvl := ℕ) spec2 c (atRefs (B6 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atRefs (B6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atRefs (B6 m) c) (atRefs (B7 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 over the thread state: entered with every unscoped buffer at its entry contents, left with them at
    the exit contents.  Its arrays are split out of the unscoped buffers and put back at what the pipeline leaves;
    the generator register goes into the invariant and comes back; nothing is owed; the kernel has no semaphore
    of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atRefs (B9 m)) c).loose
  hwaits := Pipeline.hwaits_of_owed_zero _ _ _ _ L lv 3 fun _ _ => rfl
  pre c := iprop(StableHlo.held (c : Thread nD τ) (Pipeline.ucRefs τ sig) (B9 m c) ∗ R c)
  post c := iprop(StableHlo.held (c : Thread nD τ) (Pipeline.ucRefs τ sig) (B10 m c) ∗ R c)
  X c := iprop(∃ r, prngReg c r)
  Y c := iprop(∃ r, prngReg c r)
  Z c := Pipeline.unscopedRest (Ix := Unit) (Name := ℕ) (U := UR sig nD τ) (Lvl := ℕ) spec3 c (atRefs (B9 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atRefs (B9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atRefs (B9 m) c) (atRefs (B10 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

section
-- the launch theorem's implicit arguments are found by unifying its conclusion with this one, which takes unfolding
-- plain definitions in a metavariable's type
set_option backward.isDefEq.respectTransparency.types false in
/-- The run, given the regions' records: every weakly fair execution of the program from memory `m` with zero counters
    terminates, and in every final memory each unscoped buffer holds what the last boundary's valuation says. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V6 m outs c) ∗ E 2 c) ⊢ R2.pre c)
    (hpost2 : ∀ c : Dev nD, R2.post c ⊢ iprop(StableHlo.held (c : Thread nD τ) (Pipeline.ucRefs τ sig) (V7 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c)) :
    θ_run defs (onTc (τ := τ) (main (F := F))) ⟨m, fun _ => 0, ρ⟩ (fun r => ∀ c : Dev nD,
      ∀ b ∈ Pipeline.ucRefs τ sig, r.2.mem ((c : Thread nD τ).1, b) = V10 m outs c b) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          StableHlo.seq hostOps3,
          StableHlo.seq hostOps3_1,
          Prog.lift (.customCall (Pipeline.entry 3) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨hpre0 c, hpost0 c, .rfl, hpre1 c, hpost1 c, .rfl, hpre2 c, hpost2 c, .rfl, hpre3 c, (hpost3 c).trans (sep_mono .rfl (hE4 c))⟩)
    (hinit := ?_) (QY := fun c s => ∀ b ∈ Pipeline.ucRefs τ sig, s.mem ((c : Thread nD τ).1, b) = V10 m outs c b)
    (hfin := fun c s' => ?_) (hQ := fun _ h => h)
  · -- the launch: the unscoped buffers are held at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V10 m outs c) s') $$ [Hh HSI]
    · isplitl [Hh] <;> iassumption
    icases Hr with ⟨%h, HSI⟩
    imodintro
    isplitr
    · ipureintro
      exact h
    · iexact HSI

end

variable (ρ : Dev nD → PrngReg)

-- the records' thread states are stated at the valuations above; the launch theorem's at the generated ones
set_option maxHeartbeats 4000000 in
set_option backward.isDefEq.respectTransparency.types false in
/-- THE RUN.  Every weakly fair execution of the program from memory `m` with zero counters terminates, nothing faulting,
    and every unscoped buffer ends holding the last boundary's contents. -/
theorem run : θ_run defs (onTc (τ := τ) (main (F := F))) ⟨m, fun _ => 0, ρ⟩ (fun r => ∀ c : Dev nD,
      ∀ b ∈ Pipeline.ucRefs τ sig, r.2.mem ((c : Thread nD τ).1, b) = B10 m c b) := by
  have h := run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => by rw [VB1]; exact .rfl)
    (reg1 m) (fun c => by rw [VB3]; exact .rfl) (fun c => by rw [VB4]; exact .rfl)
    (reg2 m) (fun c => by rw [VB6]; exact .rfl) (fun c => by rw [VB7]; exact .rfl)
    (reg3 m) (fun c => by rw [VB9]; exact .rfl) (fun c => by rw [VB10]; exact .rfl)
  refine (θ_run defs _ _).mono (fun r hr c b hb => ?_) h
  rw [← VB10]; exact hr c b hb

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the program runs to the end, nothing faulting, and every argument array ends as launched — no host
    operation writes an argument and no pallas_call's result array is one. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_arg0 (by decide))).trans ((congrFun (VB10 m c).symm _).trans (V10_main_arg0 m (outs m) c)),
     (h c _ (mem_uc main_arg1 (by decide))).trans ((congrFun (VB10 m c).symm _).trans (V10_main_arg1 m (outs m) c)),
     (h c _ (mem_uc main_arg2 (by decide))).trans ((congrFun (VB10 m c).symm _).trans (V10_main_arg2 m (outs m) c)),
     (h c _ (mem_uc main_arg3 (by decide))).trans ((congrFun (VB10 m c).symm _).trans (V10_main_arg3 m (outs m) c)),
     (h c _ (mem_uc main_arg4 (by decide))).trans ((congrFun (VB10 m c).symm _).trans (V10_main_arg4 m (outs m) c)),
     (h c _ (mem_uc main_arg5 (by decide))).trans ((congrFun (VB10 m c).symm _).trans (V10_main_arg5 m (outs m) c)),
     (h c _ (mem_uc main_arg6 (by decide))).trans ((congrFun (VB10 m c).symm _).trans (V10_main_arg6 m (outs m) c)),
     (h c _ (mem_uc main_arg7 (by decide))).trans ((congrFun (VB10 m c).symm _).trans (V10_main_arg7 m (outs m) c)),
     (h c _ (mem_uc main_arg8 (by decide))).trans ((congrFun (VB10 m c).symm _).trans (V10_main_arg8 m (outs m) c)),
     (h c _ (mem_uc main_arg9 (by decide))).trans ((congrFun (VB10 m c).symm _).trans (V10_main_arg9 m (outs m) c)),
     (h c _ (mem_uc main_arg10 (by decide))).trans ((congrFun (VB10 m c).symm _).trans (V10_main_arg10 m (outs m) c)),
     (h c _ (mem_uc main_arg11 (by decide))).trans ((congrFun (VB10 m c).symm _).trans (V10_main_arg11 m (outs m) c)),
     (h c _ (mem_uc main_arg12 (by decide))).trans ((congrFun (VB10 m c).symm _).trans (V10_main_arg12 m (outs m) c)),
     (h c _ (mem_uc main_arg13 (by decide))).trans ((congrFun (VB10 m c).symm _).trans (V10_main_arg13 m (outs m) c)),
     (h c _ (mem_uc main_arg14 (by decide))).trans ((congrFun (VB10 m c).symm _).trans (V10_main_arg14 m (outs m) c)),
     (h c _ (mem_uc main_arg15 (by decide))).trans ((congrFun (VB10 m c).symm _).trans (V10_main_arg15 m (outs m) c)),
     (h c _ (mem_uc main_arg16 (by decide))).trans ((congrFun (VB10 m c).symm _).trans (V10_main_arg16 m (outs m) c)),
     (h c _ (mem_uc main_arg17 (by decide))).trans ((congrFun (VB10 m c).symm _).trans (V10_main_arg17 m (outs m) c))⟩) (run m ρ)

/-- The result array after the run: what the last pallas_call's write-backs leave. -/
theorem result_eq (c : Dev nD) : B10 m c main_v30 = (dat3 (atRefs (B9 m)) c).arrAt 8 cfg3.N := by
  unfold B10; exact Function.update_self (β := fun b : DevRef τ sig => Buf (Elt F) ((c : Thread nD τ).1, b)) _ _ _

/-- The run with the result named: besides the arguments ending as launched, the result array `main_v30` ends at the
    last boundary's contents, the last pallas_call's fold. -/
theorem run_result :
    θ_run defs (onTc (τ := τ) (main (F := F))) ⟨m, fun _ => 0, ρ⟩ (fun r => ∀ c : Dev nD,
      r.2.mem ((c.tc : Thread nD τ).loc main_v30) = B10 m c main_v30
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨h c _ (mem_uc main_v30 (by decide)),
     (h c _ (mem_uc main_arg0 (by decide))).trans ((congrFun (VB10 m c).symm _).trans (V10_main_arg0 m (outs m) c)),
     (h c _ (mem_uc main_arg1 (by decide))).trans ((congrFun (VB10 m c).symm _).trans (V10_main_arg1 m (outs m) c)),
     (h c _ (mem_uc main_arg2 (by decide))).trans ((congrFun (VB10 m c).symm _).trans (V10_main_arg2 m (outs m) c)),
     (h c _ (mem_uc main_arg3 (by decide))).trans ((congrFun (VB10 m c).symm _).trans (V10_main_arg3 m (outs m) c)),
     (h c _ (mem_uc main_arg4 (by decide))).trans ((congrFun (VB10 m c).symm _).trans (V10_main_arg4 m (outs m) c)),
     (h c _ (mem_uc main_arg5 (by decide))).trans ((congrFun (VB10 m c).symm _).trans (V10_main_arg5 m (outs m) c)),
     (h c _ (mem_uc main_arg6 (by decide))).trans ((congrFun (VB10 m c).symm _).trans (V10_main_arg6 m (outs m) c)),
     (h c _ (mem_uc main_arg7 (by decide))).trans ((congrFun (VB10 m c).symm _).trans (V10_main_arg7 m (outs m) c)),
     (h c _ (mem_uc main_arg8 (by decide))).trans ((congrFun (VB10 m c).symm _).trans (V10_main_arg8 m (outs m) c)),
     (h c _ (mem_uc main_arg9 (by decide))).trans ((congrFun (VB10 m c).symm _).trans (V10_main_arg9 m (outs m) c)),
     (h c _ (mem_uc main_arg10 (by decide))).trans ((congrFun (VB10 m c).symm _).trans (V10_main_arg10 m (outs m) c)),
     (h c _ (mem_uc main_arg11 (by decide))).trans ((congrFun (VB10 m c).symm _).trans (V10_main_arg11 m (outs m) c)),
     (h c _ (mem_uc main_arg12 (by decide))).trans ((congrFun (VB10 m c).symm _).trans (V10_main_arg12 m (outs m) c)),
     (h c _ (mem_uc main_arg13 (by decide))).trans ((congrFun (VB10 m c).symm _).trans (V10_main_arg13 m (outs m) c)),
     (h c _ (mem_uc main_arg14 (by decide))).trans ((congrFun (VB10 m c).symm _).trans (V10_main_arg14 m (outs m) c)),
     (h c _ (mem_uc main_arg15 (by decide))).trans ((congrFun (VB10 m c).symm _).trans (V10_main_arg15 m (outs m) c)),
     (h c _ (mem_uc main_arg16 (by decide))).trans ((congrFun (VB10 m c).symm _).trans (V10_main_arg16 m (outs m) c)),
     (h c _ (mem_uc main_arg17 (by decide))).trans ((congrFun (VB10 m c).symm _).trans (V10_main_arg17 m (outs m) c))⟩) (run m ρ)

end Cert.KernelIdeal.Hand

end
-- ==== Proof.Spec.lean ====
/-
  The mathematics of the two programs, over plain arrays of extended reals.

  A GraphSAGE stack with mean aggregation: three layers `h ↦ h_dst · Ws + mean(h[src] by dst) · Wn + b` (a rectified
  one after each of the first two) and a final affine map.  `seg dst u r` is the sum of `u e` over the edges `e`
  whose destination is `r`; the mean divides a segment sum by the segment's size, never less than one.

  The two programs differ in two places.  In the first layer one of them multiplies by `Wn` BEFORE it gathers and
  sums (`outK`), the other after (`outR`): a finite sum commutes with the product and with the division by a
  positive count once every entry is a real number.  And the second layer of `outK` is computed on 6400 rows where
  `outR` has 6250: the third layer reads only rows below 6250, where the two agree.
-/
import Idealize.ShloMosaic.PureOps.Ideal.Laws
import Idealize.ShloMosaic.Lib.ValueIdx

noncomputable section

namespace Cert.Spec

open Idealize.ShloMosaic Idealize.ShloMosaic.ValueIdx
open scoped BigOperators

/-- An `n × k` array of extended reals, by row and column. -/
abbrev Mat (n k : ℕ) := Fin n → Fin k → EReal

/-- The f32 words `0.0` and `1.0` at the ideal instance. -/
abbrev z32 : EReal := Ideal.ofBits .f32 0x00000000#32
abbrev o32 : EReal := Ideal.ofBits .f32 0x3F800000#32

theorem z32_eq : z32 = 0 := Ideal.ofBits_zero_f32

/-- The matrix product. -/
def mm {n K D : ℕ} (A : Mat n K) (W : Mat K D) : Mat n D := fun r j => ∑ k, A r k * W k j

/-- The segment sum at `r`, started from the zero word: `u e` over the edges `e` with `dst e = r`. -/
def seg {E : ℕ} (dst : Fin E → ℤ) (u : Fin E → EReal) (r : ℕ) : EReal :=
  z32 + ∑ e, if dst e = (r : ℤ) then u e else 0

/-- The size of segment `r`, at least one. -/
def degree {E : ℕ} (dst : Fin E → ℤ) (r : ℕ) : EReal := max (seg dst (fun _ => o32) r) o32

/-- The mean over each segment of the rows of `U`, for the first `n` segments. -/
def meanRows {E K : ℕ} (dst : Fin E → ℤ) (U : Mat E K) (n : ℕ) : Mat n K :=
  fun r k => Ideal.div (seg dst (fun e => U e k) r.val) (degree dst r.val)

/-- The rectifier. -/
def relu (x : EReal) : EReal := max x z32

/-- The first `n` rows. -/
def top {N K : ℕ} (n : ℕ) (h : n ≤ N) (A : Mat N K) : Mat n K := fun r k => A (Fin.castLE h r) k

/-- One layer on the first `n` nodes: `h_dst · Ws + mean · Wn + b`, the mean taken of the gathered rows `h (s e)`. -/
def layer {N E K D : ℕ} (n : ℕ) (hn : n ≤ N) (h : Mat N K) (s : Fin E → Fin N) (d : Fin E → ℤ)
    (Ws Wn : Mat K D) (b : Fin D → EReal) : Mat n D :=
  fun r j => (mm (top n hn h) Ws r j + mm (meanRows d (fun e k => h (s e) k) n) Wn r j) + b j

/-! ## From shaped arrays to rows and columns -/

/-- A rank-2 array by row and column. -/
def cur {α : Type} {n k : ℕ} (A : (⟨2, ![n, k]⟩ : Shape).Idx → α) : Fin n → Fin k → α := fun r q => A (ix2 r q)

/-- A rank-1 array by position. -/
def vec {α : Type} {k : ℕ} (v : (⟨1, ![k]⟩ : Shape).Idx → α) : Fin k → α := fun q => v (ix1 q)

/-- Destination indices as signed integers (a destination outside the segments receives nothing). -/
def dstZ {E : ℕ} (d : (⟨1, ![E]⟩ : Shape).Idx → BitVec 32) : Fin E → ℤ := fun e => (d (ix1 e)).toInt

/-- Source indices known to lie in `[0, N)`, as row numbers. -/
def srcF {E : ℕ} (N : ℕ) (s : (⟨1, ![E]⟩ : Shape).Idx → BitVec 32)
    (h : ∀ e, 0 ≤ (s e).toInt ∧ (s e).toInt < (N : ℤ)) : Fin E → Fin N :=
  fun e => ⟨(s (ix1 e)).toInt.toNat, by have := h (ix1 e); omega⟩

/-! ## What one combining pallas_call computes from the arrays it is handed -/

/-- The mean row by row from segment sums `agg` and segment sizes kept as a column `dg`. -/
def meanOf {n K : ℕ} (agg : Mat n K) (dg : Mat n 1) : Mat n K := fun r k => Ideal.div (agg r k) (max (dg r 0) o32)

/-- `h_dst · Ws + mean + b`, the mean already multiplied by `Wn`: the first layer's combination before the rectifier. -/
def comb1 {n K D : ℕ} (hd : Mat n K) (aggp : Mat n D) (dg : Mat n 1) (Ws : Mat K D) (b : Fin D → EReal) : Mat n D :=
  fun r j => (mm hd Ws r j + meanOf aggp dg r j) + b j

/-- `h_dst · Ws + mean · Wn + b`: the later layers' combination. -/
def comb2 {n K D : ℕ} (hd : Mat n K) (agg : Mat n K) (dg : Mat n 1) (Ws Wn : Mat K D) (b : Fin D → EReal) : Mat n D :=
  fun r j => (mm hd Ws r j + mm (meanOf agg dg) Wn r j) + b j

section Chains

variable (x : Mat 100000 512) (s0 : Fin 400000 → Fin 100000) (d0 : Fin 400000 → ℤ)
  (s1 : Fin 100000 → Fin 25000) (d1 : Fin 100000 → ℤ) (s2 : Fin 25600 → Fin 6250) (d2 : Fin 25600 → ℤ)
  (Ws0 Wn0 : Mat 512 256) (b0 : Fin 256 → EReal) (Ws1 Wn1 : Mat 256 256) (b1 : Fin 256 → EReal)
  (Ws2 Wn2 : Mat 256 256) (b2 : Fin 256 → EReal) (Wfc : Mat 256 256) (bfc : Fin 256 → EReal)

/-- First layer, the product with `Wn0` taken before the gather: the segment sums are of rows of `x · Wn0`. -/
def h1K : Mat 25000 256 := fun r j =>
  relu ((mm (top 25000 (by norm_num) x) Ws0 r j
      + Ideal.div (seg d0 (fun e => mm x Wn0 (s0 e) j) r.val) (degree d0 r.val)) + b0 j)

/-- First layer, the product with `Wn0` taken of the mean. -/
def h1R : Mat 25000 256 := fun r j => relu (layer 25000 (by norm_num) x s0 d0 Ws0 Wn0 b0 r j)

/-- Second layer on 6400 rows over `h1K`. -/
def h2K : Mat 6400 256 := fun r j =>
  relu (layer 6400 (by norm_num) (h1K x s0 d0 Ws0 Wn0 b0) s1 d1 Ws1 Wn1 b1 r j)

/-- Second layer on 6250 rows over `h1R`. -/
def h2R : Mat 6250 256 := fun r j =>
  relu (layer 6250 (by norm_num) (h1R x s0 d0 Ws0 Wn0 b0) s1 d1 Ws1 Wn1 b1 r j)

/-- Third layer and the final affine map, over the 6400-row second layer (its sources are rows below 6250). -/
def outK : Mat 1600 256 := fun r j =>
  mm (layer 1600 (by norm_num) (h2K x s0 d0 s1 d1 Ws0 Wn0 b0 Ws1 Wn1 b1)
      (fun e => Fin.castLE (by norm_num : 6250 ≤ 6400) (s2 e)) d2 Ws2 Wn2 b2) Wfc r j + bfc j

/-- Third layer and the final affine map, over the 6250-row second layer. -/
def outR : Mat 1600 256 := fun r j =>
  mm (layer 1600 (by norm_num) (h2R x s0 d0 s1 d1 Ws0 Wn0 b0 Ws1 Wn1 b1) s2 d2 Ws2 Wn2 b2) Wfc r j + bfc j

end Chains

end Cert.Spec

end
-- ==== Proof.LibRowOps.lean ====
/-
  Row operations read at an index, for arrays of any number of rows.

  The arrays here are rank-2, `[n, k]`, and every operation acts on each row by itself, so each lemma reads an
  operation at the index `(p, q)` from its operands at row `p`:
  * a concatenation along the columns reads the piece whose column span holds `q` — for unit-width pieces, piece
    `q` at column `0`; for a `[n, 3]` piece beside a `[n, 2]` piece, the first at `q` when `q < 3`, else the
    second at `q - 3`;
  * a matrix product `[n, K] × [K, N]` into a zero accumulator is `∑ k, l (p, k) * r (k, j)`.
  Nothing depends on `n`: the same statements serve a block of rows and the whole array.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx
open scoped BigOperators

variable {α : Type}

/-! ## Concatenation along the columns -/

/-- A `[n, 3]` piece beside a `[n, 2]` piece: column `q` comes from the first piece when `q < 3`, else from the
    second at `q - 3`. -/
theorem cat32_apply {n : ℕ} (a : (⟨2, ![n, 3]⟩ : Shape).Idx → α) (b : (⟨2, ![n, 2]⟩ : Shape).Idx → α)
    (h : Shape.Concatenates [(⟨2, ![n, 3]⟩ : Shape), ⟨2, ![n, 2]⟩] ⟨2, ![n, 5]⟩ 1) (p : Fin n) (q : Fin 5) :
    concatenate ⟨2, ![n, 5]⟩ 1 [⟨⟨2, ![n, 3]⟩, a⟩, ⟨⟨2, ![n, 2]⟩, b⟩] h (ix2 p q)
      = if hq : q.val < 3 then a (ix2 p ⟨q.val, hq⟩) else b (ix2 p ⟨q.val - 3, by omega⟩) := by
  split
  · next hq =>
    exact concatenate_pair_apply_left 1 a b h (ix2 p q) rfl (ix2 p ⟨q.val, hq⟩)
      (fun bb => by match bb with | ⟨0, _⟩ => rfl | ⟨1, _⟩ => rfl)
  · next hq =>
    exact concatenate_pair_apply_right 1 a b h (ix2 p q) rfl rfl (ix2 p ⟨q.val - 3, by omega⟩)
      (fun bb hb => by match bb with | ⟨0, _⟩ => rfl | ⟨1, _⟩ => exact absurd rfl hb)
      (by show (q.val - 3) + 3 = q.val; omega)

/-- Unit-width pieces: column `q` of the concatenation is piece `q`, read at column `0`. The hypothesis `hpre`
    says the pieces before piece `q` span `q` columns; for a literal list it holds by evaluation. -/
theorem catUnits_apply {n K : ℕ} {xs : List ((s : Shape) × (s.Idx → α))}
    {h : Shape.Concatenates (xs.map (·.1)) ⟨2, ![n, K]⟩ 1} (p : Fin n) (q : Fin K)
    (hq : q.val < xs.length) (x : (⟨2, ![n, 1]⟩ : Shape).Idx → α) (hx : xs[q.val] = ⟨⟨2, ![n, 1]⟩, x⟩)
    (hpre : (((xs.take q.val).map (·.1)).map fun s : Shape =>
      if h : s.rank = (⟨2, ![n, K]⟩ : Shape).rank then s.size ((1 : Fin (⟨2, ![n, K]⟩ : Shape).rank).cast h.symm) else 0).sum = q.val) :
    concatenate ⟨2, ![n, K]⟩ 1 xs h (ix2 p q) = x (ix2 p 0) :=
  concatenate_apply_piece 1 xs h (ix2 p q) q.val hq _ x hx rfl q.val hpre (ix2 p 0)
    (fun b hb => by match b with | ⟨0, _⟩ => rfl | ⟨1, _⟩ => exact absurd rfl hb)
    (by show q.val + 0 = q.val; omega)

/-- Two unit-width pieces. -/
theorem cat2_apply {n : ℕ} (x0 x1 : (⟨2, ![n, 1]⟩ : Shape).Idx → α)
    (h : Shape.Concatenates [(⟨2, ![n, 1]⟩ : Shape), ⟨2, ![n, 1]⟩] ⟨2, ![n, 2]⟩ 1) (p : Fin n) (q : Fin 2) :
    concatenate ⟨2, ![n, 2]⟩ 1 [⟨⟨2, ![n, 1]⟩, x0⟩, ⟨⟨2, ![n, 1]⟩, x1⟩] h (ix2 p q)
      = ![x0 (ix2 p 0), x1 (ix2 p 0)] q := by
  match q with
  | ⟨0, _⟩ => exact catUnits_apply p ⟨0, by omega⟩ (by simp) x0 rfl rfl
  | ⟨1, _⟩ => exact catUnits_apply p ⟨1, by omega⟩ (by simp) x1 rfl rfl

/-- Five unit-width pieces. -/
theorem cat5_apply {n : ℕ} (x0 x1 x2 x3 x4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (p : Fin n) (q : Fin 5) :
    concatenate ⟨2, ![n, 5]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩] h (ix2 p q)
      = ![x0 (ix2 p 0), x1 (ix2 p 0), x2 (ix2 p 0), x3 (ix2 p 0), x4 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl

/-- Six unit-width pieces. -/
theorem cat6_apply {n : ℕ} (x0 x1 x2 x3 x4 x5 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩] ⟨2, ![n, 6]⟩ 1)
    (p : Fin n) (q : Fin 6) :
    concatenate ⟨2, ![n, 6]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩] h (ix2 p q)
      = ![x0 (ix2 p 0), x1 (ix2 p 0), x2 (ix2 p 0), x3 (ix2 p 0), x4 (ix2 p 0), x5 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl

/-- Seven unit-width pieces. -/
theorem cat7_apply {n : ℕ} (x0 x1 x2 x3 x4 x5 x6 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩, ⟨2, ![n, 1]⟩] ⟨2, ![n, 7]⟩ 1)
    (p : Fin n) (q : Fin 7) :
    concatenate ⟨2, ![n, 7]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] h (ix2 p q)
      = ![x0 (ix2 p 0), x1 (ix2 p 0), x2 (ix2 p 0), x3 (ix2 p 0), x4 (ix2 p 0), x5 (ix2 p 0), x6 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl
  | ⟨6, _⟩ => exact catUnits_apply p ⟨6, by omega⟩ (by simp) x6 rfl rfl

/-! ## A matrix product, `[M, K] × [K, N]`, as a sum over `Fin K` -/

section Plain
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction of a plain product, at `(p, j)`: the sum over `k : Fin K` of `l (p, k) * r (k, j)`. -/
theorem plain_sum (l : (⟨2, ![M, K]⟩ : Shape).Idx → EReal) (r : (⟨2, ![K, N]⟩ : Shape).Idx → EReal) (p : Fin M) (j : Fin N) :
    ∑ k : (DotDims.plain M K N).contr.Idx, l ((DotDims.plain M K N).lhsIdx (ix2 p j) k) * r ((DotDims.plain M K N).rhsIdx (ix2 p j) k)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into the zero accumulator, for any dimension record that is the plain one. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant ⟨2, ![M, N]⟩ .f32 0x00000000#32) (ix2 p j) = ∑ k : Fin K, l (ix2 p k) * r (ix2 k j) := by
  subst hd
  simp only [matmul]
  rw [Ideal.matmul_constant_zero_apply]
  exact plain_sum l r p j

/-- The host's product of the same operands is the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    Host.dotGeneral d prec l r (ix2 p j) = ∑ k : Fin K, l (ix2 p k) * r (ix2 k j) := by
  subst hd
  simp only [Host.dotGeneral]
  rw [Ideal.dotGeneral_apply]
  exact plain_sum l r p j

end Plain

/-! ## Slices, a row broadcast, a bias row -/

/-- One column cut out of `[n, k]`: at `(p, 0)` it reads column `o`. -/
theorem col_apply {n k : ℕ} (o : ℕ) (X : (⟨2, ![n, k]⟩ : Shape).Idx → α)
    (h : (⟨2, ![n, k]⟩ : Shape).Slices ![0, o] ⟨2, ![n, 1]⟩) (p : Fin n) (c : Fin k) (hc : c.val = o) :
    extractStridedSlice ⟨2, ![n, 1]⟩ ![0, o] X h (ix2 p 0) = X (ix2 p c) :=
  slice2_axis1_apply o X h p 0 c (by rw [hc]; rfl)

/-- A rank-1 array `[k]` cast to `[1, k]` and broadcast down `n` rows reads, at `(p, q)`, entry `q`. -/
theorem rowBcast_apply {n k : ℕ} (v : (⟨1, ![k]⟩ : Shape).Idx → α) (hc : (⟨1, ![k]⟩ : Shape).ShapeCasts ⟨2, ![1, k]⟩)
    (hb : (⟨2, ![1, k]⟩ : Shape).Broadcasts ⟨2, ![n, k]⟩) (p : Fin n) (q : Fin k) :
    broadcastTo ⟨2, ![n, k]⟩ (shapeCast ⟨2, ![1, k]⟩ v hc) hb (ix2 p q) = v (ix1 q) :=
  (broadcastTo_1b_ab_apply _ hb p q).trans (shapeCast_a_1a_apply v hc 0 q)

/-- One affine layer as the kernel spells it — a product into the zero accumulator plus a bias row broadcast down the
    rows — at `(p, j)`: `(∑ k, x k * W (k, j)) + b j`, where `x` is row `p` of the left operand. -/
theorem layer_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨1, ![N]⟩ .f32)
    (hc : (⟨1, ![N]⟩ : Shape).ShapeCasts ⟨2, ![1, N]⟩) (hb : (⟨2, ![1, N]⟩ : Shape).Broadcasts ⟨2, ![n, N]⟩)
    (p : Fin n) (j : Fin N) (x : Fin K → EReal) (hx : ∀ k, A (ix2 p k) = x k) :
    addf (matmul d none A W (constant ⟨2, ![n, N]⟩ .f32 0x00000000#32)) (broadcastTo ⟨2, ![n, N]⟩ (shapeCast ⟨2, ![1, N]⟩ b hc) hb) (ix2 p j)
      = (∑ k : Fin K, x k * W (ix2 k j)) + b (ix1 j) := by
  show matmul d none A W (constant ⟨2, ![n, N]⟩ .f32 0x00000000#32) (ix2 p j) + broadcastTo ⟨2, ![n, N]⟩ (shapeCast ⟨2, ![1, N]⟩ b hc) hb (ix2 p j) = _
  rw [matmul_plain_apply d hd, rowBcast_apply]
  exact congrArg (· + b (ix1 j)) (Finset.sum_congr rfl fun k _ => by rw [hx k])

/-- The product alone, at `(p, j)`, from row `p` of the left operand. -/
theorem prod_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (p : Fin n) (j : Fin N) (x : Fin K → EReal)
    (hx : ∀ k, A (ix2 p k) = x k) :
    matmul d none A W (constant ⟨2, ![n, N]⟩ .f32 0x00000000#32) (ix2 p j) = ∑ k : Fin K, x k * W (ix2 k j) := by
  rw [matmul_plain_apply d hd]
  exact Finset.sum_congr rfl fun k _ => by rw [hx k]

end Cert.LibRowOps

end
-- ==== Proof.KI.Value0.lean ====
/-
  The value of the first pallas_call: after the region its output array is the matrix product of the two arrays
  it was handed, `out (r, j) = ∑ k, x (r, k) · Wn0 (k, j)`.

  Point `t` multiplies rows `2000 t … 2000 t + 1999` of `x` by the whole of `Wn0` and writes the product back as
  rows `2000 t … 2000 t + 1999` of the output; the 50 points' row blocks cover the 100000 rows.
-/
import proofs.«417426_j23381801959787_3_alg».proof.Proof.KI.Region0
import proofs.«417426_j23381801959787_3_alg».proof.Proof.Spec
import proofs.«417426_j23381801959787_3_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open scoped BigOperators

-- the buffer contents when the region is entered, at the ideal instance
variable (V : (c : Dev nD) → (b : Ref sig .tc) → Buf (Elt Ideal) ((c : Thread nD τ).loc b))

/-- The zero offset of a rank-2 rectangle. -/
theorem zero_off2 : (![0, 0] : Fin 2 → Nat) = fun _ => 0 := funext fun a => by fin_cases a <;> rfl

/-! ## The body's value at an index -/

/-- The body's product at `j`: row `j 0` of the left block against column `j 1` of the right one. -/
theorem proj_apply (x0 : Vec Ideal S2000x512 .f32) (x1 : Vec Ideal S512x256 .f32) (j : S2000x256.Idx) :
    k0_pay1 x0 x1 j = ∑ k : Fin 512, x0 (ix2 (j 0) k) * x1 (ix2 k (j 1)) := by
  obtain ⟨p, q, rfl⟩ : ∃ (p : Fin 2000) (q : Fin 256), j = ix2 p q := ⟨j 0, j 1, eq_ix2 j⟩
  unfold k0_pay1
  exact Cert.LibRowOps.matmul_plain_apply _ (by unfold dot_S2000x512_S512x256_S2000x256_1_0_0_1_n_n; rfl) none x0 x1 p q

/-! ## The array the blocks are cut from -/

/-- The product of the two arrays, index by index. -/
abbrev projOf (X : S100000x512.Idx → EReal) (W : S512x256.Idx → EReal) : S100000x256.Idx → EReal :=
  fun i => Spec.mm (Spec.cur X) (Spec.cur W) ⟨(i 0).val, (i 0).isLt⟩ ⟨(i 1).val, (i 1).isLt⟩

/-- The block indices over the grid: `x` and the output move together, one block of rows a point; `Wn0` stays. -/
theorem idx_rel0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product. -/
theorem flushed0_eq (c : Dev nD) (t : Fin cfg0.N) :
    (dat0 (F := Ideal) V c).flushed 2 t
      = ((cfg0.win 2).blk t).view.read (Elt Ideal) (projOf (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero zero_off2]
  simp only [View.ld_unit_zero (S := S2000x512) zero_off2, View.ld_unit_zero (S := S512x256) zero_off2]
  obtain ⟨e00, e01, e10, e11, e20, e21⟩ := idx_rel0 t
  funext j
  refine (proj_apply (iblk0 V c 0 t) (iblk0 V c 1 t) j).trans ?_
  show _ = projOf (V c (Pipeline.arrRef spec0 0)) (V c (Pipeline.arrRef spec0 1)) (((cfg0.win 2).blk t).view.emb j)
  unfold projOf Spec.mm Spec.cur
  refine Finset.sum_congr rfl fun k _ => ?_
  have hj0 : (j 0).val < 2000 := (j 0).isLt
  have hj1 : (j 1).val < 256 := (j 1).isLt
  have h0 : iblk0 V c 0 t (ix2 (j 0) k) = V c (Pipeline.arrRef spec0 0) (ix2 ⟨((((cfg0.win 2).blk t).view.emb j) 0).val, ((((cfg0.win 2).blk t).view.emb j) 0).isLt⟩ k) := by
    show V c (Pipeline.arrRef spec0 0) (((cfg0.win 0).blk t).view.emb (ix2 (j 0) k)) = _
    refine congrArg _ (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  have h1 : iblk0 V c 1 t (ix2 k (j 1)) = V c (Pipeline.arrRef spec0 1) (ix2 k ⟨((((cfg0.win 2).blk t).view.emb j) 1).val, ((((cfg0.win 2).blk t).view.emb j) 1).isLt⟩) := by
    show V c (Pipeline.arrRef spec0 1) (((cfg0.win 1).blk t).view.emb (ix2 k (j 1))) = _
    refine congrArg _ (funext fun a => Fin.ext ?_)
    match a with
    | ⟨0, _⟩ => show win0_1.index t (0 : Fin 2) * 512 + 1 * k.val = k.val; omega
    | ⟨1, _⟩ => show win0_1.index t (1 : Fin 2) * 256 + 1 * (j 1).val = win0_2.index t (1 : Fin 2) * 256 + 1 * (j 1).val; omega
  rw [h0, h1]

/-! ## The blocks cover the array -/

/-- An index is in point `t`'s block iff each coordinate is in the block's range on its axis. -/
theorem mem_blk0 (t : Fin cfg0.N) (i : S100000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v0).slice (win0_2.rect t)).set ↔ _
  rw [View.set_slice_whole, Rect.mem_set_unit]
  exact Iff.rfl

/-- Row `r` is in the block of point `r / 2000`. -/
theorem cover0 (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  have hN : (i 0).val / 2000 < cfg0.N := by show _ < grid0.N; rw [N_0]; omega
  obtain ⟨-, -, -, -, e20, e21⟩ := idx_rel0 ⟨(i 0).val / 2000, hN⟩
  have e20' : win0_2.index ⟨(i 0).val / 2000, hN⟩ (0 : Fin 2) = (i 0).val / 2000 := e20
  refine ⟨⟨(i 0).val / 2000, hN⟩, flush0_2 _, ?_⟩
  rw [mem_blk0]
  intro a
  match a with
  | ⟨0, _⟩ =>
    show win0_2.index ⟨(i 0).val / 2000, hN⟩ (0 : Fin 2) * 2000 ≤ (i 0).val ∧ (i 0).val < win0_2.index ⟨(i 0).val / 2000, hN⟩ (0 : Fin 2) * 2000 + 2000
    omega
  | ⟨1, _⟩ =>
    show win0_2.index ⟨(i 0).val / 2000, hN⟩ (1 : Fin 2) * 256 ≤ (i 1).val ∧ (i 1).val < win0_2.index ⟨(i 0).val / 2000, hN⟩ (1 : Fin 2) * 256 + 256
    omega

/-! ## The array after the region -/

/-- After the region the output array is the product of the two arrays the region was handed. -/
theorem final0 (c : Dev nD) : ((dat0 (F := Ideal) V c).arrAt 2 cfg0.N : S100000x256.Idx → EReal)
    = fun i => Spec.mm (Spec.cur (V c (Pipeline.arrRef spec0 0))) (Spec.cur (V c (Pipeline.arrRef spec0 1))) ⟨(i 0).val, (i 0).isLt⟩ ⟨(i 1).val, (i 1).isLt⟩ :=
  (dat0 (F := Ideal) V c).arrAt_eq_of_cover 2 (projOf (V c (Pipeline.arrRef spec0 0)) (V c (Pipeline.arrRef spec0 1)))
    (fun t _ => flushed0_eq V c t) cover0

end Cert.KernelIdeal.Hand

end
-- ==== Proof.KI.Value1.lean ====
/-
  The value of the second pallas_call: after the region its output array is the rectified first-layer combination
  of the arrays it was handed, `out (r, j) = max ((∑ k, x (r, k) · Ws0 (k, j) + sums (r, j) / max (sizes r) 1) + b0 j) 0`
  for the first 25000 rows `r`.

  Point `t` takes rows `1000 t … 1000 t + 999` of `x`, of the projected segment sums and of the column of
  segment sizes, the whole of `Ws0` and `b0`, and writes its result back as rows `1000 t … 1000 t + 999` of the
  output; the 25 points' row blocks cover the 25000 rows.
-/
import proofs.«417426_j23381801959787_3_alg».proof.Proof.KI.Region1
import proofs.«417426_j23381801959787_3_alg».proof.Proof.Spec
import proofs.«417426_j23381801959787_3_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open scoped BigOperators

-- the buffer contents when the region is entered, at the ideal instance
variable (V : (c : Dev nD) → (b : Ref sig .tc) → Buf (Elt Ideal) ((c : Thread nD τ).loc b))

/-- The zero offsets of a rank-2 and of a rank-1 rectangle. -/
theorem zero_off2' : (![0, 0] : Fin 2 → Nat) = fun _ => 0 := funext fun a => by fin_cases a <;> rfl
theorem zero_off1 : (![0] : Fin 1 → Nat) = fun _ => 0 := funext fun a => by fin_cases a; rfl

/-! ## The body's value at an index -/

/-- A column `[a, 1]` broadcast along the rows to `[a, b]` reads, at `(p, c)`, the column at row `p`. -/
theorem colBcast_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's value at `j`: row `j 0` of the `x` block against column `j 1` of `Ws0`, plus the segment sum at `j`
    over the segment's size (at least one), plus the bias at `j 1`, rectified. -/
theorem comb_apply (v0 : Vec Ideal S1000x1 .f32) (v4 : Vec Ideal S1000x256 .f32) (v8 : Vec Ideal S1000x512 .f32)
    (v9 : Vec Ideal S512x256 .f32) (v12 : Vec Ideal S256 .f32) (j : S1000x256.Idx) :
    k1_pay1 v0 v4 v8 v9 v12 j
      = max (((∑ k : Fin 512, v8 (ix2 (j 0) k) * v9 (ix2 k (j 1))) + Ideal.div (v4 (ix2 (j 0) (j 1))) (max (v0 (ix2 (j 0) 0)) Spec.o32))
          + v12 (ix1 (j 1))) Spec.z32 := by
  obtain ⟨p, q, rfl⟩ : ∃ (p : Fin 1000) (q : Fin 256), j = ix2 p q := ⟨j 0, j 1, eq_ix2 j⟩
  unfold k1_pay1
  simp only [maximumf_apply, addf_apply, divf_apply, broadcast_apply, shapeCast_self]
  rw [Cert.LibRowOps.matmul_plain_apply _ (by unfold dot_S1000x512_S512x256_S1000x256_1_0_0_1_n_n; rfl) none v8 v9 p q,
    colBcast_apply, Cert.LibRowOps.rowBcast_apply]
  rfl

/-! ## The array the blocks are cut from -/

/-- The rectified combination of the five arrays, index by index. -/
abbrev combOf (X : S100000x512.Idx → EReal) (A : S25000x256.Idx → EReal) (D : S25000x1.Idx → EReal) (W : S512x256.Idx → EReal)
    (b : S256.Idx → EReal) : S25000x256.Idx → EReal :=
  fun i => Spec.relu (Spec.comb1 (Spec.top 25000 (by norm_num) (Spec.cur X)) (Spec.cur A) (Spec.cur D) (Spec.cur W) (Spec.vec b)
    ⟨(i 0).val, (i 0).isLt⟩ ⟨(i 1).val, (i 1).isLt⟩)

/-- The block indices over the grid: the rows of `x`, of the segment sums, of the segment sizes and of the output
    move together, one block of rows a point; `Ws0` and `b0` stay. -/
theorem idx_rel1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

set_option maxHeartbeats 1600000 in
/-- What point `t` writes back is block `t` of the combination. -/
theorem flushed1_eq (c : Dev nD) (t : Fin cfg1.N) :
    (dat1 (F := Ideal) V c).flushed 5 t
      = ((cfg1.win 5).blk t).view.read (Elt Ideal) (combOf (V c (Pipeline.arrRef spec1 0)) (V c (Pipeline.arrRef spec1 1))
          (V c (Pipeline.arrRef spec1 2)) (V c (Pipeline.arrRef spec1 3)) (V c (Pipeline.arrRef spec1 4))) := by
  show (cfg1.win 5).cut (grid1.coords t) ((dat1 (F := Ideal) V c).after 5 t) = _
  rw [after1_5]
  unfold out1_5
  rw [View.canon_unit_zero zero_off2']
  simp only [View.ld_unit_zero (S := S1000x512) zero_off2', View.ld_unit_zero (S := S1000x256) zero_off2',
    View.ld_unit_zero (S := S1000x1) zero_off2', View.ld_unit_zero (S := S512x256) zero_off2', View.ld_unit_zero (S := S256) zero_off1]
  obtain ⟨e00, e01, e10, e11, e20, e21, e30, e31, e40, e50, e51⟩ := idx_rel1 t
  funext j
  refine (comb_apply (iblk1 V c 2 t) (iblk1 V c 1 t) (iblk1 V c 0 t) (iblk1 V c 3 t) (iblk1 V c 4 t) j).trans ?_
  show _ = combOf (V c (Pipeline.arrRef spec1 0)) (V c (Pipeline.arrRef spec1 1)) (V c (Pipeline.arrRef spec1 2))
    (V c (Pipeline.arrRef spec1 3)) (V c (Pipeline.arrRef spec1 4)) (((cfg1.win 5).blk t).view.emb j)
  unfold combOf Spec.relu Spec.comb1 Spec.meanOf Spec.mm Spec.top Spec.cur Spec.vec
  have hj0 : (j 0).val < 1000 := (j 0).isLt
  have hj1 : (j 1).val < 256 := (j 1).isLt
  refine congrArg₂ max (congrArg₂ (· + ·) (congrArg₂ (· + ·) (Finset.sum_congr rfl fun k _ => congrArg₂ (· * ·) ?_ ?_)
    (congrArg₂ Ideal.div ?_ (congrArg₂ max ?_ rfl))) ?_) rfl
  · -- the row of `x`
    show V c (Pipeline.arrRef spec1 0) (((cfg1.win 0).blk t).view.emb (ix2 (j 0) k)) = _
    refine congrArg _ (funext fun a => Fin.ext ?_)
    match a with
    | ⟨0, _⟩ => show win1_0.index t (0 : Fin 2) * 1000 + 1 * (j 0).val = win1_5.index t (0 : Fin 2) * 1000 + 1 * (j 0).val; omega
    | ⟨1, _⟩ => show win1_0.index t (1 : Fin 2) * 512 + 1 * k.val = k.val; omega
  · -- the column of `Ws0`
    show V c (Pipeline.arrRef spec1 3) (((cfg1.win 3).blk t).view.emb (ix2 k (j 1))) = _
    refine congrArg _ (funext fun a => Fin.ext ?_)
    match a with
    | ⟨0, _⟩ => show win1_3.index t (0 : Fin 2) * 512 + 1 * k.val = k.val; omega
    | ⟨1, _⟩ => show win1_3.index t (1 : Fin 2) * 256 + 1 * (j 1).val = win1_5.index t (1 : Fin 2) * 256 + 1 * (j 1).val; omega
  · -- the segment sum
    show V c (Pipeline.arrRef spec1 1) (((cfg1.win 1).blk t).view.emb (ix2 (j 0) (j 1))) = _
    refine congrArg _ (funext fun a => Fin.ext ?_)
    match a with
    | ⟨0, _⟩ => show win1_1.index t (0 : Fin 2) * 1000 + 1 * (j 0).val = win1_5.index t (0 : Fin 2) * 1000 + 1 * (j 0).val; omega
    | ⟨1, _⟩ => show win1_1.index t (1 : Fin 2) * 256 + 1 * (j 1).val = win1_5.index t (1 : Fin 2) * 256 + 1 * (j 1).val; omega
  · -- the segment size
    show V c (Pipeline.arrRef spec1 2) (((cfg1.win 2).blk t).view.emb (ix2 (j 0) 0)) = _
    refine congrArg _ (funext fun a => Fin.ext ?_)
    match a with
    | ⟨0, _⟩ => show win1_2.index t (0 : Fin 2) * 1000 + 1 * (j 0).val = win1_5.index t (0 : Fin 2) * 1000 + 1 * (j 0).val; omega
    | ⟨1, _⟩ => show win1_2.index t (1 : Fin 2) * 1 + 1 * 0 = 0; omega
  · -- the bias
    show V c (Pipeline.arrRef spec1 4) (((cfg1.win 4).blk t).view.emb (ix1 (j 1))) = _
    refine congrArg _ (funext fun a => Fin.ext ?_)
    match a with
    | ⟨0, _⟩ => show win1_4.index t (0 : Fin 1) * 256 + 1 * (j 1).val = win1_5.index t (1 : Fin 2) * 256 + 1 * (j 1).val; omega

/-! ## The blocks cover the array -/

/-- An index is in point `t`'s block iff each coordinate is in the block's range on its axis. -/
theorem mem_blk1 (t : Fin cfg1.N) (i : S25000x256.Idx) :
    i ∈ ((cfg1.win 5).blk t).view.set ↔ ∀ a : Fin 2, win1_5.index t a * S1000x256.size a ≤ (i a).val ∧ (i a).val < win1_5.index t a * S1000x256.size a + S1000x256.size a := by
  show i ∈ ((View.whole main_v10).slice (win1_5.rect t)).set ↔ _
  rw [View.set_slice_whole, Rect.mem_set_unit]
  exact Iff.rfl

/-- Row `r` is in the block of point `r / 1000`. -/
theorem cover1 (i : S25000x256.Idx) :
    ∃ t : Fin cfg1.N, (cfg1.win 5).flush t = true ∧ i ∈ ((cfg1.win 5).blk t).view.set := by
  have hi0 : (i 0).val < 25000 := (i 0).isLt
  have hi1 : (i 1).val < 256 := (i 1).isLt
  have hN : (i 0).val / 1000 < cfg1.N := by show _ < grid1.N; rw [N_1]; omega
  obtain ⟨-, -, -, -, -, -, -, -, -, e50, e51⟩ := idx_rel1 ⟨(i 0).val / 1000, hN⟩
  have e50' : win1_5.index ⟨(i 0).val / 1000, hN⟩ (0 : Fin 2) = (i 0).val / 1000 := e50
  refine ⟨⟨(i 0).val / 1000, hN⟩, flush1_5 _, ?_⟩
  rw [mem_blk1]
  intro a
  match a with
  | ⟨0, _⟩ =>
    show win1_5.index ⟨(i 0).val / 1000, hN⟩ (0 : Fin 2) * 1000 ≤ (i 0).val ∧ (i 0).val < win1_5.index ⟨(i 0).val / 1000, hN⟩ (0 : Fin 2) * 1000 + 1000
    omega
  | ⟨1, _⟩ =>
    show win1_5.index ⟨(i 0).val / 1000, hN⟩ (1 : Fin 2) * 256 ≤ (i 1).val ∧ (i 1).val < win1_5.index ⟨(i 0).val / 1000, hN⟩ (1 : Fin 2) * 256 + 256
    omega

/-! ## The array after the region -/

/-- After the region the output array is the rectified combination of the five arrays the region was handed. -/
theorem final1 (c : Dev nD) : ((dat1 (F := Ideal) V c).arrAt 5 cfg1.N : S25000x256.Idx → EReal)
    = fun i => Spec.relu (Spec.comb1 (Spec.top 25000 (by norm_num) (Spec.cur (V c (Pipeline.arrRef spec1 0)))) (Spec.cur (V c (Pipeline.arrRef spec1 1)))
        (Spec.cur (V c (Pipeline.arrRef spec1 2))) (Spec.cur (V c (Pipeline.arrRef spec1 3))) (Spec.vec (V c (Pipeline.arrRef spec1 4)))
        ⟨(i 0).val, (i 0).isLt⟩ ⟨(i 1).val, (i 1).isLt⟩) :=
  (dat1 (F := Ideal) V c).arrAt_eq_of_cover 5 (combOf (V c (Pipeline.arrRef spec1 0)) (V c (Pipeline.arrRef spec1 1))
      (V c (Pipeline.arrRef spec1 2)) (V c (Pipeline.arrRef spec1 3)) (V c (Pipeline.arrRef spec1 4)))
    (fun t _ => flushed1_eq V c t) cover1

end Cert.KernelIdeal.Hand

end
-- ==== Proof.KI.Value2.lean ====
/-
  The value of the third pallas_call: its output array, whole, as a function of the arrays it is handed.

  At the ideal instance (a float is an extended real, every operation exact) the body's store at index `(p, q)` of
  its block is `max ((h · Ws1 + (sums / max sizes 1) · Wn1) (p, q) + b1 q) 0`, which reads only row `p` of the
  blocks of `h`, of the segment sums and of the segment sizes.  Point `t` holds rows `800 t … 800 t + 799` of
  each of the three and writes the same rows of the output back; the eight points cover the `6400` rows.  So the
  output array ends as the rectified combination of the first `6400` rows of `h`, row by row.
-/
import proofs.«417426_j23381801959787_3_alg».proof.Proof.KI.Region2
import proofs.«417426_j23381801959787_3_alg».proof.Proof.Spec
import proofs.«417426_j23381801959787_3_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert Cert.LibRowOps
open scoped BigOperators

/-! ## The body's store at an index -/

/-- A column `[a, 1]` broadcast along the rows to `[a, b]` reads, at `(p, c)`, the column's entry `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's two products are plain ones, `[800, 256] × [256, 256]`. -/
theorem dot2_plain : dot_S800x256_S256x256_S800x256_1_0_0_1_n_n = DotDims.plain 800 256 256 := rfl

/-- The stored value at `(p, q)`: the rectified combination, at row `p` and column `q`, of the loaded blocks
    (`v8` the rows of `h`, `v4` the segment sums, `v0` the segment sizes, `v10`, `v12` the weights, `v15` the bias). -/
theorem pay2_apply (v0 : Vec Ideal S800x1 .f32) (v4 v8 : Vec Ideal S800x256 .f32) (v10 v12 : Vec Ideal S256x256 .f32)
    (v15 : Vec Ideal S256 .f32) (p : Fin 800) (q : Fin 256) :
    k2_pay1 v0 v4 v8 v10 v12 v15 (ix2 p q)
      = Spec.relu (Spec.comb2 (Spec.cur v8) (Spec.cur v4) (Spec.cur v0) (Spec.cur v10) (Spec.cur v12) (Spec.vec v15) p q) := by
  unfold k2_pay1
  simp only [shapeCast_self]
  rw [maximumf_apply, broadcast_apply, addf_apply, addf_apply, rowBcast_apply, matmul_plain_apply _ dot2_plain, matmul_plain_apply _ dot2_plain]
  simp only [divf_apply, broadcastTo_a1_ab_apply, maximumf_apply, broadcast_apply]
  rfl

/-- The combination at a row reads only that row of `h`, of the sums and of the sizes. -/
private theorem comb2_row {n n' K D : ℕ} (hd : Spec.Mat n K) (hd' : Spec.Mat n' K) (agg : Spec.Mat n K) (agg' : Spec.Mat n' K)
    (dg : Spec.Mat n 1) (dg' : Spec.Mat n' 1) (Ws Wn : Spec.Mat K D) (b : Fin D → EReal) (r : Fin n) (r' : Fin n') (j : Fin D)
    (h1 : ∀ k, hd r k = hd' r' k) (h2 : ∀ k, agg r k = agg' r' k) (h3 : dg r 0 = dg' r' 0) :
    Spec.comb2 hd agg dg Ws Wn b r j = Spec.comb2 hd' agg' dg' Ws Wn b r' j := by
  unfold Spec.comb2 Spec.mm Spec.meanOf
  simp only [h1, h2, h3]

-- the buffer contents when the region is entered, at the ideal instance
variable (V : (c : Dev nD) → (b : Ref sig .tc) → Buf (Elt Ideal) ((c : Thread nD τ).loc b))

/-! ## Where each window's block sits in its array -/

/-- The block indices at point `t`: `(t, 0)` for the sums, the sizes and the output; `0` for the weights and the bias. -/
theorem index2_1 (t : Fin cfg2.N) : (cfg2.win 1).index t = ![t.val, 0] := by
  rcases fin_N2 t with rfl | rfl | rfl | rfl | rfl | rfl | rfl | rfl <;> decide
theorem index2_2 (t : Fin cfg2.N) : (cfg2.win 2).index t = ![t.val, 0] := by
  rcases fin_N2 t with rfl | rfl | rfl | rfl | rfl | rfl | rfl | rfl <;> decide
theorem index2_3 (t : Fin cfg2.N) : (cfg2.win 3).index t = ![0, 0] := by
  rcases fin_N2 t with rfl | rfl | rfl | rfl | rfl | rfl | rfl | rfl <;> decide
theorem index2_4 (t : Fin cfg2.N) : (cfg2.win 4).index t = ![0, 0] := by
  rcases fin_N2 t with rfl | rfl | rfl | rfl | rfl | rfl | rfl | rfl <;> decide
theorem index2_5 (t : Fin cfg2.N) : (cfg2.win 5).index t = ![0] := by
  rcases fin_N2 t with rfl | rfl | rfl | rfl | rfl | rfl | rfl | rfl <;> decide
theorem index2_6 (t : Fin cfg2.N) : (cfg2.win 6).index t = ![t.val, 0] := by
  rcases fin_N2 t with rfl | rfl | rfl | rfl | rfl | rfl | rfl | rfl <;> decide

theorem row2_lt (t : Fin cfg2.N) (p : Fin 800) : 800 * t.val + p.val < 6400 := by
  have := Nat.lt_of_lt_of_eq t.isLt N_2; have := p.isLt; omega

/-- Index `(p, q)` of the block of sums at point `t` is index `(800 t + p, q)` of the array. -/
theorem emb2_1 (t : Fin cfg2.N) (p : Fin 800) (q : Fin 256) :
    ((cfg2.win 1).blk t).view.emb (ix2 p q) = (ix2 ⟨800 * t.val + p.val, row2_lt t p⟩ q : S6400x256.Idx) := by
  funext a
  apply Fin.ext
  show (((cfg2.win 1).rect t).emb _ a : Nat) = _
  rw [Window.rect_emb_val, index2_1]
  match a with
  | ⟨0, _⟩ => show t.val * 800 + p.val = 800 * t.val + p.val; omega
  | ⟨1, _⟩ => show 0 * 256 + q.val = q.val; omega
/-- The same of the block of sizes, a column. -/
theorem emb2_2 (t : Fin cfg2.N) (p : Fin 800) (q : Fin 1) :
    ((cfg2.win 2).blk t).view.emb (ix2 p q) = (ix2 ⟨800 * t.val + p.val, row2_lt t p⟩ q : S6400x1.Idx) := by
  funext a
  apply Fin.ext
  show (((cfg2.win 2).rect t).emb _ a : Nat) = _
  rw [Window.rect_emb_val, index2_2]
  match a with
  | ⟨0, _⟩ => show t.val * 800 + p.val = 800 * t.val + p.val; omega
  | ⟨1, _⟩ => show 0 * 1 + q.val = q.val; omega
/-- The same of the output's block. -/
theorem emb2_6 (t : Fin cfg2.N) (p : Fin 800) (q : Fin 256) :
    ((cfg2.win 6).blk t).view.emb (ix2 p q) = (ix2 ⟨800 * t.val + p.val, row2_lt t p⟩ q : S6400x256.Idx) := by
  funext a
  apply Fin.ext
  show (((cfg2.win 6).rect t).emb _ a : Nat) = _
  rw [Window.rect_emb_val, index2_6]
  match a with
  | ⟨0, _⟩ => show t.val * 800 + p.val = 800 * t.val + p.val; omega
  | ⟨1, _⟩ => show 0 * 256 + q.val = q.val; omega
/-- A weight matrix's block is the whole matrix. -/
theorem emb2_3 (t : Fin cfg2.N) (p : Fin 256) (q : Fin 256) :
    ((cfg2.win 3).blk t).view.emb (ix2 p q) = (ix2 p q : S256x256.Idx) := by
  funext a
  apply Fin.ext
  show (((cfg2.win 3).rect t).emb _ a : Nat) = _
  rw [Window.rect_emb_val, index2_3]
  match a with
  | ⟨0, _⟩ => show 0 * 256 + p.val = p.val; omega
  | ⟨1, _⟩ => show 0 * 256 + q.val = q.val; omega
theorem emb2_4 (t : Fin cfg2.N) (p : Fin 256) (q : Fin 256) :
    ((cfg2.win 4).blk t).view.emb (ix2 p q) = (ix2 p q : S256x256.Idx) := by
  funext a
  apply Fin.ext
  show (((cfg2.win 4).rect t).emb _ a : Nat) = _
  rw [Window.rect_emb_val, index2_4]
  match a with
  | ⟨0, _⟩ => show 0 * 256 + p.val = p.val; omega
  | ⟨1, _⟩ => show 0 * 256 + q.val = q.val; omega
/-- The bias's block is the whole bias. -/
theorem emb2_5 (t : Fin cfg2.N) (q : Fin 256) :
    ((cfg2.win 5).blk t).view.emb (ix1 q) = (ix1 q : S256.Idx) := by
  funext a
  apply Fin.ext
  show (((cfg2.win 5).rect t).emb _ a : Nat) = _
  rw [Window.rect_emb_val, index2_5]
  match a with
  | ⟨0, _⟩ => show 0 * 256 + q.val = q.val; omega

/-! ## The blocks read off the arrays -/

theorem iblk2_1_apply (c : Dev nD) (t : Fin cfg2.N) (p : Fin 800) (q : Fin 256) :
    iblk2 V c 1 t (ix2 p q) = (V c (Pipeline.arrRef spec2 1) : S6400x256.Idx → EReal) (ix2 ⟨800 * t.val + p.val, row2_lt t p⟩ q) := by
  unfold iblk2; rw [View.read_apply, cast_eq, emb2_1]
theorem iblk2_2_apply (c : Dev nD) (t : Fin cfg2.N) (p : Fin 800) (q : Fin 1) :
    iblk2 V c 2 t (ix2 p q) = (V c (Pipeline.arrRef spec2 2) : S6400x1.Idx → EReal) (ix2 ⟨800 * t.val + p.val, row2_lt t p⟩ q) := by
  unfold iblk2; rw [View.read_apply, cast_eq, emb2_2]
theorem iblk2_3_eq (c : Dev nD) (t : Fin cfg2.N) :
    (iblk2 V c 3 t : S256x256.Idx → EReal) = (V c (Pipeline.arrRef spec2 3) : S256x256.Idx → EReal) := by
  funext j
  obtain ⟨p, q, rfl⟩ : ∃ (p : Fin 256) (q : Fin 256), j = ix2 p q := ⟨j 0, j 1, eq_ix2 j⟩
  unfold iblk2; rw [View.read_apply, cast_eq, emb2_3]
theorem iblk2_4_eq (c : Dev nD) (t : Fin cfg2.N) :
    (iblk2 V c 4 t : S256x256.Idx → EReal) = (V c (Pipeline.arrRef spec2 4) : S256x256.Idx → EReal) := by
  funext j
  obtain ⟨p, q, rfl⟩ : ∃ (p : Fin 256) (q : Fin 256), j = ix2 p q := ⟨j 0, j 1, eq_ix2 j⟩
  unfold iblk2; rw [View.read_apply, cast_eq, emb2_4]
theorem iblk2_5_eq (c : Dev nD) (t : Fin cfg2.N) :
    (iblk2 V c 5 t : S256.Idx → EReal) = (V c (Pipeline.arrRef spec2 5) : S256.Idx → EReal) := by
  funext j
  obtain ⟨q, rfl⟩ : ∃ (q : Fin 256), j = ix1 q := ⟨j 0, eq_ix1 j⟩
  unfold iblk2; rw [View.read_apply, cast_eq, emb2_5]

/-! ## The output array -/

/-- The rectified combination of the first `6400` rows of `h` with the sums, the sizes, the weights and the bias. -/
def G2 (c : Dev nD) : S6400x256.Idx → EReal := fun i =>
  Spec.relu (Spec.comb2 (Spec.top 6400 (by norm_num) (Spec.cur (V c (Pipeline.arrRef spec2 0)))) (Spec.cur (V c (Pipeline.arrRef spec2 1)))
    (Spec.cur (V c (Pipeline.arrRef spec2 2))) (Spec.cur (V c (Pipeline.arrRef spec2 3))) (Spec.cur (V c (Pipeline.arrRef spec2 4)))
    (Spec.vec (V c (Pipeline.arrRef spec2 5))) ⟨(i 0).val, (i 0).isLt⟩ ⟨(i 1).val, (i 1).isLt⟩)

private theorem hz2 : (![0, 0] : Fin 2 → Nat) = fun _ => 0 := funext fun a => by fin_cases a <;> rfl
private theorem hz1 : (![0] : Fin 1 → Nat) = fun _ => 0 := funext fun a => by fin_cases a; rfl

theorem xinj2_6 (t : Fin cfg2.N) (p : Fin 800) (q : Fin 256) :
    (cfg2.win 6).xinj (grid2.coords t) (ix2 p q) = (ix2 p q : S800x256.Idx) :=
  funext fun a => by match a with | ⟨0, _⟩ => rfl | ⟨1, _⟩ => rfl

/-- What point `t` writes back is rows `800 t … 800 t + 799` of `G2`. -/
theorem flushed2_eq (c : Dev nD) (t : Fin cfg2.N) :
    (dat2 (F := Ideal) V c).flushed 6 t = ((cfg2.win 6).blk t).view.read (Elt Ideal) (G2 V c) := by
  show (cfg2.win 6).cut (grid2.coords t) ((dat2 V c).after 6 t) = _
  rw [after2_6]
  unfold out2_6
  rw [View.canon_unit_zero hz2]
  simp only [View.ld_unit_zero (S := S800x256) hz2, View.ld_unit_zero (S := S800x1) hz2, View.ld_unit_zero (S := S256x256) hz2,
    View.ld_unit_zero (S := S256) hz1]
  funext j
  obtain ⟨p, q, rfl⟩ : ∃ (p : Fin 800) (q : Fin 256), j = ix2 p q := ⟨j 0, j 1, eq_ix2 j⟩
  show k2_pay1 _ _ _ _ _ _ ((cfg2.win 6).xinj (grid2.coords t) (ix2 p q)) = _
  rw [xinj2_6, pay2_apply, View.read_apply, cast_eq, emb2_6, iblk2_3_eq, iblk2_4_eq, iblk2_5_eq]
  unfold G2
  refine congrArg Spec.relu ?_
  refine comb2_row _ _ _ _ _ _ _ _ _ p _ _ (fun k => ?_) (fun k => ?_) ?_
  · show h2blk V c t (ix2 p k) = _
    rw [h2blk_apply]; rfl
  · show iblk2 V c 1 t (ix2 p k) = _
    rw [iblk2_1_apply]; rfl
  · show iblk2 V c 2 t (ix2 p 0) = _
    rw [iblk2_2_apply]; rfl

/-- An index of the output array is in point `t`'s block iff each coordinate is in the block's range on its axis. -/
theorem mem_blk2_6 (t : Fin cfg2.N) (i : S6400x256.Idx) :
    i ∈ ((cfg2.win 6).blk t).view.set ↔ ∀ a : Fin 2, (cfg2.win 6).index t a * S800x256.size a ≤ (i a).val
      ∧ (i a).val < (cfg2.win 6).index t a * S800x256.size a + S800x256.size a := by
  show i ∈ ((View.whole main_v20).slice ((cfg2.win 6).rect t)).set ↔ _
  rw [View.set_slice_whole, Rect.mem_set_unit]
  exact Iff.rfl

/-- Row `r` of the output is written back by point `r / 800`. -/
theorem covered2_6 (i : S6400x256.Idx) :
    ∃ t : Fin cfg2.N, (cfg2.win 6).flush t = true ∧ i ∈ ((cfg2.win 6).blk t).view.set := by
  have hi0 : (i 0).val < 6400 := (i 0).isLt
  have hi1 : (i 1).val < 256 := (i 1).isLt
  refine ⟨⟨(i 0).val / 800, Nat.lt_of_lt_of_eq (by omega : (i 0).val / 800 < 8) N_2.symm⟩, flush2_6 _, ?_⟩
  rw [mem_blk2_6, index2_6]
  intro a
  match a with
  | ⟨0, _⟩ => show (i 0).val / 800 * 800 ≤ (i 0).val ∧ (i 0).val < (i 0).val / 800 * 800 + 800; omega
  | ⟨1, _⟩ => show 0 * 256 ≤ (i 1).val ∧ (i 1).val < 0 * 256 + 256; omega

/-- The output array after the region: the rectified combination, row by row, over its `6400` rows. -/
theorem final2 (c : Dev nD) : ((dat2 (F := Ideal) V c).arrAt 6 cfg2.N : S6400x256.Idx → EReal)
    = fun i => Spec.relu (Spec.comb2 (Spec.top 6400 (by norm_num) (Spec.cur (V c (Pipeline.arrRef spec2 0)))) (Spec.cur (V c (Pipeline.arrRef spec2 1)))
        (Spec.cur (V c (Pipeline.arrRef spec2 2))) (Spec.cur (V c (Pipeline.arrRef spec2 3))) (Spec.cur (V c (Pipeline.arrRef spec2 4)))
        (Spec.vec (V c (Pipeline.arrRef spec2 5))) ⟨(i 0).val, (i 0).isLt⟩ ⟨(i 1).val, (i 1).isLt⟩) :=
  (dat2 (F := Ideal) V c).arrAt_eq_of_cover 6 (G2 V c) (fun t _ => flushed2_eq V c t) covered2_6

end Cert.KernelIdeal.Hand

end
-- ==== Proof.KI.Value3.lean ====
/-
  What the fourth pallas_call leaves in its output array, as one function of the arrays it was handed, where a
  float is an extended real and every operation exact.

  Row `r` of the output (1600 rows, 256 columns) is `(h r · Ws2 + (sums r / max (sizes r) 1) · Wn2 + b2) · W_fc + b_fc`:
  `h r` row `r` of the 6400-row node features, `sums r` and `sizes r` row `r` of the segment sums and sizes.  First
  the stored value at an index of a block, operation by operation; then the four blocks of 400 rows, each written
  back by the grid point of the same number, cover the array.
-/
import proofs.«417426_j23381801959787_3_alg».proof.Proof.KI.Region3
import proofs.«417426_j23381801959787_3_alg».proof.Proof.Spec
import proofs.«417426_j23381801959787_3_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert
open scoped BigOperators

-- the buffer contents when the region is entered: every statement below is at this parameter
variable (V : (c : Dev nD) → (b : Ref sig .tc) → Buf (Elt Ideal) ((c : Thread nD τ).loc b))

/-! ## Layout operations the library leaves to the caller -/

/-- A column `[a, 1]` broadcast across `b` columns reads, at `(p, q)`, the column's entry at row `p`. -/
theorem colBcast3_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The products of this call contract the left operand's columns with the right operand's rows. -/
theorem dot3_plain : dot_S400x256_S256x256_S400x256_1_0_0_1_n_n = DotDims.plain 400 256 256 := by
  unfold dot_S400x256_S256x256_S400x256_1_0_0_1_n_n; rfl

/-! ## The payload at an index -/

/-- The stored value at row `p`, column `q` of a block: the combination `h · Ws2 + (sums / max sizes 1) · Wn2 + b2`
    of the block's rows, multiplied by `W_fc`, plus `b_fc`. -/
theorem pay3_apply (v0 : Vec Ideal S400x1 .f32) (v4 v8 : Vec Ideal S400x256 .f32) (v10 v12 : Vec Ideal S256x256 .f32)
    (v15 : Vec Ideal S256 .f32) (v19 : Vec Ideal S256x256 .f32) (v21 : Vec Ideal S256 .f32) (p : Fin 400) (q : Fin 256) :
    k3_pay1 v0 v4 v8 v10 v12 v15 v19 v21 (ix2 p q)
      = Spec.mm (Spec.comb2 (Spec.cur v8) (Spec.cur v4) (Spec.cur v0) (Spec.cur v10) (Spec.cur v12) (Spec.vec v15)) (Spec.cur v19) p q
        + Spec.vec v21 q := by
  unfold Gen.k3_pay1
  simp only [shapeCast_self]
  refine (LibRowOps.layer_apply _ dot3_plain _ v19 v21 _ _ p q
    (fun k => Spec.comb2 (Spec.cur v8) (Spec.cur v4) (Spec.cur v0) (Spec.cur v10) (Spec.cur v12) (Spec.vec v15) p k) (fun k => ?_)).trans rfl
  simp only [addf_apply]
  rw [LibRowOps.rowBcast_apply, LibRowOps.matmul_plain_apply _ dot3_plain, LibRowOps.matmul_plain_apply _ dot3_plain]
  simp only [divf_apply, colBcast3_apply, maximumf_apply, broadcast_apply]
  rfl

/-- The same, as a function of the block's index. -/
theorem pay3_eq (v0 : Vec Ideal S400x1 .f32) (v4 v8 : Vec Ideal S400x256 .f32) (v10 v12 : Vec Ideal S256x256 .f32)
    (v15 : Vec Ideal S256 .f32) (v19 : Vec Ideal S256x256 .f32) (v21 : Vec Ideal S256 .f32) :
    k3_pay1 v0 v4 v8 v10 v12 v15 v19 v21
      = fun j : S400x256.Idx => Spec.mm (Spec.comb2 (Spec.cur v8) (Spec.cur v4) (Spec.cur v0) (Spec.cur v10) (Spec.cur v12) (Spec.vec v15))
          (Spec.cur v19) (j 0) (j 1) + Spec.vec v21 (j 1) := by
  funext j
  obtain ⟨p, q, rfl⟩ : ∃ (p : Fin 400) (q : Fin 256), j = ix2 p q := ⟨j 0, j 1, eq_ix2 j⟩
  exact pay3_apply v0 v4 v8 v10 v12 v15 v19 v21 p q

/-- The combination followed by the final product reads only one row of the node features, the sums and the
    sizes: it is the same at two rows, of two stacks of rows, that agree entry by entry. -/
theorem mm_comb2_row3 {n n' K D D' : ℕ} (hd agg : Spec.Mat n K) (dg : Spec.Mat n 1) (hd' agg' : Spec.Mat n' K) (dg' : Spec.Mat n' 1)
    (Ws Wn : Spec.Mat K D) (b : Fin D → EReal) (Wfc : Spec.Mat D D') (r : Fin n) (r' : Fin n') (q : Fin D')
    (h1 : ∀ m, hd r m = hd' r' m) (h2 : ∀ m, agg r m = agg' r' m) (h3 : dg r 0 = dg' r' 0) :
    Spec.mm (Spec.comb2 hd agg dg Ws Wn b) Wfc r q = Spec.mm (Spec.comb2 hd' agg' dg' Ws Wn b) Wfc r' q := by
  unfold Spec.mm Spec.comb2 Spec.mm Spec.meanOf
  simp only [h1, h2, h3]

/-- With the final bias: the whole stored value at a row and a column. -/
theorem out_row3 {n n' K D D' : ℕ} (hd agg : Spec.Mat n K) (dg : Spec.Mat n 1) (hd' agg' : Spec.Mat n' K) (dg' : Spec.Mat n' 1)
    (Ws Wn : Spec.Mat K D) (b : Fin D → EReal) (Wfc : Spec.Mat D D') (bfc : Fin D' → EReal) (r : Fin n) (r' : Fin n') (q q' : Fin D')
    (h1 : ∀ m, hd r m = hd' r' m) (h2 : ∀ m, agg r m = agg' r' m) (h3 : dg r 0 = dg' r' 0) (hq : q = q') :
    Spec.mm (Spec.comb2 hd agg dg Ws Wn b) Wfc r q + bfc q = Spec.mm (Spec.comb2 hd' agg' dg' Ws Wn b) Wfc r' q' + bfc q' := by
  subst hq
  rw [mm_comb2_row3 hd agg dg hd' agg' dg' Ws Wn b Wfc r r' q h1 h2 h3]

/-! ## From blocks to the array -/

/-- What the output array ends holding: row `r`, column `q` is the combination of row `r` of the node features
    (the first 1600 of them), of the sums and of the sizes, multiplied by `W_fc`, plus `b_fc`. -/
def G3 (a0 : S6400x256.Idx → EReal) (a1 : S1600x256.Idx → EReal) (a2 : S1600x1.Idx → EReal) (a3 a4 : S256x256.Idx → EReal)
    (a5 : S256.Idx → EReal) (a6 : S256x256.Idx → EReal) (a7 : S256.Idx → EReal) : S1600x256.Idx → EReal := fun i =>
  Spec.mm (Spec.comb2 (Spec.top 1600 (by norm_num) (Spec.cur a0)) (Spec.cur a1) (Spec.cur a2) (Spec.cur a3) (Spec.cur a4) (Spec.vec a5))
    (Spec.cur a6) ⟨(i 0).val, (i 0).isLt⟩ ⟨(i 1).val, (i 1).isLt⟩ + Spec.vec a7 ⟨(i 1).val, (i 1).isLt⟩

theorem zero3_off2 : (![0, 0] : Fin 2 → Nat) = fun _ => 0 := funext fun a => by fin_cases a <;> rfl
theorem zero3_off1 : (![0] : Fin 1 → Nat) = fun _ => 0 := funext fun a => by fin_cases a <;> rfl

/-- The index maps over the grid: the three row-blocked inputs move with the output, block `t` at point `t`, -/
theorem idx3_0 : ∀ t : Fin cfg3.N, win3_0.index t (0 : Fin 2) = win3_8.index t (0 : Fin 2) ∧ win3_0.index t (1 : Fin 2) = 0 :=
  (by decide +kernel : ∀ t : Fin grid3.N, _)
theorem idx3_1 : ∀ t : Fin cfg3.N, win3_1.index t (0 : Fin 2) = win3_8.index t (0 : Fin 2) ∧ win3_1.index t (1 : Fin 2) = 0 :=
  (by decide +kernel : ∀ t : Fin grid3.N, _)
theorem idx3_2 : ∀ t : Fin cfg3.N, win3_2.index t (0 : Fin 2) = win3_8.index t (0 : Fin 2) ∧ win3_2.index t (1 : Fin 2) = 0 :=
  (by decide +kernel : ∀ t : Fin grid3.N, _)
/-- the five weight windows stay at block zero, -/
theorem idx3_3 : ∀ t : Fin cfg3.N, win3_3.index t (0 : Fin 2) = 0 ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 1) = 0 :=
  (by decide +kernel : ∀ t : Fin grid3.N, _)
theorem idx3_6 : ∀ t : Fin cfg3.N, win3_6.index t (0 : Fin 2) = 0 ∧ win3_6.index t (1 : Fin 2) = 0 :=
  (by decide +kernel : ∀ t : Fin grid3.N, _)
theorem idx3_7 : ∀ t : Fin cfg3.N, win3_7.index t (0 : Fin 1) = 0 :=
  (by decide +kernel : ∀ t : Fin grid3.N, _)
/-- and the output's blocks are whole rows. -/
theorem idx3_8 : ∀ t : Fin cfg3.N, win3_8.index t (1 : Fin 2) = 0 :=
  (by decide +kernel : ∀ t : Fin grid3.N, _)

/-- Every block of 400 rows is some point's. -/
theorem idx_onto3 : ∀ q0 : Fin 4, ∃ t : Fin cfg3.N, win3_8.index t = ![q0.val, 0] :=
  (by decide +kernel : ∀ q0 : Fin 4, ∃ t : Fin grid3.N, win3_8.index t = ![q0.val, 0])

/-! A weight window's block, at any point, is its whole array. -/
theorem blk3_3 (c : Dev nD) (t : Fin cfg3.N) : iblk3 V c 3 t = V c (Pipeline.arrRef spec3 3) := by
  obtain ⟨e0, e1⟩ := idx3_3 t
  funext y
  show V c (Pipeline.arrRef spec3 3) (((cfg3.win 3).blk t).view.emb y) = V c (Pipeline.arrRef spec3 3) y
  refine congrArg _ (funext fun a => Fin.ext ?_)
  match a with
  | ⟨0, _⟩ => show win3_3.index t (0 : Fin 2) * 256 + 1 * (y 0).val = (y 0).val; omega
  | ⟨1, _⟩ => show win3_3.index t (1 : Fin 2) * 256 + 1 * (y 1).val = (y 1).val; omega
theorem blk3_4 (c : Dev nD) (t : Fin cfg3.N) : iblk3 V c 4 t = V c (Pipeline.arrRef spec3 4) := by
  obtain ⟨e0, e1⟩ := idx3_4 t
  funext y
  show V c (Pipeline.arrRef spec3 4) (((cfg3.win 4).blk t).view.emb y) = V c (Pipeline.arrRef spec3 4) y
  refine congrArg _ (funext fun a => Fin.ext ?_)
  match a with
  | ⟨0, _⟩ => show win3_4.index t (0 : Fin 2) * 256 + 1 * (y 0).val = (y 0).val; omega
  | ⟨1, _⟩ => show win3_4.index t (1 : Fin 2) * 256 + 1 * (y 1).val = (y 1).val; omega
theorem blk3_5 (c : Dev nD) (t : Fin cfg3.N) : iblk3 V c 5 t = V c (Pipeline.arrRef spec3 5) := by
  obtain e0 := idx3_5 t
  funext y
  show V c (Pipeline.arrRef spec3 5) (((cfg3.win 5).blk t).view.emb y) = V c (Pipeline.arrRef spec3 5) y
  refine congrArg _ (funext fun a => Fin.ext ?_)
  match a with
  | ⟨0, _⟩ => show win3_5.index t (0 : Fin 1) * 256 + 1 * (y 0).val = (y 0).val; omega
theorem blk3_6 (c : Dev nD) (t : Fin cfg3.N) : iblk3 V c 6 t = V c (Pipeline.arrRef spec3 6) := by
  obtain ⟨e0, e1⟩ := idx3_6 t
  funext y
  show V c (Pipeline.arrRef spec3 6) (((cfg3.win 6).blk t).view.emb y) = V c (Pipeline.arrRef spec3 6) y
  refine congrArg _ (funext fun a => Fin.ext ?_)
  match a with
  | ⟨0, _⟩ => show win3_6.index t (0 : Fin 2) * 256 + 1 * (y 0).val = (y 0).val; omega
  | ⟨1, _⟩ => show win3_6.index t (1 : Fin 2) * 256 + 1 * (y 1).val = (y 1).val; omega
theorem blk3_7 (c : Dev nD) (t : Fin cfg3.N) : iblk3 V c 7 t = V c (Pipeline.arrRef spec3 7) := by
  obtain e0 := idx3_7 t
  funext y
  show V c (Pipeline.arrRef spec3 7) (((cfg3.win 7).blk t).view.emb y) = V c (Pipeline.arrRef spec3 7) y
  refine congrArg _ (funext fun a => Fin.ext ?_)
  match a with
  | ⟨0, _⟩ => show win3_7.index t (0 : Fin 1) * 256 + 1 * (y 0).val = (y 0).val; omega

/-! A row-blocked window's block at point `t`, at row `p` of the block, is its array at row `p` of the output's block. -/
theorem blk3_0_apply (c : Dev nD) (t : Fin cfg3.N) (p : Fin 400) (m : Fin 256) (r : Fin 6400)
    (hr : r.val = win3_8.index t (0 : Fin 2) * 400 + 1 * p.val) :
    iblk3 V c 0 t (ix2 p m) = V c (Pipeline.arrRef spec3 0) (ix2 r m) := by
  obtain ⟨e0, e1⟩ := idx3_0 t
  show V c (Pipeline.arrRef spec3 0) (((cfg3.win 0).blk t).view.emb (ix2 p m)) = V c (Pipeline.arrRef spec3 0) (ix2 r m)
  refine congrArg _ (funext fun a => Fin.ext ?_)
  match a with
  | ⟨0, _⟩ => show win3_0.index t (0 : Fin 2) * 400 + 1 * p.val = r.val; omega
  | ⟨1, _⟩ => show win3_0.index t (1 : Fin 2) * 256 + 1 * m.val = m.val; omega
theorem blk3_1_apply (c : Dev nD) (t : Fin cfg3.N) (p : Fin 400) (m : Fin 256) (r : Fin 1600)
    (hr : r.val = win3_8.index t (0 : Fin 2) * 400 + 1 * p.val) :
    iblk3 V c 1 t (ix2 p m) = V c (Pipeline.arrRef spec3 1) (ix2 r m) := by
  obtain ⟨e0, e1⟩ := idx3_1 t
  show V c (Pipeline.arrRef spec3 1) (((cfg3.win 1).blk t).view.emb (ix2 p m)) = V c (Pipeline.arrRef spec3 1) (ix2 r m)
  refine congrArg _ (funext fun a => Fin.ext ?_)
  match a with
  | ⟨0, _⟩ => show win3_1.index t (0 : Fin 2) * 400 + 1 * p.val = r.val; omega
  | ⟨1, _⟩ => show win3_1.index t (1 : Fin 2) * 256 + 1 * m.val = m.val; omega
theorem blk3_2_apply (c : Dev nD) (t : Fin cfg3.N) (p : Fin 400) (r : Fin 1600)
    (hr : r.val = win3_8.index t (0 : Fin 2) * 400 + 1 * p.val) :
    iblk3 V c 2 t (ix2 p (0 : Fin 1)) = V c (Pipeline.arrRef spec3 2) (ix2 r (0 : Fin 1)) := by
  obtain ⟨e0, e1⟩ := idx3_2 t
  show V c (Pipeline.arrRef spec3 2) (((cfg3.win 2).blk t).view.emb (ix2 p (0 : Fin 1))) = V c (Pipeline.arrRef spec3 2) (ix2 r (0 : Fin 1))
  refine congrArg _ (funext fun a => Fin.ext ?_)
  match a with
  | ⟨0, _⟩ => show win3_2.index t (0 : Fin 2) * 400 + 1 * p.val = r.val; omega
  | ⟨1, _⟩ => show win3_2.index t (1 : Fin 2) * 1 + 1 * 0 = 0; omega

/-- What point `t` writes back is block `t` of `G3` of the arrays as the region finds them: the input blocks are
    the arrays read at the output block's rows, the weights read whole. -/
theorem flushed3_eq (c : Dev nD) (t : Fin cfg3.N) :
    (dat3 (F := Ideal) V c).flushed 8 t = ((cfg3.win 8).blk t).view.read (Elt Ideal)
      (G3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7))) := by
  show (cfg3.win 8).cut (grid3.coords t) ((dat3 V c).after 8 t) = _
  rw [after3_8]
  unfold out3_8
  rw [View.canon_unit_zero zero3_off2]
  simp only [View.ld_unit_zero (S := S400x256) zero3_off2, View.ld_unit_zero (S := S400x1) zero3_off2,
    View.ld_unit_zero (S := S256x256) zero3_off2, View.ld_unit_zero (S := S256) zero3_off1]
  rw [pay3_eq]
  simp only [blk3_3, blk3_4, blk3_5, blk3_6, blk3_7]
  have e1 := idx3_8 t
  funext j
  refine out_row3 _ _ _ _ _ _ _ _ _ _ _ (j 0) _ (j 1) _ (fun m => ?_) (fun m => ?_) ?_ ?_
  · exact blk3_0_apply V c t (j 0) m _ rfl
  · exact blk3_1_apply V c t (j 0) m _ rfl
  · exact blk3_2_apply V c t (j 0) _ rfl
  · exact Fin.ext (show (j 1).val = win3_8.index t (1 : Fin 2) * 256 + 1 * (j 1).val by omega)

/-- An index of the output array is in point `t`'s block iff each coordinate is in the block's range on its axis. -/
theorem mem_blk3 (t : Fin cfg3.N) (i : S1600x256.Idx) :
    i ∈ ((cfg3.win 8).blk t).view.set ↔ ∀ a : Fin 2, win3_8.index t a * S400x256.size a ≤ (i a).val ∧ (i a).val < win3_8.index t a * S400x256.size a + S400x256.size a := by
  show i ∈ ((View.whole main_v30).slice (win3_8.rect t)).set ↔ _
  rw [View.set_slice_whole, Rect.mem_set_unit]
  exact Iff.rfl

/-- Row `r` is in the block of point `r / 400`. -/
theorem cover3 (i : S1600x256.Idx) : ∃ t : Fin cfg3.N, (cfg3.win 8).flush t = true ∧ i ∈ ((cfg3.win 8).blk t).view.set := by
  have hi0 : (i 0).val < 1600 := (i 0).isLt
  have hi1 : (i 1).val < 256 := (i 1).isLt
  obtain ⟨t, ht⟩ := idx_onto3 ⟨(i 0).val / 400, by omega⟩
  have q0 : win3_8.index t (0 : Fin 2) = (i 0).val / 400 := congrFun ht 0
  have q1 : win3_8.index t (1 : Fin 2) = 0 := congrFun ht 1
  refine ⟨t, flush3_8 t, ?_⟩
  rw [mem_blk3]
  intro a
  match a with
  | ⟨0, _⟩ => show win3_8.index t (0 : Fin 2) * 400 ≤ (i 0).val ∧ (i 0).val < win3_8.index t (0 : Fin 2) * 400 + 400; omega
  | ⟨1, _⟩ => show win3_8.index t (1 : Fin 2) * 256 ≤ (i 1).val ∧ (i 1).val < win3_8.index t (1 : Fin 2) * 256 + 256; omega

/-- The output array after the region. -/
theorem final3 (c : Dev nD) : ((dat3 (F := Ideal) V c).arrAt 8 cfg3.N : S1600x256.Idx → EReal)
      = fun i => Spec.mm (Spec.comb2 (Spec.top 1600 (by norm_num) (Spec.cur (V c (Pipeline.arrRef spec3 0)))) (Spec.cur (V c (Pipeline.arrRef spec3 1))) (Spec.cur (V c (Pipeline.arrRef spec3 2))) (Spec.cur (V c (Pipeline.arrRef spec3 3))) (Spec.cur (V c (Pipeline.arrRef spec3 4))) (Spec.vec (V c (Pipeline.arrRef spec3 5)))) (Spec.cur (V c (Pipeline.arrRef spec3 6))) ⟨(i 0).val, (i 0).isLt⟩ ⟨(i 1).val, (i 1).isLt⟩ + Spec.vec (V c (Pipeline.arrRef spec3 7)) ⟨(i 1).val, (i 1).isLt⟩ :=
  (dat3 (F := Ideal) V c).arrAt_eq_of_cover 8 (G3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)))
    (fun t _ => flushed3_eq V c t) cover3

end Cert.KernelIdeal.Hand

end
-- ==== Proof.LibRowIndex.lean ====
/-
  A row gather and a row scatter-add read at an index.

  A table `[N, D]` gathered at `E` start indices `[E, 1]` gives `[E, D]`: row `e` of the result is the table's
  row at the start index `idx (e, 0)`, read as a signed integer and clamped into `[0, N − 1]`; the column is the
  offset coordinate and passes through.

  The accumulating scatter goes the other way: `E` update rows `[E, D]` are added into an operand `[n, D]` at the
  rows their indices `[E, 1]` name. The start is read signed and NOT clamped: an update row whose index is negative
  or `≥ n` leaves the operand and is dropped. At the ideal instance the colliding updates add exactly, so element
  `(r, k)` of the result is the operand's plus the sum, over the update rows `e` whose index is `r`, of
  `upd (e, k)`. The same for a flat operand `[n]` with scalar updates `[E]`.

  Every size is generic: a program's own dimension-number record is the one here by `rfl`.
-/
import Idealize.ShloMosaic.Lib.ValueIdx
import Idealize.ShloMosaic.PureOps.Ideal.Laws

noncomputable section

namespace Cert.LibRowIndex

open Idealize.ShloMosaic Idealize.ShloMosaic.ValueIdx
open scoped BigOperators

/-! ## Where an update lands, in general -/

/-- An update index `j` lands at the operand index `i` exactly when, on every operand axis, the signed start plus
    the window coordinate is `i`'s coordinate. (Inside the operand the landing index is that sum; outside it there
    is none, and no `i` has such coordinates.) -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  split
  · next h =>
    constructor
    · intro heq a
      have h1 := congrFun (Option.some.inj heq) a
      have h2 := congrArg Fin.val h1
      have h3 := h a
      simp only at h2
      omega
    · intro hall
      congr 1
      funext a
      refine Fin.ext ?_
      show (d.start j idx a + (d.window j a : ℤ)).toNat = (i a).val
      rw [hall a, Int.toNat_natCast]
  · next h =>
    constructor
    · intro heq; cases heq
    · intro hall
      exfalso
      apply h
      intro a
      rw [hall a]
      exact ⟨Int.natCast_nonneg _, by exact_mod_cast (i a).isLt⟩

/-! ## The row gather -/

section Gather
variable {α : Type}

/-- The dimension numbers of a row gather: operand `[N, D]`, start indices `[E, 1]`, result `[E, D]`; the row axis is
    collapsed and indexed, the column axis is the one offset axis, a slice is one whole row. -/
abbrev rowGatherDims (N D E : ℕ)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, j)`: the operand's row at the start index `idx (e, 0)`, read signed and clamped into
    `[0, N − 1]`, at column `j`. -/
theorem gatherRows_apply {N D E w : ℕ} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGatherDims N D E wf) x idx (ix2 e j)
      = x (ix2 ⟨min (idx (ix2 e 0)).toInt.toNat (N - 1), by omega⟩ j) := by
  unfold Host.gather
  congr 1
  funext a
  refine Fin.ext ?_
  show (rowGatherDims N D E wf).start (ix2 e j) idx a + (rowGatherDims N D E wf).batchCoord (ix2 e j) a
      + (rowGatherDims N D E wf).offCoord (ix2 e j) a = _
  rw [GatherDims.batchCoord_eq_zero _ _ _ List.not_mem_nil, Nat.add_zero]
  match a with
  | ⟨0, h0⟩ =>
    have hmem : (⟨0, h0⟩ : Fin 2) ∈ (rowGatherDims N D E wf).startIndexMap := List.mem_singleton.mpr rfl
    rw [GatherDims.offCoord_eq_zero _ _ _
      (fun h => ((GatherDims.mem_sKept _ _).mp h).1 (List.mem_singleton.mpr rfl)), Nat.add_zero]
    unfold GatherDims.start
    rw [dif_pos hmem]
    have hsi : (rowGatherDims N D E wf).siIdx (ix2 e j)
        ⟨List.idxOf (⟨0, h0⟩ : Fin 2) (rowGatherDims N D E wf).startIndexMap,
          List.idxOf_lt_length_iff.2 hmem⟩ = ix2 e 0 := by
      funext b; refine Fin.ext ?_
      match b with
      | ⟨0, _⟩ => rfl
      | ⟨1, _⟩ => rfl
    rw [hsi]
    rfl
  | ⟨1, h1⟩ =>
    have hnot : (⟨1, h1⟩ : Fin 2) ∉ (rowGatherDims N D E wf).startIndexMap := by
      intro h
      have h' := congrArg Fin.val (List.mem_singleton.mp h)
      change (1 : ℕ) = 0 at h'
      omega
    have hs : (rowGatherDims N D E wf).start (ix2 e j) idx ⟨1, h1⟩ = 0 := by
      unfold GatherDims.start
      rw [dif_neg hnot]
    rw [hs, Nat.zero_add]
    rfl

end Gather

/-! ## The row scatter-add -/

/-- The dimension numbers of a row scatter: operand `[n, D]`, scatter indices `[E, 1]`, updates `[E, D]`; the row
    axis is the inserted and indexed one, the updates' column axis is the one window axis. -/
abbrev rowScatterDims (n D E : ℕ)
    (wf : ScatterDims.WF ⟨2, ![n, D]⟩ ⟨2, ![E, 1]⟩ ⟨2, ![E, D]⟩ [1] [0] [0] 1) :
    ScatterDims ⟨2, ![n, D]⟩ ⟨2, ![E, 1]⟩ ⟨2, ![E, D]⟩ where
  updateWindowDims := [1]
  insertedWindowDims := [0]
  scatterDimsToOperandDims := [0]
  indexVectorDim := 1
  wf := wf

section RowScatter
variable {n D E w : ℕ} (wf : ScatterDims.WF ⟨2, ![n, D]⟩ ⟨2, ![E, 1]⟩ ⟨2, ![E, D]⟩ [1] [0] [0] 1)
  (idx : IVec ⟨2, ![E, 1]⟩ w) (e : Fin E) (k' : Fin D)

/-- On the row axis the window of update `(e, k')` starts at its index `idx (e, 0)`, read signed … -/
theorem row_start0 (h0 : 0 < 2) :
    (rowScatterDims n D E wf).start (ix2 e k') idx ⟨0, h0⟩ = (idx (ix2 e 0)).toInt := by
  have hmem : (⟨0, h0⟩ : Fin 2) ∈ (rowScatterDims n D E wf).scatterDimsToOperandDims := List.mem_singleton.mpr rfl
  unfold ScatterDims.start
  rw [dif_pos hmem]
  have hsi : (rowScatterDims n D E wf).siIdx (ix2 e k')
      ⟨List.idxOf (⟨0, h0⟩ : Fin 2) (rowScatterDims n D E wf).scatterDimsToOperandDims,
        List.idxOf_lt_length_iff.2 hmem⟩ = ix2 e 0 := by
    funext b; refine Fin.ext ?_
    match b with
    | ⟨0, _⟩ => rfl
    | ⟨1, _⟩ => rfl
  rw [hsi]

/-- … and on the column axis, which no index names, at `0`. -/
theorem row_start1 (h1 : 1 < 2) : (rowScatterDims n D E wf).start (ix2 e k') idx ⟨1, h1⟩ = 0 := by
  have hnot : (⟨1, h1⟩ : Fin 2) ∉ (rowScatterDims n D E wf).scatterDimsToOperandDims := by
    intro h
    have h' := congrArg Fin.val (List.mem_singleton.mp h)
    change (1 : ℕ) = 0 at h'
    omega
  unfold ScatterDims.start
  rw [dif_neg hnot]

/-- The row axis is inserted: the window coordinate there is `0` … -/
theorem row_window0 (h0 : 0 < 2) : (rowScatterDims n D E wf).window (ix2 e k') ⟨0, h0⟩ = 0 := by
  have hnot : (⟨0, h0⟩ : Fin 2) ∉ (rowScatterDims n D E wf).sKept := by
    simp [ScatterDims.sKept, Shape.kept]
  unfold ScatterDims.window
  rw [dif_neg hnot]

/-- … and on the column axis it is the update's column. -/
theorem row_window1 (h1 : 1 < 2) : (rowScatterDims n D E wf).window (ix2 e k') ⟨1, h1⟩ = k'.val := by
  have hmem : (⟨1, h1⟩ : Fin 2) ∈ (rowScatterDims n D E wf).sKept := by
    simp [ScatterDims.sKept, Shape.kept]
  unfold ScatterDims.window
  rw [dif_pos hmem]
  rfl

/-- Update `(e, k')` lands at `(r, k)` exactly when its index is `r` and its column is `k`. -/
theorem row_lands_iff (r : Fin n) (k : Fin D) :
    (rowScatterDims n D E wf).resultIdx? (ix2 e k') idx = some (ix2 r k)
      ↔ (idx (ix2 e 0)).toInt = (r.val : ℤ) ∧ k' = k := by
  rw [resultIdx?_eq_some_iff]
  constructor
  · intro h
    have h0 := h ⟨0, Nat.zero_lt_two⟩
    have h1 := h ⟨1, Nat.one_lt_two⟩
    rw [row_start0, row_window0] at h0
    rw [row_start1, row_window1] at h1
    refine ⟨?_, Fin.ext ?_⟩
    · change (idx (ix2 e 0)).toInt + ((0 : ℕ) : ℤ) = (r.val : ℤ) at h0
      omega
    · change (0 : ℤ) + (k'.val : ℤ) = (k.val : ℤ) at h1
      omega
  · rintro ⟨hv, rfl⟩ a
    match a with
    | ⟨0, h0⟩ =>
      rw [row_start0, row_window0]
      change (idx (ix2 e 0)).toInt + ((0 : ℕ) : ℤ) = (r.val : ℤ)
      omega
    | ⟨1, h1⟩ =>
      rw [row_start1, row_window1]
      change (0 : ℤ) + (k'.val : ℤ) = (k'.val : ℤ)
      omega

end RowScatter

/-- THE ROW SCATTER-ADD READ AT `(r, k)`: the operand's element plus column `k` of every update row whose index,
    read signed, is `r`. -/
theorem scatterRows_apply {n D E : ℕ}
    (wf : ScatterDims.WF ⟨2, ![n, D]⟩ ⟨2, ![E, 1]⟩ ⟨2, ![E, D]⟩ [1] [0] [0] 1)
    (x : FVec Ideal ⟨2, ![n, D]⟩ .f32) (idx : IVec ⟨2, ![E, 1]⟩ 32) (upd : FVec Ideal ⟨2, ![E, D]⟩ .f32)
    (r : Fin n) (k : Fin D) :
    Host.scatterAdd (rowScatterDims n D E wf) x idx upd (ix2 r k)
      = x (ix2 r k) + ∑ e : Fin E, if (idx (ix2 e 0)).toInt = (r.val : ℤ) then upd (ix2 e k) else 0 := by
  show Ideal.hostScatterAdd (rowScatterDims n D E wf) x idx upd (ix2 r k) = _
  unfold Ideal.hostScatterAdd
  congr 1
  rw [Finset.sum_filter, sum_idx2]
  refine Finset.sum_congr rfl fun e _ => ?_
  by_cases hv : (idx (ix2 e 0)).toInt = (r.val : ℤ)
  · rw [if_pos hv, Finset.sum_eq_single k]
    · rw [if_pos ((row_lands_iff wf idx e k r k).2 ⟨hv, rfl⟩)]
    · intro k' _ hk'
      rw [if_neg fun h => hk' ((row_lands_iff wf idx e k' r k).1 h).2]
    · intro h
      exact absurd (Finset.mem_univ k) h
  · rw [if_neg hv]
    refine Finset.sum_eq_zero fun k' _ => ?_
    rw [if_neg fun h => hv ((row_lands_iff wf idx e k' r k).1 h).1]

/-! ## The scatter-add into a flat operand -/

/-- The dimension numbers of a scalar scatter: operand `[n]`, scatter indices `[E, 1]`, updates `[E]`; the one operand
    axis is inserted and indexed, the updates have no window axis. -/
abbrev vecScatterDims (n E : ℕ)
    (wf : ScatterDims.WF ⟨1, ![n]⟩ ⟨2, ![E, 1]⟩ ⟨1, ![E]⟩ [] [0] [0] 1) :
    ScatterDims ⟨1, ![n]⟩ ⟨2, ![E, 1]⟩ ⟨1, ![E]⟩ where
  updateWindowDims := []
  insertedWindowDims := [0]
  scatterDimsToOperandDims := [0]
  indexVectorDim := 1
  wf := wf

/-- A sum over a rank-1 index set is the sum over its one coordinate. -/
theorem sum_idx1 {M : Type*} [AddCommMonoid M] {m : ℕ} (f : (⟨1, ![m]⟩ : Shape).Idx → M) :
    ∑ i, f i = ∑ a : Fin m, f (ix1 a) := by
  refine Fintype.sum_equiv ⟨fun i => i 0, ix1, fun i => (eq_ix1 i).symm, fun _ => rfl⟩ _ _ fun i => ?_
  exact congrArg f (eq_ix1 i)

section VecScatter
variable {n E w : ℕ} (wf : ScatterDims.WF ⟨1, ![n]⟩ ⟨2, ![E, 1]⟩ ⟨1, ![E]⟩ [] [0] [0] 1)
  (idx : IVec ⟨2, ![E, 1]⟩ w) (e : Fin E)

/-- The window of update `e` starts at its index `idx (e, 0)`, read signed … -/
theorem vec_start0 (h0 : 0 < 1) :
    (vecScatterDims n E wf).start (ix1 e) idx ⟨0, h0⟩ = (idx (ix2 e 0)).toInt := by
  have hmem : (⟨0, h0⟩ : Fin 1) ∈ (vecScatterDims n E wf).scatterDimsToOperandDims := List.mem_singleton.mpr rfl
  unfold ScatterDims.start
  rw [dif_pos hmem]
  have hsi : (vecScatterDims n E wf).siIdx (ix1 e)
      ⟨List.idxOf (⟨0, h0⟩ : Fin 1) (vecScatterDims n E wf).scatterDimsToOperandDims,
        List.idxOf_lt_length_iff.2 hmem⟩ = ix2 e 0 := by
    funext b; refine Fin.ext ?_
    match b with
    | ⟨0, _⟩ => rfl
    | ⟨1, _⟩ => rfl
  rw [hsi]

/-- … and the one operand axis is inserted: the window coordinate is `0`. -/
theorem vec_window0 (h0 : 0 < 1) : (vecScatterDims n E wf).window (ix1 e) ⟨0, h0⟩ = 0 := by
  have hnot : (⟨0, h0⟩ : Fin 1) ∉ (vecScatterDims n E wf).sKept := by
    simp [ScatterDims.sKept, Shape.kept]
  unfold ScatterDims.window
  rw [dif_neg hnot]

/-- Update `e` lands at `r` exactly when its index is `r`. -/
theorem vec_lands_iff (r : Fin n) :
    (vecScatterDims n E wf).resultIdx? (ix1 e) idx = some (ix1 r) ↔ (idx (ix2 e 0)).toInt = (r.val : ℤ) := by
  rw [resultIdx?_eq_some_iff]
  constructor
  · intro h
    have h0 := h ⟨0, Nat.zero_lt_one⟩
    rw [vec_start0, vec_window0] at h0
    change (idx (ix2 e 0)).toInt + ((0 : ℕ) : ℤ) = (r.val : ℤ) at h0
    omega
  · intro hv a
    match a with
    | ⟨0, h0⟩ =>
      rw [vec_start0, vec_window0]
      change (idx (ix2 e 0)).toInt + ((0 : ℕ) : ℤ) = (r.val : ℤ)
      omega

end VecScatter

/-- THE SCALAR SCATTER-ADD READ AT `r`: the operand's element plus every update whose index, read signed, is `r`. -/
theorem scatterVec_apply {n E : ℕ}
    (wf : ScatterDims.WF ⟨1, ![n]⟩ ⟨2, ![E, 1]⟩ ⟨1, ![E]⟩ [] [0] [0] 1)
    (x : FVec Ideal ⟨1, ![n]⟩ .f32) (idx : IVec ⟨2, ![E, 1]⟩ 32) (upd : FVec Ideal ⟨1, ![E]⟩ .f32)
    (r : Fin n) :
    Host.scatterAdd (vecScatterDims n E wf) x idx upd (ix1 r)
      = x (ix1 r) + ∑ e : Fin E, if (idx (ix2 e 0)).toInt = (r.val : ℤ) then upd (ix1 e) else 0 := by
  show Ideal.hostScatterAdd (vecScatterDims n E wf) x idx upd (ix1 r) = _
  unfold Ideal.hostScatterAdd
  congr 1
  rw [Finset.sum_filter, sum_idx1]
  refine Finset.sum_congr rfl fun e _ => ?_
  by_cases hv : (idx (ix2 e 0)).toInt = (r.val : ℤ)
  · rw [if_pos hv, if_pos ((vec_lands_iff wf idx e r).2 hv)]
  · rw [if_neg hv, if_neg fun h => hv ((vec_lands_iff wf idx e r).1 h)]

end Cert.LibRowIndex

end
-- ==== Proof.KI.HostValue.lean ====
/-
  What the host operations between the pallas_calls write, at the ideal instance, read index by index.

  Between two regions the program takes rows of an array at integer indices (a negative index is first moved up by the
  number of rows; a row whose index is then outside the array is filled with a quiet NaN; the gather itself clamps), adds
  the taken rows into the zero array at their destination indices, and counts each destination's rows the same way with
  ones.  With every index inside the array the moved index is the index, no row is filled and the clamp is the identity:
  row `e` of the take is the operand's row at index `e`.  A scatter-add from the zero array is, at row `r`, the zero word
  plus the sum of the update rows whose destination, read signed, is `r`: the segment sum.
-/
import proofs.«417426_j23381801959787_3_alg».proof.Proof.Gen.KernelIdeal.Launch
import proofs.«417426_j23381801959787_3_alg».proof.Proof.Spec
import proofs.«417426_j23381801959787_3_alg».proof.Proof.LibRowIndex
import Idealize.ShloMosaic.Lib.StableHlo.Run
import Idealize.ShloMosaic.Lib.StableHlo.Predicate
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.ShloMosaic.ValueIdx Cert.Spec
open scoped BigOperators

/-! ## Broadcasts, the and-reduce and small signed words, read at an index -/

section Generic

/-- A vector laid as an `[E × 1]` column reads, at any index, the vector at the index's row. -/
theorem bcastCol_apply {α : Type} {E : ℕ} (h : (⟨1, ![E]⟩ : Shape).BroadcastsInDim ⟨2, ![E, 1]⟩ ![0])
    (v : (⟨1, ![E]⟩ : Shape).Idx → α) (i : (⟨2, ![E, 1]⟩ : Shape).Idx) :
    broadcastInDim ⟨2, ![E, 1]⟩ ![0] h v i = v (ix1 ⟨(i 0).val, idx2_lt0 i⟩) := by
  unfold broadcastInDim
  congr 1
  funext a
  match a with
  | ⟨0, _⟩ =>
    apply Fin.ext
    have hp : (i 0).val < E := (i 0).isLt
    split
    · next h1 => change E = 1 at h1; show (0 : ℕ) = (i 0).val; omega
    · rfl

/-- A vector laid along the rows of an `[E × D]` rectangle (constant along each row) reads the vector at the row. -/
theorem bcastRows_apply {α : Type} {E D : ℕ} (h : (⟨1, ![E]⟩ : Shape).BroadcastsInDim ⟨2, ![E, D]⟩ ![0])
    (v : (⟨1, ![E]⟩ : Shape).Idx → α) (i : (⟨2, ![E, D]⟩ : Shape).Idx) :
    broadcastInDim ⟨2, ![E, D]⟩ ![0] h v i = v (ix1 ⟨(i 0).val, idx2_lt0 i⟩) := by
  unfold broadcastInDim
  congr 1
  funext a
  match a with
  | ⟨0, _⟩ =>
    apply Fin.ext
    have hp : (i 0).val < E := (i 0).isLt
    split
    · next h1 => change E = 1 at h1; show (0 : ℕ) = (i 0).val; omega
    · rfl

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have h1 : IntOp.andi 1#1 1#1 = 1#1 := by decide
    rw [List.foldl_cons, hf a, h1]
    exact foldl_andi_ones f hf l

/-- A reduce by `and` from 1 of an array of ones is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

/-- A 32-bit word whose signed value is not negative is below 2³¹ and is that value. -/
theorem toNat_of_toInt_nonneg {a : BitVec 32} (h : 0 ≤ a.toInt) : a.toNat < 2 ^ 31 ∧ a.toInt = a.toNat := by
  have hlt := a.isLt
  rw [BitVec.toInt_eq_toNat_cond] at h ⊢
  split at h <;> omega

end Generic

section Take

open Cert.LibRowIndex

variable {N D E : ℕ}

/-- The start-index column of a take of rows: the indices, a negative one moved up by `N`, laid as a column. -/
abbrev takeIdx (b0 : (⟨0, ![]⟩ : Shape).BroadcastsInDim ⟨1, ![E]⟩ ![])
    (b1 : (⟨1, ![E]⟩ : Shape).BroadcastsInDim ⟨2, ![E, 1]⟩ ![0]) (cN : BitVec 32) (s : IVec ⟨1, ![E]⟩ 32) :
    IVec ⟨2, ![E, 1]⟩ 32 :=
  broadcastInDim ⟨2, ![E, 1]⟩ ![0] b1
    (select (cmpi .slt s (broadcastInDim ⟨1, ![E]⟩ ![] b0 (constantI ⟨0, ![]⟩ 32 0#32)))
      (addi s (broadcastInDim ⟨1, ![E]⟩ ![] b0 (constantI ⟨0, ![]⟩ 32 cN))) s)

/-- With indices in `[0, N)` the column holds the indices themselves. -/
theorem takeIdx_apply (b0 : (⟨0, ![]⟩ : Shape).BroadcastsInDim ⟨1, ![E]⟩ ![])
    (b1 : (⟨1, ![E]⟩ : Shape).BroadcastsInDim ⟨2, ![E, 1]⟩ ![0]) (cN : BitVec 32) (s : IVec ⟨1, ![E]⟩ 32)
    (hs : ∀ e, 0 ≤ (s e).toInt) (i : (⟨2, ![E, 1]⟩ : Shape).Idx) :
    takeIdx b0 b1 cN s i = s (ix1 ⟨(i 0).val, idx2_lt0 i⟩) := by
  unfold takeIdx
  rw [bcastCol_apply, select_apply]
  have h := (toNat_of_toInt_nonneg (hs (ix1 ⟨(i 0).val, idx2_lt0 i⟩))).1
  have hne : ¬ (cmpi .slt s (broadcastInDim ⟨1, ![E]⟩ ![] b0 (constantI ⟨0, ![]⟩ 32 0#32)) (ix1 ⟨(i 0).val, idx2_lt0 i⟩) = 1#1) := by
    show ¬ (IntOp.cmpi .slt (s (ix1 ⟨(i 0).val, idx2_lt0 i⟩)) 0#32 = 1#1)
    rw [StableHlo.Predicate.slt_iff_toNat h (by decide)]
    exact Nat.not_lt_zero _
  exact if_neg hne

end Take

section TakeMain

open Cert.LibRowIndex

variable {N D E : ℕ}

/-- THE TAKE OF ROWS READ AT `(e, j)`: with every index in `[0, N)` the in-range mask is 1 on every row, the fill is never
    chosen, and the gathered row is the operand's row at the index. -/
theorem take_read (M : ℕ) (hM : M + 1 = N) (hN : N < 2 ^ 31)
    (wf : GatherDims.WF ⟨2, ![N, D]⟩ ⟨2, ![E, 1]⟩ ⟨2, ![E, D]⟩ [1] [0] [] [0] [] 1 ![1, D])
    (g : GatherDims ⟨2, ![N, D]⟩ ⟨2, ![E, 1]⟩ ⟨2, ![E, D]⟩) (hg : g = rowGatherDims N D E wf)
    (b0 : (⟨0, ![]⟩ : Shape).BroadcastsInDim ⟨1, ![E]⟩ ![])
    (b1 : (⟨1, ![E]⟩ : Shape).BroadcastsInDim ⟨2, ![E, 1]⟩ ![0])
    (b2 : (⟨0, ![]⟩ : Shape).BroadcastsInDim ⟨2, ![E, 1]⟩ ![])
    (b3 : (⟨1, ![1]⟩ : Shape).BroadcastsInDim ⟨2, ![1, 1]⟩ ![1])
    (b4 : (⟨2, ![1, 1]⟩ : Shape).BroadcastsInDim ⟨2, ![E, 1]⟩ ![0, 1])
    (hr : (⟨2, ![E, 1]⟩ : Shape).ReducesTo [1] ⟨1, ![E]⟩) (hu : 0 < (⟨0, ![]⟩ : Shape).numel)
    (b5 : (⟨1, ![E]⟩ : Shape).BroadcastsInDim ⟨2, ![E, D]⟩ ![0])
    (b6 : (⟨0, ![]⟩ : Shape).BroadcastsInDim ⟨2, ![E, D]⟩ ![])
    (fill : BitVec 32) (x : FVec Ideal ⟨2, ![N, D]⟩ .f32) (s : IVec ⟨1, ![E]⟩ 32)
    (hs : ∀ e, 0 ≤ (s e).toInt ∧ (s e).toInt < (N : ℤ)) (e : Fin E) (j : Fin D) :
    select
      (broadcastInDim ⟨2, ![E, D]⟩ ![0] b5
        (Host.reduce IntOp.andi
          (andi (cmpi .sge (takeIdx b0 b1 (BitVec.ofNat 32 N) s)
                  (broadcastInDim ⟨2, ![E, 1]⟩ ![] b2 (constantI ⟨0, ![]⟩ 32 0#32)))
                (cmpi .sle (takeIdx b0 b1 (BitVec.ofNat 32 N) s)
                  (broadcastInDim ⟨2, ![E, 1]⟩ ![0, 1] b4
                    (broadcastInDim ⟨2, ![1, 1]⟩ ![1] b3 (constantI ⟨1, ![1]⟩ 32 (BitVec.ofNat 32 M))))))
          (constantI ⟨0, ![]⟩ 1 1#1) hr hu))
      (Host.gather g x (takeIdx b0 b1 (BitVec.ofNat 32 N) s))
      (broadcastInDim ⟨2, ![E, D]⟩ ![] b6 (constant (F := Ideal) ⟨0, ![]⟩ .f32 fill)) (ix2 e j)
    = x (ix2 ⟨(s (ix1 e)).toInt.toNat, by have := hs (ix1 e); omega⟩ j) := by
  have hs0 : ∀ e, 0 ≤ (s e).toInt := fun e => (hs e).1
  have hidx := takeIdx_apply b0 b1 (BitVec.ofNat 32 N) s hs0
  have hM32 : (BitVec.ofNat 32 M).toNat = M := by rw [BitVec.toNat_ofNat]; omega
  have hmask : ∀ k, (andi (cmpi .sge (takeIdx b0 b1 (BitVec.ofNat 32 N) s)
                  (broadcastInDim ⟨2, ![E, 1]⟩ ![] b2 (constantI ⟨0, ![]⟩ 32 0#32)))
                (cmpi .sle (takeIdx b0 b1 (BitVec.ofNat 32 N) s)
                  (broadcastInDim ⟨2, ![E, 1]⟩ ![0, 1] b4
                    (broadcastInDim ⟨2, ![1, 1]⟩ ![1] b3 (constantI ⟨1, ![1]⟩ 32 (BitVec.ofNat 32 M)))))) k = 1#1 := by
    intro k
    show IntOp.andi (IntOp.cmpi .sge (takeIdx b0 b1 (BitVec.ofNat 32 N) s k) 0#32)
        (IntOp.cmpi .sle (takeIdx b0 b1 (BitVec.ofNat 32 N) s k) (BitVec.ofNat 32 M)) = 1#1
    rw [hidx k]
    obtain ⟨h31, hnat⟩ := toNat_of_toInt_nonneg (hs0 (ix1 ⟨(k 0).val, idx2_lt0 k⟩))
    have hlt := (hs (ix1 ⟨(k 0).val, idx2_lt0 k⟩)).2
    rw [IntOp.andi_eq_one]
    exact ⟨(StableHlo.Predicate.sge_iff_toNat h31 (by decide)).2 (Nat.zero_le _),
      (StableHlo.Predicate.sle_iff_toNat h31 (by rw [hM32]; omega)).2 (by rw [hM32]; omega)⟩
  have h5 : takeIdx b0 b1 (BitVec.ofNat 32 N) s (ix2 e 0) = s (ix1 e) := hidx (ix2 e 0)
  obtain ⟨h31, hnat⟩ := toNat_of_toInt_nonneg (hs0 (ix1 e))
  have hlt := (hs (ix1 e)).2
  have hrow : (⟨min (takeIdx b0 b1 (BitVec.ofNat 32 N) s (ix2 e 0)).toInt.toNat (N - 1), by omega⟩ : Fin N)
      = ⟨(s (ix1 e)).toInt.toNat, by omega⟩ := by
    apply Fin.ext
    show min (takeIdx b0 b1 (BitVec.ofNat 32 N) s (ix2 e 0)).toInt.toNat (N - 1) = (s (ix1 e)).toInt.toNat
    rw [h5]; omega
  rw [select_apply, bcastRows_apply, reduce_andi_ones _ (constantI ⟨0, ![]⟩ 1 1#1) hr hu hmask (fun _ => rfl), select_one, hg,
    gatherRows_apply (by omega) wf x _ e j, hrow]

end TakeMain

section Scatter

open Cert.LibRowIndex

variable {n D E : ℕ}

/-- THE SCATTER-ADD OF ROWS INTO THE ZERO ARRAY READ AT `(r, k)`: the segment sum at `r` of column `k` of the updates. -/
theorem segRows_read (wf : ScatterDims.WF ⟨2, ![n, D]⟩ ⟨2, ![E, 1]⟩ ⟨2, ![E, D]⟩ [1] [0] [0] 1)
    (d : ScatterDims ⟨2, ![n, D]⟩ ⟨2, ![E, 1]⟩ ⟨2, ![E, D]⟩) (hd : d = rowScatterDims n D E wf)
    (bz : (⟨0, ![]⟩ : Shape).BroadcastsInDim ⟨2, ![n, D]⟩ ![])
    (b1 : (⟨1, ![E]⟩ : Shape).BroadcastsInDim ⟨2, ![E, 1]⟩ ![0])
    (dst : IVec ⟨1, ![E]⟩ 32) (upd : FVec Ideal ⟨2, ![E, D]⟩ .f32) (r : Fin n) (k : Fin D) :
    Host.scatterAdd d (broadcastInDim ⟨2, ![n, D]⟩ ![] bz (constant (F := Ideal) ⟨0, ![]⟩ .f32 0x00000000#32))
      (broadcastInDim ⟨2, ![E, 1]⟩ ![0] b1 dst) upd (ix2 r k)
    = seg (dstZ dst) (fun e => upd (ix2 e k)) r.val := by
  rw [hd, scatterRows_apply]
  unfold seg dstZ
  refine congrArg₂ (· + ·) rfl (Finset.sum_congr rfl fun e _ => ?_)
  rw [bcastCol_apply]
  rfl

/-- THE SCATTER-ADD OF ONES INTO THE ZERO VECTOR, LAID AS A COLUMN, READ AT ROW `r`: the size of segment `r`. -/
theorem segOnes_read (wf : ScatterDims.WF ⟨1, ![n]⟩ ⟨2, ![E, 1]⟩ ⟨1, ![E]⟩ [] [0] [0] 1)
    (d : ScatterDims ⟨1, ![n]⟩ ⟨2, ![E, 1]⟩ ⟨1, ![E]⟩) (hd : d = vecScatterDims n E wf)
    (bz : (⟨0, ![]⟩ : Shape).BroadcastsInDim ⟨1, ![n]⟩ ![])
    (bo : (⟨0, ![]⟩ : Shape).BroadcastsInDim ⟨1, ![E]⟩ ![])
    (b1 : (⟨1, ![E]⟩ : Shape).BroadcastsInDim ⟨2, ![E, 1]⟩ ![0])
    (bc : (⟨1, ![n]⟩ : Shape).BroadcastsInDim ⟨2, ![n, 1]⟩ ![0])
    (dst : IVec ⟨1, ![E]⟩ 32) (i : (⟨2, ![n, 1]⟩ : Shape).Idx) :
    broadcastInDim ⟨2, ![n, 1]⟩ ![0] bc
      (Host.scatterAdd d (broadcastInDim ⟨1, ![n]⟩ ![] bz (constant (F := Ideal) ⟨0, ![]⟩ .f32 0x00000000#32))
        (broadcastInDim ⟨2, ![E, 1]⟩ ![0] b1 dst)
        (broadcastInDim ⟨1, ![E]⟩ ![] bo (constant (F := Ideal) ⟨0, ![]⟩ .f32 0x3F800000#32))) i
    = seg (dstZ dst) (fun _ => o32) (i 0).val := by
  rw [bcastCol_apply, hd, scatterVec_apply]
  show _ = seg (dstZ dst) (fun _ => o32) (⟨(i 0).val, idx2_lt0 i⟩ : Fin n).val
  unfold seg dstZ
  refine congrArg₂ (· + ·) rfl (Finset.sum_congr rfl fun e _ => ?_)
  rw [bcastCol_apply]
  rfl

end Scatter

/-! ## Stretch 1: the take of the rows of `main_v0` at `main_arg1`, their segment sums by `main_arg2`, the segment sizes -/

section Stretch1

/-- The take's result, row by row: with every index in `[0, 100000)` row `e` is the operand's row at index `e`. -/
theorem take1 (W : Valuation τ sig (Elt Ideal))
    (hs : ∀ e, 0 ≤ ((W main_arg1 : S400000.Idx → BitVec 32) e).toInt ∧ ((W main_arg1 : S400000.Idx → BitVec 32) e).toInt < 100000) :
    (StableHlo.after (hostOps1 (F := Ideal)) W main_v1 : S400000x256.Idx → EReal)
      = fun i => (W main_v0 : S100000x256.Idx → EReal)
          (ix2 (srcF 100000 (W main_arg1) hs ⟨(i 0).val, idx2_lt0 i⟩) ⟨(i 1).val, idx2_lt1 i⟩) := by
  show StableHlo.after hostOps1 W (Proc.devRef .tc main_v1) = _
  after_results_simp
  simp only [StableHlo.TRef.ofBuf, StableHlo.TRef.toBuf, cast_eq]
  funext i
  obtain ⟨e, j, rfl⟩ : ∃ e j, i = ix2 e j := ⟨i 0, i 1, eq_ix2 i⟩
  exact take_read (N := 100000) (D := 256) (E := 400000) 99999 rfl (by norm_num)
    gather_S100000x256_S400000x1_S400000x256_1_0_n_n_0_1_1256_wf gather_S100000x256_S400000x1_S400000x256_1_0_n_n_0_1_1256 rfl
    bcast_S_S400000 bcast_S400000_S400000x1_0 bcast_S_S400000x1 bcast_S1_S1x1_1 bcast_S1x1_S400000x1_0_1
    reducesTo_S400000x1_S400000_d1 h_S_ bcast_S400000_S400000x256_0 bcast_S_S400000x256 0x7FC00000#32
    (W main_v0) (W main_arg1) hs e j

/-- The operations of the stretch before do not write the destinations. -/
theorem keep1 (W : Valuation τ sig (Elt Ideal)) :
    (StableHlo.after (hostOps1 (F := Ideal)) W main_arg2 : S400000.Idx → BitVec 32) = W main_arg2 := by
  show StableHlo.after hostOps1 W (Proc.devRef .tc main_arg2) = _
  after_results_simp

/-- The two scatter-adds over any contents: the segment sums of the rows of `main_v1` and the segment sizes. -/
theorem scat1 (V : Valuation τ sig (Elt Ideal)) :
    (StableHlo.after (hostOps1_1 (F := Ideal)) V main_v4 : S25000x256.Idx → EReal)
      = (fun i => seg (dstZ (V main_arg2))
          (fun e => (V main_v1 : S400000x256.Idx → EReal) (ix2 e ⟨(i 1).val, idx2_lt1 i⟩)) (i 0).val)
    ∧ (StableHlo.after (hostOps1_1 (F := Ideal)) V main_v9 : S25000x1.Idx → EReal)
      = (fun i => seg (dstZ (V main_arg2)) (fun _ => o32) (i 0).val) := by
  constructor
  · show StableHlo.after hostOps1_1 V (Proc.devRef .tc main_v4) = _
    after_results_simp
    funext i
    obtain ⟨r, k, rfl⟩ : ∃ r k, i = ix2 r k := ⟨i 0, i 1, eq_ix2 i⟩
    exact segRows_read (n := 25000) (D := 256) (E := 400000)
      scatter_S25000x256_S400000x1_S400000x256_1_0_0_1_wf scatter_S25000x256_S400000x1_S400000x256_1_0_0_1 rfl
      bcast_S_S25000x256 bcast_S400000_S400000x1_0 (V main_arg2) (V main_v1) r k
  · show StableHlo.after hostOps1_1 V (Proc.devRef .tc main_v9) = _
    after_results_simp
    funext i
    exact segOnes_read (n := 25000) (E := 400000)
      scatter_S25000_S400000x1_S400000_n_0_0_1_wf scatter_S25000_S400000x1_S400000_n_0_0_1 rfl
      bcast_S_S25000 bcast_S_S400000 bcast_S400000_S400000x1_0 bcast_S25000_S25000x1_0 (V main_arg2) i

/-- WHAT THE HOST WRITES BETWEEN REGION 0 AND REGION 1: the segment sums by `main_arg2` of the rows of `main_v0` picked by
    `main_arg1`, and the segment sizes as a column. -/
theorem host1 (W : Valuation τ sig (Elt Ideal))
    (hs : ∀ e, 0 ≤ ((W main_arg1 : S400000.Idx → BitVec 32) e).toInt ∧ ((W main_arg1 : S400000.Idx → BitVec 32) e).toInt < 100000) :
    ((StableHlo.after hostOps1_1 (StableHlo.after hostOps1 W)) main_v4 : S25000x256.Idx → EReal)
        = (fun i => seg (dstZ (W main_arg2))
            (fun e => cur (W main_v0 : S100000x256.Idx → EReal) (srcF 100000 (W main_arg1) hs e)
              ⟨(i 1).val, idx2_lt1 i⟩) (i 0).val)
    ∧ ((StableHlo.after hostOps1_1 (StableHlo.after hostOps1 W)) main_v9 : S25000x1.Idx → EReal)
        = (fun i => seg (dstZ (W main_arg2)) (fun _ => o32) (i 0).val) := by
  obtain ⟨h1, h2⟩ := scat1 (StableHlo.after hostOps1 W)
  refine ⟨h1.trans ?_, h2.trans ?_⟩
  · rw [keep1 W, take1 W hs]
    rfl
  · rw [keep1 W]

end Stretch1

/-! ## Stretch 2: the take of the rows of `main_v10` at `main_arg3`, their segment sums by `main_arg4`, the segment sizes -/

section Stretch2

/-- The take's result, row by row: with every index in `[0, 25000)` row `e` is the operand's row at index `e`. -/
theorem take2 (W : Valuation τ sig (Elt Ideal))
    (hs : ∀ e, 0 ≤ ((W main_arg3 : S100000.Idx → BitVec 32) e).toInt ∧ ((W main_arg3 : S100000.Idx → BitVec 32) e).toInt < 25000) :
    (StableHlo.after (hostOps2 (F := Ideal)) W main_v11 : S100000x256.Idx → EReal)
      = fun i => (W main_v10 : S25000x256.Idx → EReal)
          (ix2 (srcF 25000 (W main_arg3) hs ⟨(i 0).val, idx2_lt0 i⟩) ⟨(i 1).val, idx2_lt1 i⟩) := by
  show StableHlo.after hostOps2 W (Proc.devRef .tc main_v11) = _
  after_results_simp
  simp only [StableHlo.TRef.ofBuf, StableHlo.TRef.toBuf, cast_eq]
  funext i
  obtain ⟨e, j, rfl⟩ : ∃ e j, i = ix2 e j := ⟨i 0, i 1, eq_ix2 i⟩
  exact take_read (N := 25000) (D := 256) (E := 100000) 24999 rfl (by norm_num)
    gather_S25000x256_S100000x1_S100000x256_1_0_n_n_0_1_1256_wf gather_S25000x256_S100000x1_S100000x256_1_0_n_n_0_1_1256 rfl
    bcast_S_S100000 bcast_S100000_S100000x1_0 bcast_S_S100000x1 bcast_S1_S1x1_1 bcast_S1x1_S100000x1_0_1
    reducesTo_S100000x1_S100000_d1 h_S_ bcast_S100000_S100000x256_0 bcast_S_S100000x256 0x7FC00000#32
    (W main_v10) (W main_arg3) hs e j

/-- The operations of the stretch before do not write the destinations. -/
theorem keep2 (W : Valuation τ sig (Elt Ideal)) :
    (StableHlo.after (hostOps2 (F := Ideal)) W main_arg4 : S100000.Idx → BitVec 32) = W main_arg4 := by
  show StableHlo.after hostOps2 W (Proc.devRef .tc main_arg4) = _
  after_results_simp

/-- The two scatter-adds over any contents: the segment sums of the rows of `main_v11` and the segment sizes. -/
theorem scat2 (V : Valuation τ sig (Elt Ideal)) :
    (StableHlo.after (hostOps2_1 (F := Ideal)) V main_v14 : S6400x256.Idx → EReal)
      = (fun i => seg (dstZ (V main_arg4))
          (fun e => (V main_v11 : S100000x256.Idx → EReal) (ix2 e ⟨(i 1).val, idx2_lt1 i⟩)) (i 0).val)
    ∧ (StableHlo.after (hostOps2_1 (F := Ideal)) V main_v19 : S6400x1.Idx → EReal)
      = (fun i => seg (dstZ (V main_arg4)) (fun _ => o32) (i 0).val) := by
  constructor
  · show StableHlo.after hostOps2_1 V (Proc.devRef .tc main_v14) = _
    after_results_simp
    funext i
    obtain ⟨r, k, rfl⟩ : ∃ r k, i = ix2 r k := ⟨i 0, i 1, eq_ix2 i⟩
    exact segRows_read (n := 6400) (D := 256) (E := 100000)
      scatter_S6400x256_S100000x1_S100000x256_1_0_0_1_wf scatter_S6400x256_S100000x1_S100000x256_1_0_0_1 rfl
      bcast_S_S6400x256 bcast_S100000_S100000x1_0 (V main_arg4) (V main_v11) r k
  · show StableHlo.after hostOps2_1 V (Proc.devRef .tc main_v19) = _
    after_results_simp
    funext i
    exact segOnes_read (n := 6400) (E := 100000)
      scatter_S6400_S100000x1_S100000_n_0_0_1_wf scatter_S6400_S100000x1_S100000_n_0_0_1 rfl
      bcast_S_S6400 bcast_S_S100000 bcast_S100000_S100000x1_0 bcast_S6400_S6400x1_0 (V main_arg4) i

/-- WHAT THE HOST WRITES BETWEEN REGION 1 AND REGION 2: the segment sums by `main_arg4` of the rows of `main_v10` picked by
    `main_arg3`, and the segment sizes as a column. -/
theorem host2 (W : Valuation τ sig (Elt Ideal))
    (hs : ∀ e, 0 ≤ ((W main_arg3 : S100000.Idx → BitVec 32) e).toInt ∧ ((W main_arg3 : S100000.Idx → BitVec 32) e).toInt < 25000) :
    ((StableHlo.after hostOps2_1 (StableHlo.after hostOps2 W)) main_v14 : S6400x256.Idx → EReal)
        = (fun i => seg (dstZ (W main_arg4))
            (fun e => cur (W main_v10 : S25000x256.Idx → EReal) (srcF 25000 (W main_arg3) hs e)
              ⟨(i 1).val, idx2_lt1 i⟩) (i 0).val)
    ∧ ((StableHlo.after hostOps2_1 (StableHlo.after hostOps2 W)) main_v19 : S6400x1.Idx → EReal)
        = (fun i => seg (dstZ (W main_arg4)) (fun _ => o32) (i 0).val) := by
  obtain ⟨h1, h2⟩ := scat2 (StableHlo.after hostOps2 W)
  refine ⟨h1.trans ?_, h2.trans ?_⟩
  · rw [keep2 W, take2 W hs]
    rfl
  · rw [keep2 W]

end Stretch2

/-! ## Stretch 3: the take of the rows of `main_v20` at `main_arg5`, their segment sums by `main_arg6`, the segment sizes -/

section Stretch3

/-- The take's result, row by row: with every index in `[0, 6250)` row `e` is the operand's row at index `e`. -/
theorem take3 (W : Valuation τ sig (Elt Ideal))
    (hs : ∀ e, 0 ≤ ((W main_arg5 : S25600.Idx → BitVec 32) e).toInt ∧ ((W main_arg5 : S25600.Idx → BitVec 32) e).toInt < 6250) :
    (StableHlo.after (hostOps3 (F := Ideal)) W main_v21 : S25600x256.Idx → EReal)
      = fun i => (W main_v20 : S6400x256.Idx → EReal)
          (ix2 (Fin.castLE (by norm_num : 6250 ≤ 6400) (srcF 6250 (W main_arg5) hs ⟨(i 0).val, idx2_lt0 i⟩)) ⟨(i 1).val, idx2_lt1 i⟩) := by
  show StableHlo.after hostOps3 W (Proc.devRef .tc main_v21) = _
  after_results_simp
  simp only [StableHlo.TRef.ofBuf, StableHlo.TRef.toBuf, cast_eq]
  funext i
  obtain ⟨e, j, rfl⟩ : ∃ e j, i = ix2 e j := ⟨i 0, i 1, eq_ix2 i⟩
  exact take_read (N := 6400) (D := 256) (E := 25600) 6399 rfl (by norm_num)
    gather_S6400x256_S25600x1_S25600x256_1_0_n_n_0_1_1256_wf gather_S6400x256_S25600x1_S25600x256_1_0_n_n_0_1_1256 rfl
    bcast_S_S25600 bcast_S25600_S25600x1_0 bcast_S_S25600x1 bcast_S1_S1x1_1 bcast_S1x1_S25600x1_0_1
    reducesTo_S25600x1_S25600_d1 h_S_ bcast_S25600_S25600x256_0 bcast_S_S25600x256 0x7FC00000#32
    (W main_v20) (W main_arg5) (fun e => ⟨(hs e).1, by have := (hs e).2; omega⟩) e j

/-- The operations of the stretch before do not write the destinations. -/
theorem keep3 (W : Valuation τ sig (Elt Ideal)) :
    (StableHlo.after (hostOps3 (F := Ideal)) W main_arg6 : S25600.Idx → BitVec 32) = W main_arg6 := by
  show StableHlo.after hostOps3 W (Proc.devRef .tc main_arg6) = _
  after_results_simp

/-- The two scatter-adds over any contents: the segment sums of the rows of `main_v21` and the segment sizes. -/
theorem scat3 (V : Valuation τ sig (Elt Ideal)) :
    (StableHlo.after (hostOps3_1 (F := Ideal)) V main_v24 : S1600x256.Idx → EReal)
      = (fun i => seg (dstZ (V main_arg6))
          (fun e => (V main_v21 : S25600x256.Idx → EReal) (ix2 e ⟨(i 1).val, idx2_lt1 i⟩)) (i 0).val)
    ∧ (StableHlo.after (hostOps3_1 (F := Ideal)) V main_v29 : S1600x1.Idx → EReal)
      = (fun i => seg (dstZ (V main_arg6)) (fun _ => o32) (i 0).val) := by
  constructor
  · show StableHlo.after hostOps3_1 V (Proc.devRef .tc main_v24) = _
    after_results_simp
    funext i
    obtain ⟨r, k, rfl⟩ : ∃ r k, i = ix2 r k := ⟨i 0, i 1, eq_ix2 i⟩
    exact segRows_read (n := 1600) (D := 256) (E := 25600)
      scatter_S1600x256_S25600x1_S25600x256_1_0_0_1_wf scatter_S1600x256_S25600x1_S25600x256_1_0_0_1 rfl
      bcast_S_S1600x256 bcast_S25600_S25600x1_0 (V main_arg6) (V main_v21) r k
  · show StableHlo.after hostOps3_1 V (Proc.devRef .tc main_v29) = _
    after_results_simp
    funext i
    exact segOnes_read (n := 1600) (E := 25600)
      scatter_S1600_S25600x1_S25600_n_0_0_1_wf scatter_S1600_S25600x1_S25600_n_0_0_1 rfl
      bcast_S_S1600 bcast_S_S25600 bcast_S25600_S25600x1_0 bcast_S1600_S1600x1_0 (V main_arg6) i

/-- WHAT THE HOST WRITES BETWEEN REGION 2 AND REGION 3: the segment sums by `main_arg6` of the rows of `main_v20` picked by
    `main_arg5`, and the segment sizes as a column. -/
theorem host3 (W : Valuation τ sig (Elt Ideal))
    (hs : ∀ e, 0 ≤ ((W main_arg5 : S25600.Idx → BitVec 32) e).toInt ∧ ((W main_arg5 : S25600.Idx → BitVec 32) e).toInt < 6250) :
    ((StableHlo.after hostOps3_1 (StableHlo.after hostOps3 W)) main_v24 : S1600x256.Idx → EReal)
        = (fun i => seg (dstZ (W main_arg6))
            (fun e => cur (W main_v20 : S6400x256.Idx → EReal) (Fin.castLE (by norm_num : 6250 ≤ 6400) (srcF 6250 (W main_arg5) hs e))
              ⟨(i 1).val, idx2_lt1 i⟩) (i 0).val)
    ∧ ((StableHlo.after hostOps3_1 (StableHlo.after hostOps3 W)) main_v29 : S1600x1.Idx → EReal)
        = (fun i => seg (dstZ (W main_arg6)) (fun _ => o32) (i 0).val) := by
  obtain ⟨h1, h2⟩ := scat3 (StableHlo.after hostOps3 W)
  refine ⟨h1.trans ?_, h2.trans ?_⟩
  · rw [keep3 W, take3 W hs]
    rfl
  · rw [keep3 W]

end Stretch3

end Cert.KernelIdeal.Hand

end
-- ==== Proof.KI.KernelValue.lean ====
/-
  The kernel's result as the specification's kernel chain.

  Along the program — the projection `x · Wn0`; the first take and pair of segment sums; the first combining
  pallas_call; the second take and segment sums; the second combining pallas_call; the third take and segment sums;
  the last pallas_call with its final affine map — the result array ends holding `Spec.outK` of the launch arrays.

  Each pallas_call's output is one function of the arrays it is handed and each host stretch's segment sums are
  sums over the edges of rows of the array before it; an argument array is never written, so at every boundary it is
  the launch memory's. A layer of the specification is then, term for term, what a pallas_call computes from the
  segment sums and sizes the host stretch before it leaves.
-/
import proofs.«417426_j23381801959787_3_alg».proof.Proof.KI.Run
import proofs.«417426_j23381801959787_3_alg».proof.Proof.KI.Value0
import proofs.«417426_j23381801959787_3_alg».proof.Proof.KI.Value1
import proofs.«417426_j23381801959787_3_alg».proof.Proof.KI.Value2
import proofs.«417426_j23381801959787_3_alg».proof.Proof.KI.Value3
import proofs.«417426_j23381801959787_3_alg».proof.Proof.KI.HostValue
import proofs.«417426_j23381801959787_3_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open Cert.Spec
open scoped BigOperators

/-! ## Each layer of the specification from what a pallas_call and the host stretch before it compute

Every statement takes the arrays as the region finds them together with the equations that say which of the
launch arrays each one is, so that it can be used where the arrays are named through the run's boundaries. -/

section Layers

/-- The first layer. `P` is the projection `x · Wn0`; `A` its segment sums along the first edge list and `D` the
    segment sizes; the pallas_call rectifies `x · Ws0 + A / max D 1 + b0` on the first 25000 rows. -/
theorem layer1_of
    (X0 : S100000x512.Idx → EReal) (S0 D0 : S400000.Idx → BitVec 32) (hS0 : ∀ e, 0 ≤ (S0 e).toInt ∧ (S0 e).toInt < (100000 : ℤ))
    (Ws Wn : S512x256.Idx → EReal) (b : S256.Idx → EReal)
    (Xr : S100000x512.Idx → EReal) (Sr Dr : S400000.Idx → BitVec 32) (hSr : ∀ e, 0 ≤ (Sr e).toInt ∧ (Sr e).toInt < (100000 : ℤ))
    (Wsr : S512x256.Idx → EReal) (br : S256.Idx → EReal)
    (P : S100000x256.Idx → EReal) (A : S25000x256.Idx → EReal) (D : S25000x1.Idx → EReal)
    (eX : Xr = X0) (eS : Sr = S0) (eD : Dr = D0) (eWs : Wsr = Ws) (eb : br = b)
    (hP : P = fun i => mm (cur X0) (cur Wn) ⟨(i 0).val, (i 0).isLt⟩ ⟨(i 1).val, (i 1).isLt⟩)
    (hA : A = fun i => seg (dstZ Dr) (fun e => cur P (srcF 100000 Sr hSr e) ⟨(i 1).val, (i 1).isLt⟩) (i 0).val)
    (hD : D = fun i => seg (dstZ Dr) (fun _ => o32) (i 0).val) :
    (fun i : S25000x256.Idx => relu (comb1 (top 25000 (by norm_num) (cur Xr)) (cur A) (cur D) (cur Wsr) (vec br)
        ⟨(i 0).val, (i 0).isLt⟩ ⟨(i 1).val, (i 1).isLt⟩))
      = fun i => h1K (cur X0) (srcF 100000 S0 hS0) (dstZ D0) (cur Ws) (cur Wn) (vec b) ⟨(i 0).val, (i 0).isLt⟩ ⟨(i 1).val, (i 1).isLt⟩ := by
  subst eX eS eD eWs eb hP hA hD
  rfl

/-- Source rows read off the same array are the same rows. -/
theorem srcF_congr {E : ℕ} (N : ℕ) {s s' : (⟨1, ![E]⟩ : Shape).Idx → BitVec 32} (e : s = s')
    (h : ∀ e, 0 ≤ (s e).toInt ∧ (s e).toInt < (N : ℤ)) (h' : ∀ e, 0 ≤ (s' e).toInt ∧ (s' e).toInt < (N : ℤ)) :
    srcF N s h = srcF N s' h' := by subst e; rfl

/-- A later layer on `n` rows over the layer `h` before it. `H` holds `h`; `A` its segment sums along the edge list
    and `D` the segment sizes; the pallas_call computes `h · Ws + (A / max D 1) · Wn + b` on the first `n` rows. -/
theorem layer_of {N E n : ℕ} (hn : n ≤ N) (h : Mat N 256) (s0 : Fin E → Fin N) (D0 : (⟨1, ![E]⟩ : Shape).Idx → BitVec 32)
    (Ws Wn : S256x256.Idx → EReal) (b : S256.Idx → EReal)
    (H Hr : (⟨2, ![N, 256]⟩ : Shape).Idx → EReal) (sr : Fin E → Fin N) (Dr : (⟨1, ![E]⟩ : Shape).Idx → BitVec 32)
    (Wsr Wnr : S256x256.Idx → EReal) (br : S256.Idx → EReal)
    (A : (⟨2, ![n, 256]⟩ : Shape).Idx → EReal) (D : (⟨2, ![n, 1]⟩ : Shape).Idx → EReal)
    (eH : Hr = H) (eS : sr = s0) (eD : Dr = D0) (eWs : Wsr = Ws) (eWn : Wnr = Wn) (eb : br = b)
    (hH : H = fun i => h ⟨(i 0).val, (i 0).isLt⟩ ⟨(i 1).val, (i 1).isLt⟩)
    (hA : A = fun i => seg (dstZ Dr) (fun e => cur H (sr e) ⟨(i 1).val, (i 1).isLt⟩) (i 0).val)
    (hD : D = fun i => seg (dstZ Dr) (fun _ => o32) (i 0).val) :
    comb2 (top n hn (cur Hr)) (cur A) (cur D) (cur Wsr) (cur Wnr) (vec br)
      = layer n hn h s0 (dstZ D0) (cur Ws) (cur Wn) (vec b) := by
  subst eH eS eD eWs eWn eb hH hA hD
  rfl

end Layers

/-! ## What no item writes -/

section Frame
variable (m : (ℓ : Loc nD τ sig) → Buf (Elt Ideal) ℓ) (c : Dev nD)

theorem B1_keep (r : Ref sig .tc) (h : r ≠ main_v0) : B1 m c r = m ((c : Thread nD τ).loc r) := by
  unfold B1; exact upd_ne _ _ _ r h
theorem B3_keep (r : Ref sig .tc) (h2 : r ∉ hostOps1_W) (h3 : r ∉ hostOps1_1_W) : B3 m c r = B1 m c r :=
  (StableHlo.after_of_writes_sub hostOps1_1 (B2 m c) hostOps1_1_writes h3).trans
    (StableHlo.after_of_writes_sub hostOps1 (B1 m c) hostOps1_writes h2)
theorem B4_keep (r : Ref sig .tc) (h : r ≠ main_v10) : B4 m c r = B3 m c r := by
  unfold B4; exact upd_ne _ _ _ r h
theorem B6_keep (r : Ref sig .tc) (h2 : r ∉ hostOps2_W) (h3 : r ∉ hostOps2_1_W) : B6 m c r = B4 m c r :=
  (StableHlo.after_of_writes_sub hostOps2_1 (B5 m c) hostOps2_1_writes h3).trans
    (StableHlo.after_of_writes_sub hostOps2 (B4 m c) hostOps2_writes h2)
theorem B7_keep (r : Ref sig .tc) (h : r ≠ main_v20) : B7 m c r = B6 m c r := by
  unfold B7; exact upd_ne _ _ _ r h
theorem B9_keep (r : Ref sig .tc) (h2 : r ∉ hostOps3_W) (h3 : r ∉ hostOps3_1_W) : B9 m c r = B7 m c r :=
  (StableHlo.after_of_writes_sub hostOps3_1 (B8 m c) hostOps3_1_writes h3).trans
    (StableHlo.after_of_writes_sub hostOps3 (B7 m c) hostOps3_writes h2)

/-- A reference no item up to a boundary writes holds there what the launch memory holds. -/
theorem B3_launch (r : Ref sig .tc) (h1 : r ≠ main_v0) (h2 : r ∉ hostOps1_W) (h3 : r ∉ hostOps1_1_W) :
    B3 m c r = m ((c : Thread nD τ).loc r) := (B3_keep m c r h2 h3).trans (B1_keep m c r h1)
theorem B4_launch (r : Ref sig .tc) (h1 : r ≠ main_v0) (h2 : r ∉ hostOps1_W) (h3 : r ∉ hostOps1_1_W) (h4 : r ≠ main_v10) :
    B4 m c r = m ((c : Thread nD τ).loc r) := (B4_keep m c r h4).trans (B3_launch m c r h1 h2 h3)
theorem B6_launch (r : Ref sig .tc) (h1 : r ≠ main_v0) (h2 : r ∉ hostOps1_W) (h3 : r ∉ hostOps1_1_W) (h4 : r ≠ main_v10)
    (h5 : r ∉ hostOps2_W) (h6 : r ∉ hostOps2_1_W) : B6 m c r = m ((c : Thread nD τ).loc r) :=
  (B6_keep m c r h5 h6).trans (B4_launch m c r h1 h2 h3 h4)
theorem B7_launch (r : Ref sig .tc) (h1 : r ≠ main_v0) (h2 : r ∉ hostOps1_W) (h3 : r ∉ hostOps1_1_W) (h4 : r ≠ main_v10)
    (h5 : r ∉ hostOps2_W) (h6 : r ∉ hostOps2_1_W) (h7 : r ≠ main_v20) : B7 m c r = m ((c : Thread nD τ).loc r) :=
  (B7_keep m c r h7).trans (B6_launch m c r h1 h2 h3 h4 h5 h6)
theorem B9_launch (r : Ref sig .tc) (h1 : r ≠ main_v0) (h2 : r ∉ hostOps1_W) (h3 : r ∉ hostOps1_1_W) (h4 : r ≠ main_v10)
    (h5 : r ∉ hostOps2_W) (h6 : r ∉ hostOps2_1_W) (h7 : r ≠ main_v20) (h8 : r ∉ hostOps3_W) (h9 : r ∉ hostOps3_1_W) :
    B9 m c r = m ((c : Thread nD τ).loc r) :=
  (B9_keep m c r h8 h9).trans (B7_launch m c r h1 h2 h3 h4 h5 h6 h7)

/-- What each pallas_call leaves in its result array. -/
theorem B1_self : B1 m c main_v0 = (dat0 (atRefs (V0 m)) c).arrAt 2 cfg0.N := by
  unfold B1; exact Function.update_self (β := fun b : DevRef τ sig => Buf (Elt Ideal) ((c : Thread nD τ).1, b)) _ _ _
theorem B4_self : B4 m c main_v10 = (dat1 (atRefs (B3 m)) c).arrAt 5 cfg1.N := by
  unfold B4; exact Function.update_self (β := fun b : DevRef τ sig => Buf (Elt Ideal) ((c : Thread nD τ).1, b)) _ _ _
theorem B7_self : B7 m c main_v20 = (dat2 (atRefs (B6 m)) c).arrAt 6 cfg2.N := by
  unfold B7; exact Function.update_self (β := fun b : DevRef τ sig => Buf (Elt Ideal) ((c : Thread nD τ).1, b)) _ _ _

end Frame

/-! ## The run's result -/

section Chain
variable (m : (ℓ : Loc nD τ sig) → Buf (Elt Ideal) ℓ) (c : Dev nD)
variable (h1 : ∀ e, 0 ≤ ((m ((c : Thread nD τ).loc main_arg1) : S400000.Idx → BitVec 32) e).toInt ∧ ((m ((c : Thread nD τ).loc main_arg1) : S400000.Idx → BitVec 32) e).toInt < (100000 : ℤ))
variable (h3 : ∀ e, 0 ≤ ((m ((c : Thread nD τ).loc main_arg3) : S100000.Idx → BitVec 32) e).toInt ∧ ((m ((c : Thread nD τ).loc main_arg3) : S100000.Idx → BitVec 32) e).toInt < (25000 : ℤ))
variable (h5 : ∀ e, 0 ≤ ((m ((c : Thread nD τ).loc main_arg5) : S25600.Idx → BitVec 32) e).toInt ∧ ((m ((c : Thread nD τ).loc main_arg5) : S25600.Idx → BitVec 32) e).toInt < (6250 : ℤ))

/-- After the first pallas_call `main_v0` holds the projection `x · Wn0`. -/
theorem proj_value : (B1 (F := Ideal) m c main_v0 : S100000x256.Idx → EReal)
    = fun i => mm (cur (m ((c : Thread nD τ).loc main_arg0))) (cur (m ((c : Thread nD τ).loc main_arg8))) ⟨(i 0).val, (i 0).isLt⟩ ⟨(i 1).val, (i 1).isLt⟩ :=
  (B1_self m c).trans (final0 (atRefs (V0 m)) c)

/-- After the second pallas_call `main_v10` holds the specification's first layer. -/
theorem layer1_value : (B4 (F := Ideal) m c main_v10 : S25000x256.Idx → EReal)
    = fun i => h1K (cur (m ((c : Thread nD τ).loc main_arg0))) (srcF 100000 (m ((c : Thread nD τ).loc main_arg1)) h1) (dstZ (m ((c : Thread nD τ).loc main_arg2)))
        (cur (m ((c : Thread nD τ).loc main_arg7))) (cur (m ((c : Thread nD τ).loc main_arg8))) (vec (m ((c : Thread nD τ).loc main_arg9))) ⟨(i 0).val, (i 0).isLt⟩ ⟨(i 1).val, (i 1).isLt⟩ := by
  have a1 : (B1 m c main_arg1 : S400000.Idx → BitVec 32) = m ((c : Thread nD τ).loc main_arg1) := B1_keep m c main_arg1 (by decide)
  have a2 : (B1 m c main_arg2 : S400000.Idx → BitVec 32) = m ((c : Thread nD τ).loc main_arg2) := B1_keep m c main_arg2 (by decide)
  have hs : ∀ e, 0 ≤ ((B1 m c main_arg1 : S400000.Idx → BitVec 32) e).toInt ∧ ((B1 m c main_arg1 : S400000.Idx → BitVec 32) e).toInt < (100000 : ℤ) := by rw [a1]; exact h1
  obtain ⟨eA, eD⟩ := host1 (B1 m c) hs
  exact (B4_self m c).trans ((final1 (atRefs (B3 m)) c).trans
    (layer1_of (m ((c : Thread nD τ).loc main_arg0)) (m ((c : Thread nD τ).loc main_arg1)) (m ((c : Thread nD τ).loc main_arg2)) h1 (m ((c : Thread nD τ).loc main_arg7)) (m ((c : Thread nD τ).loc main_arg8)) (m ((c : Thread nD τ).loc main_arg9))
      (B3 m c main_arg0) (B1 m c main_arg1) (B1 m c main_arg2) hs (B3 m c main_arg7) (B3 m c main_arg9)
      (B1 m c main_v0) (B3 m c main_v4) (B3 m c main_v9)
      (B3_launch m c main_arg0 (by decide) (by decide) (by decide)) a1 a2 (B3_launch m c main_arg7 (by decide) (by decide) (by decide)) (B3_launch m c main_arg9 (by decide) (by decide) (by decide))
      (proj_value m c) eA eD))

/-- After the third pallas_call `main_v20` holds the specification's second layer, on 6400 rows. -/
theorem layer2_value : (B7 (F := Ideal) m c main_v20 : S6400x256.Idx → EReal)
    = fun i => h2K (cur (m ((c : Thread nD τ).loc main_arg0))) (srcF 100000 (m ((c : Thread nD τ).loc main_arg1)) h1) (dstZ (m ((c : Thread nD τ).loc main_arg2)))
        (srcF 25000 (m ((c : Thread nD τ).loc main_arg3)) h3) (dstZ (m ((c : Thread nD τ).loc main_arg4)))
        (cur (m ((c : Thread nD τ).loc main_arg7))) (cur (m ((c : Thread nD τ).loc main_arg8))) (vec (m ((c : Thread nD τ).loc main_arg9)))
        (cur (m ((c : Thread nD τ).loc main_arg10))) (cur (m ((c : Thread nD τ).loc main_arg11))) (vec (m ((c : Thread nD τ).loc main_arg12))) ⟨(i 0).val, (i 0).isLt⟩ ⟨(i 1).val, (i 1).isLt⟩ := by
  have a3 : (B4 m c main_arg3 : S100000.Idx → BitVec 32) = m ((c : Thread nD τ).loc main_arg3) := B4_launch m c main_arg3 (by decide) (by decide) (by decide) (by decide)
  have a4 : (B4 m c main_arg4 : S100000.Idx → BitVec 32) = m ((c : Thread nD τ).loc main_arg4) := B4_launch m c main_arg4 (by decide) (by decide) (by decide) (by decide)
  have hs : ∀ e, 0 ≤ ((B4 m c main_arg3 : S100000.Idx → BitVec 32) e).toInt ∧ ((B4 m c main_arg3 : S100000.Idx → BitVec 32) e).toInt < (25000 : ℤ) := by rw [a3]; exact h3
  obtain ⟨eA, eD⟩ := host2 (B4 m c) hs
  refine (B7_self m c).trans ((final2 (atRefs (B6 m)) c).trans ?_)
  funext i
  exact congrArg relu (congrFun (congrFun
    (layer_of (by norm_num : 6400 ≤ 25000) (h1K (cur (m ((c : Thread nD τ).loc main_arg0))) (srcF 100000 (m ((c : Thread nD τ).loc main_arg1)) h1) (dstZ (m ((c : Thread nD τ).loc main_arg2)))
        (cur (m ((c : Thread nD τ).loc main_arg7))) (cur (m ((c : Thread nD τ).loc main_arg8))) (vec (m ((c : Thread nD τ).loc main_arg9)))) (srcF 25000 (m ((c : Thread nD τ).loc main_arg3)) h3) (m ((c : Thread nD τ).loc main_arg4))
      (m ((c : Thread nD τ).loc main_arg10)) (m ((c : Thread nD τ).loc main_arg11)) (m ((c : Thread nD τ).loc main_arg12))
      (B4 m c main_v10) (B6 m c main_v10) (srcF 25000 (B4 m c main_arg3) hs) (B4 m c main_arg4)
      (B6 m c main_arg10) (B6 m c main_arg11) (B6 m c main_arg12) (B6 m c main_v14) (B6 m c main_v19)
      (B6_keep m c main_v10 (by decide) (by decide)) (srcF_congr 25000 a3 hs h3) a4
      (B6_launch m c main_arg10 (by decide) (by decide) (by decide) (by decide) (by decide) (by decide)) (B6_launch m c main_arg11 (by decide) (by decide) (by decide) (by decide) (by decide) (by decide))
      (B6_launch m c main_arg12 (by decide) (by decide) (by decide) (by decide) (by decide) (by decide))
      (layer1_value m c h1) eA eD) ⟨(i 0).val, (i 0).isLt⟩) ⟨(i 1).val, (i 1).isLt⟩)

/-- After the run the result array holds the specification's kernel chain. -/
theorem kernel_value : (B10 (F := Ideal) m c main_v30 : S1600x256.Idx → EReal)
    = fun i => outK (cur (m ((c : Thread nD τ).loc main_arg0))) (srcF 100000 (m ((c : Thread nD τ).loc main_arg1)) h1) (dstZ (m ((c : Thread nD τ).loc main_arg2)))
        (srcF 25000 (m ((c : Thread nD τ).loc main_arg3)) h3) (dstZ (m ((c : Thread nD τ).loc main_arg4))) (srcF 6250 (m ((c : Thread nD τ).loc main_arg5)) h5) (dstZ (m ((c : Thread nD τ).loc main_arg6)))
        (cur (m ((c : Thread nD τ).loc main_arg7))) (cur (m ((c : Thread nD τ).loc main_arg8))) (vec (m ((c : Thread nD τ).loc main_arg9)))
        (cur (m ((c : Thread nD τ).loc main_arg10))) (cur (m ((c : Thread nD τ).loc main_arg11))) (vec (m ((c : Thread nD τ).loc main_arg12)))
        (cur (m ((c : Thread nD τ).loc main_arg13))) (cur (m ((c : Thread nD τ).loc main_arg14))) (vec (m ((c : Thread nD τ).loc main_arg15)))
        (cur (m ((c : Thread nD τ).loc main_arg16))) (vec (m ((c : Thread nD τ).loc main_arg17))) ⟨(i 0).val, (i 0).isLt⟩ ⟨(i 1).val, (i 1).isLt⟩ := by
  have a5 : (B7 m c main_arg5 : S25600.Idx → BitVec 32) = m ((c : Thread nD τ).loc main_arg5) := B7_launch m c main_arg5 (by decide) (by decide) (by decide) (by decide) (by decide) (by decide) (by decide)
  have a6 : (B7 m c main_arg6 : S25600.Idx → BitVec 32) = m ((c : Thread nD τ).loc main_arg6) := B7_launch m c main_arg6 (by decide) (by decide) (by decide) (by decide) (by decide) (by decide) (by decide)
  have hs : ∀ e, 0 ≤ ((B7 m c main_arg5 : S25600.Idx → BitVec 32) e).toInt ∧ ((B7 m c main_arg5 : S25600.Idx → BitVec 32) e).toInt < (6250 : ℤ) := by rw [a5]; exact h5
  obtain ⟨eA, eD⟩ := host3 (B7 m c) hs
  refine (result_eq m c).trans ((final3 (atRefs (B9 m)) c).trans ?_)
  funext i
  have key := layer_of (by norm_num : 1600 ≤ 6400) (h2K (cur (m ((c : Thread nD τ).loc main_arg0))) (srcF 100000 (m ((c : Thread nD τ).loc main_arg1)) h1) (dstZ (m ((c : Thread nD τ).loc main_arg2)))
        (srcF 25000 (m ((c : Thread nD τ).loc main_arg3)) h3) (dstZ (m ((c : Thread nD τ).loc main_arg4)))
        (cur (m ((c : Thread nD τ).loc main_arg7))) (cur (m ((c : Thread nD τ).loc main_arg8))) (vec (m ((c : Thread nD τ).loc main_arg9)))
        (cur (m ((c : Thread nD τ).loc main_arg10))) (cur (m ((c : Thread nD τ).loc main_arg11))) (vec (m ((c : Thread nD τ).loc main_arg12))))
      (fun e => Fin.castLE (by norm_num : 6250 ≤ 6400) (srcF 6250 (m ((c : Thread nD τ).loc main_arg5)) h5 e)) (m ((c : Thread nD τ).loc main_arg6))
      (m ((c : Thread nD τ).loc main_arg13)) (m ((c : Thread nD τ).loc main_arg14)) (m ((c : Thread nD τ).loc main_arg15))
      (B7 m c main_v20) (B9 m c main_v20) (fun e => Fin.castLE (by norm_num : 6250 ≤ 6400) (srcF 6250 (B7 m c main_arg5) hs e)) (B7 m c main_arg6)
      (B9 m c main_arg13) (B9 m c main_arg14) (B9 m c main_arg15) (B9 m c main_v24) (B9 m c main_v29)
      (B9_keep m c main_v20 (by decide) (by decide)) (by rw [srcF_congr 6250 a5 hs h5]) a6
      (B9_launch m c main_arg13 (by decide) (by decide) (by decide) (by decide) (by decide) (by decide) (by decide) (by decide) (by decide)) (B9_launch m c main_arg14 (by decide) (by decide) (by decide) (by decide) (by decide) (by decide) (by decide) (by decide) (by decide))
      (B9_launch m c main_arg15 (by decide) (by decide) (by decide) (by decide) (by decide) (by decide) (by decide) (by decide) (by decide))
      (layer2_value m c h1 h3) eA eD
  have e16 : (B9 m c main_arg16 : S256x256.Idx → EReal) = m ((c : Thread nD τ).loc main_arg16) := B9_launch m c main_arg16 (by decide) (by decide) (by decide) (by decide) (by decide) (by decide) (by decide) (by decide) (by decide)
  have e17 : (B9 m c main_arg17 : S256.Idx → EReal) = m ((c : Thread nD τ).loc main_arg17) := B9_launch m c main_arg17 (by decide) (by decide) (by decide) (by decide) (by decide) (by decide) (by decide) (by decide) (by decide)
  show mm (comb2 (top 1600 (by norm_num) (cur (B9 m c main_v20))) (cur (B9 m c main_v24)) (cur (B9 m c main_v29))
        (cur (B9 m c main_arg13)) (cur (B9 m c main_arg14)) (vec (B9 m c main_arg15))) (cur (B9 m c main_arg16)) ⟨(i 0).val, (i 0).isLt⟩ ⟨(i 1).val, (i 1).isLt⟩
      + vec (B9 m c main_arg17) ⟨(i 1).val, (i 1).isLt⟩ = _
  rw [key, e16, e17]
  rfl

end Chain

end Cert.KernelIdeal.Hand

end
-- ==== Proof.RefValue.lean ====
/-
  The reference program's result, read index by index as the reference chain of `Spec`.

  Each of the three layers is read in the same order: the gathered rows (a source index in range is kept by the
  negative-index normalisation and by the gather's clamp), the two segment sums (a scatter-add from the zero word),
  the size of a segment (never less than one), the mean, the two matrix products, the bias row and the rectifier.
-/
import proofs.«417426_j23381801959787_3_alg».proof.Proof.Gen.ReferenceIdeal.Run
import proofs.«417426_j23381801959787_3_alg».proof.Proof.Gen.ReferenceIdeal.Read
import proofs.«417426_j23381801959787_3_alg».proof.Proof.Spec
import proofs.«417426_j23381801959787_3_alg».proof.Proof.LibRowOps
import proofs.«417426_j23381801959787_3_alg».proof.Proof.LibRowIndex

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Spec Cert.LibRowIndex
open scoped BigOperators

/-! ## Words -/

/-- The negative-index normalisation `select (x < 0) (x + N) x` keeps an index that is not negative. -/
theorem sel_nonneg (x y : BitVec 32) (h : 0 ≤ x.toInt) : Scalar.select (IntOp.cmpi .slt x 0#32) y x = x := by
  have hlt : x.slt 0#32 = false := by
    simp only [BitVec.slt, BitVec.toInt_zero, decide_eq_false_iff_not, Int.not_lt]
    exact h
  show (if BitVec.ofBool (x.slt 0#32) = 1 then _ else _) = _
  rw [hlt]
  rfl

/-! ## The first layer -/

section Layer0

variable (x0 : (⟨S100000x512, .f32⟩ : BufTy).Contents (Elt Ideal)) (x1 x2 : (⟨S400000, .i32⟩ : BufTy).Contents (Elt Ideal))
  (x7 x8 : (⟨S512x256, .f32⟩ : BufTy).Contents (Elt Ideal)) (x9 : (⟨S256, .f32⟩ : BufTy).Contents (Elt Ideal))

/-- The normalised source index of edge `e` is the source index itself. -/
theorem src0_at (h1 : ∀ e, 0 ≤ (x1 e).toInt ∧ (x1 e).toInt < 100000) (e : Fin 400000) :
    val_main_v6 (F := Ideal) x1 (ix2 e 0) = x1 (ix1 e) := by
  rw [val_main_v6_apply]
  have hi : idx_main_v6 (ix2 e (0 : Fin 1)) = ix1 e := funext fun a => Fin.ext (by match a with | ⟨0, _⟩ => rfl)
  rw [hi, val_main_v5_apply, val_main_v2_apply, val_main_v1_apply, val_main_c_apply]
  exact sel_nonneg _ _ (h1 _).1

/-- The gathered row of edge `e` is the row of its source. -/
theorem v7_at (h1 : ∀ e, 0 ≤ (x1 e).toInt ∧ (x1 e).toInt < 100000) (e : Fin 400000) (k : Fin 512) :
    val_main_v7 (F := Ideal) x0 x1 (ix2 e k) = x0 (ix2 (srcF 100000 x1 h1 e) k) := by
  unfold val_main_v7
  have hd : gather_S100000x512_S400000x1_S400000x512_1_0_n_n_0_1_1512
      = rowGatherDims 100000 512 400000 gather_S100000x512_S400000x1_S400000x512_1_0_n_n_0_1_1512_wf := rfl
  rw [hd, gatherRows_apply (by norm_num)]
  refine congrArg x0 (congrArg (fun r => ix2 r k) (Fin.ext ?_))
  show min (val_main_v6 (F := Ideal) x1 (ix2 e 0)).toInt.toNat (100000 - 1) = (x1 (ix1 e)).toInt.toNat
  rw [src0_at x1 h1 e]
  have := h1 (ix1 e)
  omega

/-- The segment sums of the gathered rows. -/
theorem v10_at (h1 : ∀ e, 0 ≤ (x1 e).toInt ∧ (x1 e).toInt < 100000) (r : Fin 25000) (k : Fin 512) :
    val_main_v10 (F := Ideal) x0 x1 x2 (ix2 r k)
      = seg (dstZ x2) (fun e => x0 (ix2 (srcF 100000 x1 h1 e) k)) r.val := by
  unfold val_main_v10
  have hd : scatter_S25000x512_S400000x1_S400000x512_1_0_0_1
      = rowScatterDims 25000 512 400000 scatter_S25000x512_S400000x1_S400000x512_1_0_0_1_wf := rfl
  rw [hd, scatterRows_apply, val_main_v8_apply, val_main_cst_apply]
  unfold seg
  refine congrArg (fun t => z32 + t) (Finset.sum_congr rfl fun e _ => ?_)
  have hi : idx_main_v9 (ix2 e (0 : Fin 1)) = ix1 e := funext fun a => Fin.ext (by match a with | ⟨0, _⟩ => rfl)
  rw [val_main_v9_apply, hi, v7_at x0 x1 h1]
  rfl

/-- The segment sums of ones. -/
theorem v14_at (r : Fin 25000) : val_main_v14 (F := Ideal) x2 (ix1 r) = seg (dstZ x2) (fun _ => o32) r.val := by
  unfold val_main_v14
  have hd : scatter_S25000_S400000x1_S400000_n_0_0_1
      = vecScatterDims 25000 400000 scatter_S25000_S400000x1_S400000_n_0_0_1_wf := rfl
  rw [hd, scatterVec_apply, val_main_v12_apply, val_main_cst_2_apply]
  unfold seg
  refine congrArg (fun t => z32 + t) (Finset.sum_congr rfl fun e _ => ?_)
  have hi : idx_main_v13 (ix2 e (0 : Fin 1)) = ix1 e := funext fun a => Fin.ext (by match a with | ⟨0, _⟩ => rfl)
  rw [val_main_v13_apply, hi, val_main_v11_apply, val_main_cst_1_apply]
  rfl

/-- The size of a segment, at least one. -/
theorem v16_at (r : Fin 25000) : val_main_v16 (F := Ideal) x2 (ix1 r) = degree (dstZ x2) r.val := by
  rw [val_main_v16_apply, v14_at, val_main_v15_apply, val_main_cst_3_apply]
  rfl

/-- The mean of the gathered rows over each segment. -/
theorem v19_at (h1 : ∀ e, 0 ≤ (x1 e).toInt ∧ (x1 e).toInt < 100000) (r : Fin 25000) (k : Fin 512) :
    val_main_v19 (F := Ideal) x0 x1 x2 (ix2 r k)
      = meanRows (dstZ x2) (fun e k => cur x0 (srcF 100000 x1 h1 e) k) 25000 r k := by
  have h18 : idx_main_v17 (idx_main_v18 (ix2 r k)) = ix1 r := funext fun a => Fin.ext (by match a with | ⟨0, _⟩ => rfl)
  rw [val_main_v19_apply, v10_at x0 x1 x2 h1, val_main_v18_apply, val_main_v17_apply, h18, v16_at]
  rfl

/-- The product of the first rows with `Ws0`. -/
theorem v20_at (r : Fin 25000) (j : Fin 256) :
    val_main_v20 (F := Ideal) x0 x7 (ix2 r j) = mm (top 25000 (by norm_num) (cur x0)) (cur x7) r j := by
  rw [val_main_v20_apply]
  unfold mm
  refine Finset.sum_congr rfl fun k _ => ?_
  have hl : idx_main_v0 (lidx_main_v20 (ix2 r j) k) = ix2 (Fin.castLE (by norm_num) r) k :=
    funext fun a => Fin.ext (by match a with | ⟨0, _⟩ => rfl | ⟨1, _⟩ => rfl)
  have hr : ridx_main_v20 (ix2 r j) k = ix2 k j :=
    funext fun a => Fin.ext (by match a with | ⟨0, _⟩ => rfl | ⟨1, _⟩ => rfl)
  rw [val_main_v0_apply, hl, hr]
  rfl

/-- The product of the mean with `Wn0`. -/
theorem v21_at (h1 : ∀ e, 0 ≤ (x1 e).toInt ∧ (x1 e).toInt < 100000) (r : Fin 25000) (j : Fin 256) :
    val_main_v21 (F := Ideal) x0 x1 x2 x8 (ix2 r j)
      = mm (meanRows (dstZ x2) (fun e k => cur x0 (srcF 100000 x1 h1 e) k) 25000) (cur x8) r j := by
  rw [val_main_v21_apply]
  unfold mm
  refine Finset.sum_congr rfl fun k _ => ?_
  have hl : lidx_main_v21 (ix2 r j) k = ix2 r k :=
    funext fun a => Fin.ext (by match a with | ⟨0, _⟩ => rfl | ⟨1, _⟩ => rfl)
  have hr : ridx_main_v21 (ix2 r j) k = ix2 k j :=
    funext fun a => Fin.ext (by match a with | ⟨0, _⟩ => rfl | ⟨1, _⟩ => rfl)
  rw [hl, hr, v19_at x0 x1 x2 h1]
  rfl

/-- The first layer's result is `h1R`. -/
theorem v26_at (h1 : ∀ e, 0 ≤ (x1 e).toInt ∧ (x1 e).toInt < 100000) (r : Fin 25000) (j : Fin 256) :
    val_main_v26 (F := Ideal) x0 x1 x2 x7 x8 x9 (ix2 r j)
      = h1R (cur x0) (srcF 100000 x1 h1) (dstZ x2) (cur x7) (cur x8) (vec x9) r j := by
  have hb : idx_main_v23 (idx_main_v24 (ix2 r j)) = ix1 j := funext fun a => Fin.ext (by match a with | ⟨0, _⟩ => rfl)
  rw [val_main_v26_apply, val_main_v25_apply, val_main_v22_apply, v20_at, v21_at x0 x1 x2 x8 h1, val_main_v24_apply,
    val_main_v23_apply, hb, val_main_call0_v0_apply, val_main_call0_cst_apply]
  rfl

end Layer0

/-! ## The second layer, over any array `H` the first layer's result reads as -/

section Layer1

variable (x0 : (⟨S100000x512, .f32⟩ : BufTy).Contents (Elt Ideal)) (x1 x2 : (⟨S400000, .i32⟩ : BufTy).Contents (Elt Ideal))
  (x3 x4 : (⟨S100000, .i32⟩ : BufTy).Contents (Elt Ideal))
  (x7 x8 : (⟨S512x256, .f32⟩ : BufTy).Contents (Elt Ideal)) (x9 : (⟨S256, .f32⟩ : BufTy).Contents (Elt Ideal))
  (x10 x11 : (⟨S256x256, .f32⟩ : BufTy).Contents (Elt Ideal)) (x12 : (⟨S256, .f32⟩ : BufTy).Contents (Elt Ideal))
  (H : Mat 25000 256)

/-- The normalised source index of edge `e` is the source index itself. -/
theorem src1_at (h3 : ∀ e, 0 ≤ (x3 e).toInt ∧ (x3 e).toInt < 25000) (e : Fin 100000) :
    val_main_v33 (F := Ideal) x3 (ix2 e 0) = x3 (ix1 e) := by
  rw [val_main_v33_apply]
  have hi : idx_main_v33 (ix2 e (0 : Fin 1)) = ix1 e := funext fun a => Fin.ext (by match a with | ⟨0, _⟩ => rfl)
  rw [hi, val_main_v32_apply, val_main_v29_apply, val_main_v28_apply, val_main_c_4_apply]
  exact sel_nonneg _ _ (h3 _).1

/-- The gathered row of edge `e` is the row of its source. -/
theorem v34_at (hH : ∀ r k, val_main_v26 (F := Ideal) x0 x1 x2 x7 x8 x9 (ix2 r k) = H r k)
    (h3 : ∀ e, 0 ≤ (x3 e).toInt ∧ (x3 e).toInt < 25000) (e : Fin 100000) (k : Fin 256) :
    val_main_v34 (F := Ideal) x0 x1 x2 x3 x7 x8 x9 (ix2 e k) = H (srcF 25000 x3 h3 e) k := by
  unfold val_main_v34
  have hd : gather_S25000x256_S100000x1_S100000x256_1_0_n_n_0_1_1256
      = rowGatherDims 25000 256 100000 gather_S25000x256_S100000x1_S100000x256_1_0_n_n_0_1_1256_wf := rfl
  rw [hd, gatherRows_apply (by norm_num), ← hH (srcF 25000 x3 h3 e) k]
  refine congrArg (val_main_v26 (F := Ideal) x0 x1 x2 x7 x8 x9) (congrArg (fun r => ix2 r k) (Fin.ext ?_))
  show min (val_main_v33 (F := Ideal) x3 (ix2 e 0)).toInt.toNat (25000 - 1) = (x3 (ix1 e)).toInt.toNat
  rw [src1_at x3 h3 e]
  have := h3 (ix1 e)
  omega

/-- The segment sums of the gathered rows. -/
theorem v37_at (hH : ∀ r k, val_main_v26 (F := Ideal) x0 x1 x2 x7 x8 x9 (ix2 r k) = H r k)
    (h3 : ∀ e, 0 ≤ (x3 e).toInt ∧ (x3 e).toInt < 25000) (r : Fin 6250) (k : Fin 256) :
    val_main_v37 (F := Ideal) x0 x1 x2 x3 x4 x7 x8 x9 (ix2 r k)
      = seg (dstZ x4) (fun e => H (srcF 25000 x3 h3 e) k) r.val := by
  unfold val_main_v37
  have hd : scatter_S6250x256_S100000x1_S100000x256_1_0_0_1
      = rowScatterDims 6250 256 100000 scatter_S6250x256_S100000x1_S100000x256_1_0_0_1_wf := rfl
  rw [hd, scatterRows_apply, val_main_v35_apply, val_main_cst_6_apply]
  unfold seg
  refine congrArg (fun t => z32 + t) (Finset.sum_congr rfl fun e _ => ?_)
  have hi : idx_main_v36 (ix2 e (0 : Fin 1)) = ix1 e := funext fun a => Fin.ext (by match a with | ⟨0, _⟩ => rfl)
  rw [val_main_v36_apply, hi, v34_at x0 x1 x2 x3 x7 x8 x9 H hH h3]
  rfl

/-- The segment sums of ones. -/
theorem v41_at (r : Fin 6250) : val_main_v41 (F := Ideal) x4 (ix1 r) = seg (dstZ x4) (fun _ => o32) r.val := by
  unfold val_main_v41
  have hd : scatter_S6250_S100000x1_S100000_n_0_0_1
      = vecScatterDims 6250 100000 scatter_S6250_S100000x1_S100000_n_0_0_1_wf := rfl
  rw [hd, scatterVec_apply, val_main_v39_apply, val_main_cst_8_apply]
  unfold seg
  refine congrArg (fun t => z32 + t) (Finset.sum_congr rfl fun e _ => ?_)
  have hi : idx_main_v40 (ix2 e (0 : Fin 1)) = ix1 e := funext fun a => Fin.ext (by match a with | ⟨0, _⟩ => rfl)
  rw [val_main_v40_apply, hi, val_main_v38_apply, val_main_cst_7_apply]
  rfl

/-- The size of a segment, at least one. -/
theorem v43_at (r : Fin 6250) : val_main_v43 (F := Ideal) x4 (ix1 r) = degree (dstZ x4) r.val := by
  rw [val_main_v43_apply, v41_at, val_main_v42_apply, val_main_cst_9_apply]
  rfl

/-- The mean of the gathered rows over each segment. -/
theorem v46_at (hH : ∀ r k, val_main_v26 (F := Ideal) x0 x1 x2 x7 x8 x9 (ix2 r k) = H r k)
    (h3 : ∀ e, 0 ≤ (x3 e).toInt ∧ (x3 e).toInt < 25000) (r : Fin 6250) (k : Fin 256) :
    val_main_v46 (F := Ideal) x0 x1 x2 x3 x4 x7 x8 x9 (ix2 r k)
      = meanRows (dstZ x4) (fun e k => H (srcF 25000 x3 h3 e) k) 6250 r k := by
  have h45 : idx_main_v44 (idx_main_v45 (ix2 r k)) = ix1 r := funext fun a => Fin.ext (by match a with | ⟨0, _⟩ => rfl)
  rw [val_main_v46_apply, v37_at x0 x1 x2 x3 x4 x7 x8 x9 H hH h3, val_main_v45_apply, val_main_v44_apply, h45, v43_at]
  rfl

/-- The product of the first rows with `Ws1`. -/
theorem v47_at (hH : ∀ r k, val_main_v26 (F := Ideal) x0 x1 x2 x7 x8 x9 (ix2 r k) = H r k) (r : Fin 6250) (j : Fin 256) :
    val_main_v47 (F := Ideal) x0 x1 x2 x7 x8 x9 x10 (ix2 r j) = mm (top 6250 (by norm_num) H) (cur x10) r j := by
  rw [val_main_v47_apply]
  unfold mm
  refine Finset.sum_congr rfl fun k _ => ?_
  have hl : idx_main_v27 (lidx_main_v47 (ix2 r j) k) = ix2 (Fin.castLE (by norm_num) r) k :=
    funext fun a => Fin.ext (by match a with | ⟨0, _⟩ => rfl | ⟨1, _⟩ => rfl)
  have hr : ridx_main_v47 (ix2 r j) k = ix2 k j :=
    funext fun a => Fin.ext (by match a with | ⟨0, _⟩ => rfl | ⟨1, _⟩ => rfl)
  rw [val_main_v27_apply, hl, hr, hH]
  rfl

/-- The product of the mean with `Wn1`. -/
theorem v48_at (hH : ∀ r k, val_main_v26 (F := Ideal) x0 x1 x2 x7 x8 x9 (ix2 r k) = H r k)
    (h3 : ∀ e, 0 ≤ (x3 e).toInt ∧ (x3 e).toInt < 25000) (r : Fin 6250) (j : Fin 256) :
    val_main_v48 (F := Ideal) x0 x1 x2 x3 x4 x7 x8 x9 x11 (ix2 r j)
      = mm (meanRows (dstZ x4) (fun e k => H (srcF 25000 x3 h3 e) k) 6250) (cur x11) r j := by
  rw [val_main_v48_apply]
  unfold mm
  refine Finset.sum_congr rfl fun k _ => ?_
  have hl : lidx_main_v48 (ix2 r j) k = ix2 r k :=
    funext fun a => Fin.ext (by match a with | ⟨0, _⟩ => rfl | ⟨1, _⟩ => rfl)
  have hr : ridx_main_v48 (ix2 r j) k = ix2 k j :=
    funext fun a => Fin.ext (by match a with | ⟨0, _⟩ => rfl | ⟨1, _⟩ => rfl)
  rw [hl, hr, v46_at x0 x1 x2 x3 x4 x7 x8 x9 H hH h3]
  rfl

/-- The second layer's result is the rectified layer over `H`. -/
theorem v53_at (hH : ∀ r k, val_main_v26 (F := Ideal) x0 x1 x2 x7 x8 x9 (ix2 r k) = H r k)
    (h3 : ∀ e, 0 ≤ (x3 e).toInt ∧ (x3 e).toInt < 25000) (r : Fin 6250) (j : Fin 256) :
    val_main_v53 (F := Ideal) x0 x1 x2 x3 x4 x7 x8 x9 x10 x11 x12 (ix2 r j)
      = relu (layer 6250 (by norm_num) H (srcF 25000 x3 h3) (dstZ x4) (cur x10) (cur x11) (vec x12) r j) := by
  have hb : idx_main_v50 (idx_main_v51 (ix2 r j)) = ix1 j := funext fun a => Fin.ext (by match a with | ⟨0, _⟩ => rfl)
  rw [val_main_v53_apply, val_main_v52_apply, val_main_v49_apply, v47_at x0 x1 x2 x7 x8 x9 x10 H hH,
    v48_at x0 x1 x2 x3 x4 x7 x8 x9 x11 H hH h3, val_main_v51_apply, val_main_v50_apply, hb, val_main_call1_v0_apply,
    val_main_call1_cst_apply]
  rfl

end Layer1

/-! ## The third layer and the final affine map, over any array `H` the second layer's result reads as -/

section Layer2

variable (x0 : (⟨S100000x512, .f32⟩ : BufTy).Contents (Elt Ideal)) (x1 x2 : (⟨S400000, .i32⟩ : BufTy).Contents (Elt Ideal))
  (x3 x4 : (⟨S100000, .i32⟩ : BufTy).Contents (Elt Ideal)) (x5 x6 : (⟨S25600, .i32⟩ : BufTy).Contents (Elt Ideal))
  (x7 x8 : (⟨S512x256, .f32⟩ : BufTy).Contents (Elt Ideal)) (x9 : (⟨S256, .f32⟩ : BufTy).Contents (Elt Ideal))
  (x10 x11 : (⟨S256x256, .f32⟩ : BufTy).Contents (Elt Ideal)) (x12 : (⟨S256, .f32⟩ : BufTy).Contents (Elt Ideal))
  (x13 x14 : (⟨S256x256, .f32⟩ : BufTy).Contents (Elt Ideal)) (x15 : (⟨S256, .f32⟩ : BufTy).Contents (Elt Ideal))
  (x16 : (⟨S256x256, .f32⟩ : BufTy).Contents (Elt Ideal)) (x17 : (⟨S256, .f32⟩ : BufTy).Contents (Elt Ideal))
  (H : Mat 6250 256)

/-- The normalised source index of edge `e` is the source index itself. -/
theorem src2_at (h5 : ∀ e, 0 ≤ (x5 e).toInt ∧ (x5 e).toInt < 6250) (e : Fin 25600) :
    val_main_v60 (F := Ideal) x5 (ix2 e 0) = x5 (ix1 e) := by
  rw [val_main_v60_apply]
  have hi : idx_main_v60 (ix2 e (0 : Fin 1)) = ix1 e := funext fun a => Fin.ext (by match a with | ⟨0, _⟩ => rfl)
  rw [hi, val_main_v59_apply, val_main_v56_apply, val_main_v55_apply, val_main_c_10_apply]
  exact sel_nonneg _ _ (h5 _).1

/-- The gathered row of edge `e` is the row of its source. -/
theorem v61_at (hH : ∀ r k, val_main_v53 (F := Ideal) x0 x1 x2 x3 x4 x7 x8 x9 x10 x11 x12 (ix2 r k) = H r k)
    (h5 : ∀ e, 0 ≤ (x5 e).toInt ∧ (x5 e).toInt < 6250) (e : Fin 25600) (k : Fin 256) :
    val_main_v61 (F := Ideal) x0 x1 x2 x3 x4 x5 x7 x8 x9 x10 x11 x12 (ix2 e k) = H (srcF 6250 x5 h5 e) k := by
  unfold val_main_v61
  have hd : gather_S6250x256_S25600x1_S25600x256_1_0_n_n_0_1_1256
      = rowGatherDims 6250 256 25600 gather_S6250x256_S25600x1_S25600x256_1_0_n_n_0_1_1256_wf := rfl
  rw [hd, gatherRows_apply (by norm_num), ← hH (srcF 6250 x5 h5 e) k]
  refine congrArg (val_main_v53 (F := Ideal) x0 x1 x2 x3 x4 x7 x8 x9 x10 x11 x12)
    (congrArg (fun r => ix2 r k) (Fin.ext ?_))
  show min (val_main_v60 (F := Ideal) x5 (ix2 e 0)).toInt.toNat (6250 - 1) = (x5 (ix1 e)).toInt.toNat
  rw [src2_at x5 h5 e]
  have := h5 (ix1 e)
  omega

/-- The segment sums of the gathered rows. -/
theorem v64_at (hH : ∀ r k, val_main_v53 (F := Ideal) x0 x1 x2 x3 x4 x7 x8 x9 x10 x11 x12 (ix2 r k) = H r k)
    (h5 : ∀ e, 0 ≤ (x5 e).toInt ∧ (x5 e).toInt < 6250) (r : Fin 1600) (k : Fin 256) :
    val_main_v64 (F := Ideal) x0 x1 x2 x3 x4 x5 x6 x7 x8 x9 x10 x11 x12 (ix2 r k)
      = seg (dstZ x6) (fun e => H (srcF 6250 x5 h5 e) k) r.val := by
  unfold val_main_v64
  have hd : scatter_S1600x256_S25600x1_S25600x256_1_0_0_1
      = rowScatterDims 1600 256 25600 scatter_S1600x256_S25600x1_S25600x256_1_0_0_1_wf := rfl
  rw [hd, scatterRows_apply, val_main_v62_apply, val_main_cst_12_apply]
  unfold seg
  refine congrArg (fun t => z32 + t) (Finset.sum_congr rfl fun e _ => ?_)
  have hi : idx_main_v63 (ix2 e (0 : Fin 1)) = ix1 e := funext fun a => Fin.ext (by match a with | ⟨0, _⟩ => rfl)
  rw [val_main_v63_apply, hi, v61_at x0 x1 x2 x3 x4 x5 x7 x8 x9 x10 x11 x12 H hH h5]
  rfl

/-- The segment sums of ones. -/
theorem v68_at (r : Fin 1600) : val_main_v68 (F := Ideal) x6 (ix1 r) = seg (dstZ x6) (fun _ => o32) r.val := by
  unfold val_main_v68
  have hd : scatter_S1600_S25600x1_S25600_n_0_0_1
      = vecScatterDims 1600 25600 scatter_S1600_S25600x1_S25600_n_0_0_1_wf := rfl
  rw [hd, scatterVec_apply, val_main_v66_apply, val_main_cst_14_apply]
  unfold seg
  refine congrArg (fun t => z32 + t) (Finset.sum_congr rfl fun e _ => ?_)
  have hi : idx_main_v67 (ix2 e (0 : Fin 1)) = ix1 e := funext fun a => Fin.ext (by match a with | ⟨0, _⟩ => rfl)
  rw [val_main_v67_apply, hi, val_main_v65_apply, val_main_cst_13_apply]
  rfl

/-- The size of a segment, at least one. -/
theorem v70_at (r : Fin 1600) : val_main_v70 (F := Ideal) x6 (ix1 r) = degree (dstZ x6) r.val := by
  rw [val_main_v70_apply, v68_at, val_main_v69_apply, val_main_cst_15_apply]
  rfl

/-- The mean of the gathered rows over each segment. -/
theorem v73_at (hH : ∀ r k, val_main_v53 (F := Ideal) x0 x1 x2 x3 x4 x7 x8 x9 x10 x11 x12 (ix2 r k) = H r k)
    (h5 : ∀ e, 0 ≤ (x5 e).toInt ∧ (x5 e).toInt < 6250) (r : Fin 1600) (k : Fin 256) :
    val_main_v73 (F := Ideal) x0 x1 x2 x3 x4 x5 x6 x7 x8 x9 x10 x11 x12 (ix2 r k)
      = meanRows (dstZ x6) (fun e k => H (srcF 6250 x5 h5 e) k) 1600 r k := by
  have h72 : idx_main_v71 (idx_main_v72 (ix2 r k)) = ix1 r := funext fun a => Fin.ext (by match a with | ⟨0, _⟩ => rfl)
  rw [val_main_v73_apply, v64_at x0 x1 x2 x3 x4 x5 x6 x7 x8 x9 x10 x11 x12 H hH h5, val_main_v72_apply,
    val_main_v71_apply, h72, v70_at]
  rfl

/-- The product of the first rows with `Ws2`. -/
theorem v74_at (hH : ∀ r k, val_main_v53 (F := Ideal) x0 x1 x2 x3 x4 x7 x8 x9 x10 x11 x12 (ix2 r k) = H r k)
    (r : Fin 1600) (j : Fin 256) :
    val_main_v74 (F := Ideal) x0 x1 x2 x3 x4 x7 x8 x9 x10 x11 x12 x13 (ix2 r j)
      = mm (top 1600 (by norm_num) H) (cur x13) r j := by
  rw [val_main_v74_apply]
  unfold mm
  refine Finset.sum_congr rfl fun k _ => ?_
  have hl : idx_main_v54 (lidx_main_v74 (ix2 r j) k) = ix2 (Fin.castLE (by norm_num) r) k :=
    funext fun a => Fin.ext (by match a with | ⟨0, _⟩ => rfl | ⟨1, _⟩ => rfl)
  have hr : ridx_main_v74 (ix2 r j) k = ix2 k j :=
    funext fun a => Fin.ext (by match a with | ⟨0, _⟩ => rfl | ⟨1, _⟩ => rfl)
  rw [val_main_v54_apply, hl, hr, hH]
  rfl

/-- The product of the mean with `Wn2`. -/
theorem v75_at (hH : ∀ r k, val_main_v53 (F := Ideal) x0 x1 x2 x3 x4 x7 x8 x9 x10 x11 x12 (ix2 r k) = H r k)
    (h5 : ∀ e, 0 ≤ (x5 e).toInt ∧ (x5 e).toInt < 6250) (r : Fin 1600) (j : Fin 256) :
    val_main_v75 (F := Ideal) x0 x1 x2 x3 x4 x5 x6 x7 x8 x9 x10 x11 x12 x14 (ix2 r j)
      = mm (meanRows (dstZ x6) (fun e k => H (srcF 6250 x5 h5 e) k) 1600) (cur x14) r j := by
  rw [val_main_v75_apply]
  unfold mm
  refine Finset.sum_congr rfl fun k _ => ?_
  have hl : lidx_main_v75 (ix2 r j) k = ix2 r k :=
    funext fun a => Fin.ext (by match a with | ⟨0, _⟩ => rfl | ⟨1, _⟩ => rfl)
  have hr : ridx_main_v75 (ix2 r j) k = ix2 k j :=
    funext fun a => Fin.ext (by match a with | ⟨0, _⟩ => rfl | ⟨1, _⟩ => rfl)
  rw [hl, hr, v73_at x0 x1 x2 x3 x4 x5 x6 x7 x8 x9 x10 x11 x12 H hH h5]
  rfl

/-- The third layer's result is the layer over `H`. -/
theorem v79_at (hH : ∀ r k, val_main_v53 (F := Ideal) x0 x1 x2 x3 x4 x7 x8 x9 x10 x11 x12 (ix2 r k) = H r k)
    (h5 : ∀ e, 0 ≤ (x5 e).toInt ∧ (x5 e).toInt < 6250) (r : Fin 1600) (j : Fin 256) :
    val_main_v79 (F := Ideal) x0 x1 x2 x3 x4 x5 x6 x7 x8 x9 x10 x11 x12 x13 x14 x15 (ix2 r j)
      = layer 1600 (by norm_num) H (srcF 6250 x5 h5) (dstZ x6) (cur x13) (cur x14) (vec x15) r j := by
  have hb : idx_main_v77 (idx_main_v78 (ix2 r j)) = ix1 j := funext fun a => Fin.ext (by match a with | ⟨0, _⟩ => rfl)
  rw [val_main_v79_apply, val_main_v76_apply, v74_at x0 x1 x2 x3 x4 x7 x8 x9 x10 x11 x12 x13 H hH,
    v75_at x0 x1 x2 x3 x4 x5 x6 x7 x8 x9 x10 x11 x12 x14 H hH h5, val_main_v78_apply, val_main_v77_apply, hb]
  rfl

/-- The program's result is the final affine map of the third layer. -/
theorem v83_at (hH : ∀ r k, val_main_v53 (F := Ideal) x0 x1 x2 x3 x4 x7 x8 x9 x10 x11 x12 (ix2 r k) = H r k)
    (h5 : ∀ e, 0 ≤ (x5 e).toInt ∧ (x5 e).toInt < 6250) (r : Fin 1600) (j : Fin 256) :
    val_main_v83 (F := Ideal) x0 x1 x2 x3 x4 x5 x6 x7 x8 x9 x10 x11 x12 x13 x14 x15 x16 x17 (ix2 r j)
      = mm (layer 1600 (by norm_num) H (srcF 6250 x5 h5) (dstZ x6) (cur x13) (cur x14) (vec x15)) (cur x16) r j
        + vec x17 j := by
  have hb : idx_main_v81 (idx_main_v82 (ix2 r j)) = ix1 j := funext fun a => Fin.ext (by match a with | ⟨0, _⟩ => rfl)
  rw [val_main_v83_apply, val_main_v80_apply, val_main_v82_apply, val_main_v81_apply, hb]
  unfold mm
  refine congrArg (fun t => t + x17 (ix1 j)) (Finset.sum_congr rfl fun k _ => ?_)
  have hl : lidx_main_v80 (ix2 r j) k = ix2 r k :=
    funext fun a => Fin.ext (by match a with | ⟨0, _⟩ => rfl | ⟨1, _⟩ => rfl)
  have hr : ridx_main_v80 (ix2 r j) k = ix2 k j :=
    funext fun a => Fin.ext (by match a with | ⟨0, _⟩ => rfl | ⟨1, _⟩ => rfl)
  rw [hl, hr, v79_at x0 x1 x2 x3 x4 x5 x6 x7 x8 x9 x10 x11 x12 x13 x14 x15 H hH h5]
  rfl

end Layer2

/-! ## The chain -/

section Chain

variable (x0 : (⟨S100000x512, .f32⟩ : BufTy).Contents (Elt Ideal)) (x1 x2 : (⟨S400000, .i32⟩ : BufTy).Contents (Elt Ideal))
  (x3 x4 : (⟨S100000, .i32⟩ : BufTy).Contents (Elt Ideal)) (x5 x6 : (⟨S25600, .i32⟩ : BufTy).Contents (Elt Ideal))
  (x7 x8 : (⟨S512x256, .f32⟩ : BufTy).Contents (Elt Ideal)) (x9 : (⟨S256, .f32⟩ : BufTy).Contents (Elt Ideal))
  (x10 x11 : (⟨S256x256, .f32⟩ : BufTy).Contents (Elt Ideal)) (x12 : (⟨S256, .f32⟩ : BufTy).Contents (Elt Ideal))
  (x13 x14 : (⟨S256x256, .f32⟩ : BufTy).Contents (Elt Ideal)) (x15 : (⟨S256, .f32⟩ : BufTy).Contents (Elt Ideal))
  (x16 : (⟨S256x256, .f32⟩ : BufTy).Contents (Elt Ideal)) (x17 : (⟨S256, .f32⟩ : BufTy).Contents (Elt Ideal))

/-- The second layer's result is `h2R`. -/
theorem v53_eq (h1 : ∀ e, 0 ≤ (x1 e).toInt ∧ (x1 e).toInt < 100000) (h3 : ∀ e, 0 ≤ (x3 e).toInt ∧ (x3 e).toInt < 25000)
    (r : Fin 6250) (j : Fin 256) :
    val_main_v53 (F := Ideal) x0 x1 x2 x3 x4 x7 x8 x9 x10 x11 x12 (ix2 r j)
      = h2R (cur x0) (srcF 100000 x1 h1) (dstZ x2) (srcF 25000 x3 h3) (dstZ x4) (cur x7) (cur x8) (vec x9)
          (cur x10) (cur x11) (vec x12) r j :=
  v53_at x0 x1 x2 x3 x4 x7 x8 x9 x10 x11 x12 _ (v26_at x0 x1 x2 x7 x8 x9 h1) h3 r j

/-- The reference's result at row `r`, column `j` is the reference chain there. -/
theorem ref_value_at (h1 : ∀ e, 0 ≤ (x1 e).toInt ∧ (x1 e).toInt < 100000)
    (h3 : ∀ e, 0 ≤ (x3 e).toInt ∧ (x3 e).toInt < 25000) (h5 : ∀ e, 0 ≤ (x5 e).toInt ∧ (x5 e).toInt < 6250)
    (r : Fin 1600) (j : Fin 256) :
    val_main_v83 (F := Ideal) x0 x1 x2 x3 x4 x5 x6 x7 x8 x9 x10 x11 x12 x13 x14 x15 x16 x17 (ix2 r j)
      = outR (cur x0) (srcF 100000 x1 h1) (dstZ x2) (srcF 25000 x3 h3) (dstZ x4) (srcF 6250 x5 h5) (dstZ x6)
          (cur x7) (cur x8) (vec x9) (cur x10) (cur x11) (vec x12) (cur x13) (cur x14) (vec x15) (cur x16) (vec x17) r j :=
  v83_at x0 x1 x2 x3 x4 x5 x6 x7 x8 x9 x10 x11 x12 x13 x14 x15 x16 x17 _
    (v53_eq x0 x1 x2 x3 x4 x7 x8 x9 x10 x11 x12 h1 h3) h5 r j

/-- The reference program's result is the reference chain, index by index. -/
theorem ref_value (h1 : ∀ e, 0 ≤ (x1 e).toInt ∧ (x1 e).toInt < 100000)
    (h3 : ∀ e, 0 ≤ (x3 e).toInt ∧ (x3 e).toInt < 25000) (h5 : ∀ e, 0 ≤ (x5 e).toInt ∧ (x5 e).toInt < 6250) :
    val_main_v83 (F := Ideal) x0 x1 x2 x3 x4 x5 x6 x7 x8 x9 x10 x11 x12 x13 x14 x15 x16 x17
      = fun i => outR (cur x0) (srcF 100000 x1 h1) (dstZ x2) (srcF 25000 x3 h3) (dstZ x4) (srcF 6250 x5 h5) (dstZ x6)
          (cur x7) (cur x8) (vec x9) (cur x10) (cur x11) (vec x12) (cur x13) (cur x14) (vec x15) (cur x16) (vec x17)
          ⟨(i 0).val, idx2_lt0 i⟩ ⟨(i 1).val, idx2_lt1 i⟩ := by
  funext i
  rw [eq_ix2 i]
  exact ref_value_at x0 x1 x2 x3 x4 x5 x6 x7 x8 x9 x10 x11 x12 x13 x14 x15 x16 x17 h1 h3 h5 (i 0) (i 1)

end Chain

end Cert.RefValue

end
-- ==== Proof.PreFacts.lean ====
/-
  The printed precondition, decoded. The precondition is one boolean: the conjunction, over the twelve float arrays, of
  "every entry has absolute value below +∞", and, over the three source-index tables, of "every entry is at least 0 and
  below the number of rows it indexes". Its being 1 gives back each conjunct; a conjunct is a reduction by "and" over
  a whole array from 1, so it is 1 only if every entry's comparison is 1; an entry whose absolute value is
  below +∞ is neither +∞ nor the bottom element, hence a real; a word that compares signed-at-least 0 and signed-below n
  has its signed value in [0, n).
-/
import proofs.«417426_j23381801959787_3_alg».proof.Pre_finite_inputs
import proofs.«417426_j23381801959787_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal.Laws

noncomputable section

namespace Cert.PreFacts

open Idealize.ShloMosaic Cert.Pre_finite_inputs

/-- The rank-0 shape has one index. -/
instance subsingleton_S_ : Subsingleton S_.Idx := ⟨fun a b => funext fun d => d.elim0⟩

/-! ## One entry -/

/-- The pattern 0x7F800000 denotes +∞. -/
theorem inf_eq_top : Ideal.ofBits .f32 0x7F800000#32 = (⊤ : EReal) := by simp [Ideal.ofBits, Ideal.ieee]

/-- An extended real whose absolute value max x (−x) is below +∞ is neither +∞ nor −∞. -/
theorem real_of_abs_lt_top (x : EReal) (h : max x (-x) < (⊤ : EReal)) : x ≠ ⊤ ∧ x ≠ ⊥ := by
  induction x using EReal.rec with
  | bot => simp at h
  | top => simp at h
  | coe r => exact ⟨EReal.coe_ne_top r, EReal.coe_ne_bot r⟩

/-- The entry's comparison read back: 1 exactly says the absolute value is below +∞. -/
theorem real_of_cmp (x : Ideal .f32)
    (h : FloatOps.cmpf (F := Ideal) .olt (FloatOps.hostAbsf x) (FloatOps.ofBits .f32 0x7F800000#32) = 1#1) : x ≠ ⊤ ∧ x ≠ ⊥ := by
  have h' : Ideal.cmp .olt (max x (-x)) (Ideal.ofBits .f32 0x7F800000#32) = 1#1 := h
  rw [inf_eq_top] at h'
  unfold Ideal.cmp at h'
  rw [StableHlo.Predicate.ofBool_eq_one_iff] at h'
  exact real_of_abs_lt_top x (of_decide_eq_true h')

/-- A word signed-at-least 0 and signed-below n has its signed value in [0, n). -/
theorem range_of_cmp (w n : BitVec 32) (h0 : IntOp.cmpi .sge w 0#32 = 1#1) (h1 : IntOp.cmpi .slt w n = 1#1) :
    0 ≤ w.toInt ∧ w.toInt < n.toInt := by
  unfold IntOp.cmpi at h0 h1
  rw [StableHlo.Predicate.ofBool_eq_one_iff] at h0 h1
  simp only [BitVec.sle, BitVec.slt, decide_eq_true_eq] at h0 h1
  exact ⟨by simpa using h0, h1⟩

/-! ## One array -/

/-- A float array all of whose entries pass the comparison is real-valued. -/
theorem float_all {s : Shape} {axes : List (Fin s.rank)} (hb : S_.BroadcastsInDim s (![] : Fin 0 → Fin s.rank))
    (hr : s.ReducesTo axes S_) (h0 : 0 < S_.numel) (a : FVec Ideal s .f32) (init : IVec S_ 1) (j : S_.Idx)
    (e : Host.reduce IntOp.andi (cmpf .olt (Host.absf a) (broadcastInDim s ![] hb (constant S_ .f32 0x7F800000#32))) init hr h0 j = 1#1) :
    ∀ i, a i ≠ ⊤ ∧ a i ≠ ⊥ := fun i =>
  real_of_cmp (a i) (Host.reduce_andi_all _ init hr h0 j e i)

/-- An index table all of whose entries pass both comparisons has its signed values in [0, n). -/
theorem index_all {s : Shape} {axes : List (Fin s.rank)} (hb : S_.BroadcastsInDim s (![] : Fin 0 → Fin s.rank))
    (hr : s.ReducesTo axes S_) (h0 : 0 < S_.numel) (a : IVec s 32) (n : BitVec 32) (init init' : IVec S_ 1) (j : S_.Idx)
    (e0 : Host.reduce IntOp.andi (cmpi .sge a (broadcastInDim s ![] hb (constantI S_ 32 0#32))) init hr h0 j = 1#1)
    (e1 : Host.reduce IntOp.andi (cmpi .slt a (broadcastInDim s ![] hb (constantI S_ 32 n))) init' hr h0 j = 1#1) :
    ∀ i, 0 ≤ (a i).toInt ∧ (a i).toInt < n.toInt := fun i =>
  range_of_cmp (a i) n (Host.reduce_andi_all _ init hr h0 j e0 i) (Host.reduce_andi_all _ init' hr h0 j e1 i)

/-! ## The whole predicate -/

theorem toInt_100000 : (100000#32 : BitVec 32).toInt = 100000 := by decide
theorem toInt_25000 : (25000#32 : BitVec 32).toInt = 25000 := by decide
theorem toInt_6250 : (6250#32 : BitVec 32).toInt = 6250 := by decide

/-- THE PRECONDITION DECODED, every conjunct: each of the twelve float arrays is real-valued, and each source-index
    table's signed values lie in the range of rows it indexes. -/
theorem decode_all [hF : Cert.Pre_finite_inputs.Facts]
    (a0 : FVec Ideal S100000x512 .f32) (a1 : IVec S400000 32) (a2 : IVec S400000 32) (a3 : IVec S100000 32)
    (a4 : IVec S100000 32) (a5 : IVec S25600 32) (a6 : IVec S25600 32) (a7 : FVec Ideal S512x256 .f32)
    (a8 : FVec Ideal S512x256 .f32) (a9 : FVec Ideal S256 .f32) (a10 : FVec Ideal S256x256 .f32)
    (a11 : FVec Ideal S256x256 .f32) (a12 : FVec Ideal S256 .f32) (a13 : FVec Ideal S256x256 .f32)
    (a14 : FVec Ideal S256x256 .f32) (a15 : FVec Ideal S256 .f32) (a16 : FVec Ideal S256x256 .f32)
    (a17 : FVec Ideal S256 .f32)
    (h : Cert.Pre_finite_inputs.fn (F := Ideal) a0 a1 a2 a3 a4 a5 a6 a7 a8 a9 a10 a11 a12 a13 a14 a15 a16 a17 = fun _ => 1#1) :
    ((∀ i, a0 i ≠ ⊤ ∧ a0 i ≠ ⊥) ∧ (∀ i, a7 i ≠ ⊤ ∧ a7 i ≠ ⊥) ∧ (∀ i, a8 i ≠ ⊤ ∧ a8 i ≠ ⊥) ∧ (∀ i, a9 i ≠ ⊤ ∧ a9 i ≠ ⊥)
      ∧ (∀ i, a10 i ≠ ⊤ ∧ a10 i ≠ ⊥) ∧ (∀ i, a11 i ≠ ⊤ ∧ a11 i ≠ ⊥) ∧ (∀ i, a12 i ≠ ⊤ ∧ a12 i ≠ ⊥)
      ∧ (∀ i, a13 i ≠ ⊤ ∧ a13 i ≠ ⊥) ∧ (∀ i, a14 i ≠ ⊤ ∧ a14 i ≠ ⊥) ∧ (∀ i, a15 i ≠ ⊤ ∧ a15 i ≠ ⊥)
      ∧ (∀ i, a16 i ≠ ⊤ ∧ a16 i ≠ ⊥) ∧ (∀ i, a17 i ≠ ⊤ ∧ a17 i ≠ ⊥))
    ∧ (∀ e, 0 ≤ (a1 e).toInt ∧ (a1 e).toInt < 100000) ∧ (∀ e, 0 ≤ (a3 e).toInt ∧ (a3 e).toInt < 25000)
    ∧ (∀ e, 0 ≤ (a5 e).toInt ∧ (a5 e).toInt < 6250) := by
  -- the predicate at its one index, its chain of operations opened, is a conjunction of eighteen reductions
  have e := congrFun h ValueIdx.ix0
  dsimp only [fn, fn_part1, fn_part2, fn_part3, fn_part4, andi] at e
  simp only [IntOp.andi_eq_one] at e
  obtain ⟨⟨⟨⟨⟨⟨⟨⟨⟨⟨⟨⟨⟨⟨⟨⟨⟨f0, f7⟩, f8⟩, f9⟩, f10⟩, f11⟩, f12⟩, f13⟩, f14⟩, f15⟩, f16⟩, f17⟩, g1⟩, l1⟩, g3⟩, l3⟩, g5⟩, l5⟩ := e
  refine ⟨⟨float_all _ _ _ a0 _ _ f0, float_all _ _ _ a7 _ _ f7, float_all _ _ _ a8 _ _ f8, float_all _ _ _ a9 _ _ f9,
    float_all _ _ _ a10 _ _ f10, float_all _ _ _ a11 _ _ f11, float_all _ _ _ a12 _ _ f12, float_all _ _ _ a13 _ _ f13,
    float_all _ _ _ a14 _ _ f14, float_all _ _ _ a15 _ _ f15, float_all _ _ _ a16 _ _ f16, float_all _ _ _ a17 _ _ f17⟩, ?_, ?_, ?_⟩
  · have r := index_all _ _ _ a1 100000#32 _ _ _ g1 l1
    rw [toInt_100000] at r
    exact r
  · have r := index_all _ _ _ a3 25000#32 _ _ _ g3 l3
    rw [toInt_25000] at r
    exact r
  · have r := index_all _ _ _ a5 6250#32 _ _ _ g5 l5
    rw [toInt_6250] at r
    exact r

/-- THE PRECONDITION DECODED, the part the value proof uses: the node features (argument 0) and the first layer's
    neighbour weights (argument 8) are real-valued, and the three source-index tables are in range. -/
theorem decode [hF : Cert.Pre_finite_inputs.Facts]
    (a0 : FVec Ideal S100000x512 .f32) (a1 : IVec S400000 32) (a2 : IVec S400000 32) (a3 : IVec S100000 32)
    (a4 : IVec S100000 32) (a5 : IVec S25600 32) (a6 : IVec S25600 32) (a7 : FVec Ideal S512x256 .f32)
    (a8 : FVec Ideal S512x256 .f32) (a9 : FVec Ideal S256 .f32) (a10 : FVec Ideal S256x256 .f32)
    (a11 : FVec Ideal S256x256 .f32) (a12 : FVec Ideal S256 .f32) (a13 : FVec Ideal S256x256 .f32)
    (a14 : FVec Ideal S256x256 .f32) (a15 : FVec Ideal S256 .f32) (a16 : FVec Ideal S256x256 .f32)
    (a17 : FVec Ideal S256 .f32)
    (h : Cert.Pre_finite_inputs.fn (F := Ideal) a0 a1 a2 a3 a4 a5 a6 a7 a8 a9 a10 a11 a12 a13 a14 a15 a16 a17 = fun _ => 1#1) :
    (∀ i, a0 i ≠ ⊤ ∧ a0 i ≠ ⊥) ∧ (∀ i, a8 i ≠ ⊤ ∧ a8 i ≠ ⊥)
    ∧ (∀ e, 0 ≤ (a1 e).toInt ∧ (a1 e).toInt < 100000) ∧ (∀ e, 0 ≤ (a3 e).toInt ∧ (a3 e).toInt < 25000)
    ∧ (∀ e, 0 ≤ (a5 e).toInt ∧ (a5 e).toInt < 6250) := by
  obtain ⟨⟨h0, -, h8, -⟩, h1, h3, h5⟩ := decode_all a0 a1 a2 a3 a4 a5 a6 a7 a8 a9 a10 a11 a12 a13 a14 a15 a16 a17 h
  exact ⟨h0, h8, h1, h3, h5⟩

end Cert.PreFacts

end
-- ==== Proof.SpecEq.lean ====
/-
  The two chains of `Spec` are equal when `x` and `Wn0` hold real numbers.

  First layer: with every entry real, a segment sum of rows of `x · Wn0` is the segment sum of the rows of `x` times
  `Wn0` (finite sums commute), and dividing by the segment's size — a real number at least one — commutes with the
  product.  Second layer: row `r < 6250` of the 6400-row array is row `r` of the 6250-row one, both being the same
  expression in the first layer.  Third layer: it reads the second layer only at rows below 6250.
-/
import proofs.«417426_j23381801959787_3_alg».proof.Proof.Spec
import Mathlib.Data.EReal.Basic
import Mathlib.Algebra.BigOperators.Ring.Finset
import Mathlib.Tactic.Ring

set_option maxRecDepth 65536

noncomputable section

namespace Cert.Spec

open Idealize.ShloMosaic
open scoped BigOperators

theorem o32_eq : o32 = ((1 : ℝ) : EReal) := by
  simp [o32, Ideal.ofBits, Ideal.ieee]
  norm_cast
  norm_num

/-- A finite sum of real numbers, taken in the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A segment sum of real numbers is a real number. -/
theorem seg_coe {E : ℕ} (dst : Fin E → ℤ) (u : Fin E → ℝ) (r : ℕ) :
    seg dst (fun e => ((u e : ℝ) : EReal)) r = ((∑ e, if dst e = (r : ℤ) then u e else 0 : ℝ) : EReal) := by
  unfold seg
  rw [z32_eq, zero_add, ← coe_sum]
  refine Finset.sum_congr rfl fun e _ => ?_
  split <;> simp

/-- The size of a segment is a real number at least one. -/
theorem degree_coe {E : ℕ} (dst : Fin E → ℤ) (r : ℕ) :
    ∃ y : ℝ, 1 ≤ y ∧ degree dst r = ((y : ℝ) : EReal) := by
  refine ⟨max (∑ e, if dst e = (r : ℤ) then (1 : ℝ) else 0) 1, le_max_right _ _, ?_⟩
  unfold degree
  rw [o32_eq, seg_coe]
  exact (EReal.coe_strictMono.monotone.map_max).symm

/-- With every entry real, the segment mean of rows of `x · W` is the segment mean of the rows of `x`, times `W`. -/
theorem mean_proj {N E n K D : ℕ} (x : Mat N K) (W : Mat K D) (s : Fin E → Fin N) (d : Fin E → ℤ)
    (hx : ∀ r k, x r k ≠ ⊤ ∧ x r k ≠ ⊥) (hW : ∀ k j, W k j ≠ ⊤ ∧ W k j ≠ ⊥) (r : Fin n) (j : Fin D) :
    Ideal.div (seg d (fun e => mm x W (s e) j) r.val) (degree d r.val) = mm (meanRows d (fun e k => x (s e) k) n) W r j := by
  obtain ⟨y, hy1, hy⟩ := degree_coe d r.val
  have hy0 : y ≠ 0 := by intro h; rw [h] at hy1; norm_num at hy1
  have hxr : ∀ r k, x r k = (((x r k).toReal : ℝ) : EReal) := fun r k => (EReal.coe_toReal (hx r k).1 (hx r k).2).symm
  have hWr : ∀ k j, W k j = (((W k j).toReal : ℝ) : EReal) := fun k j => (EReal.coe_toReal (hW k j).1 (hW k j).2).symm
  have hmm : ∀ e, mm x W (s e) j = ((∑ k, (x (s e) k).toReal * (W k j).toReal : ℝ) : EReal) := by
    intro e
    unfold mm
    rw [← coe_sum]
    refine Finset.sum_congr rfl fun k _ => ?_
    rw [EReal.coe_mul, ← hxr, ← hWr]
  have hcol : ∀ k, seg d (fun e => x (s e) k) r.val = ((∑ e, if d e = (r.val : ℤ) then (x (s e) k).toReal else 0 : ℝ) : EReal) := by
    intro k
    rw [← seg_coe]
    exact congrArg (fun u => seg d u r.val) (funext fun e => hxr (s e) k)
  have hlhs : seg d (fun e => mm x W (s e) j) r.val
      = ((∑ e, if d e = (r.val : ℤ) then (∑ k, (x (s e) k).toReal * (W k j).toReal) else 0 : ℝ) : EReal) := by
    rw [← seg_coe]
    exact congrArg (fun u => seg d u r.val) (funext fun e => hmm e)
  have hterm : ∀ k, meanRows d (fun e k => x (s e) k) n r k * W k j
      = (((∑ e, if d e = (r.val : ℤ) then (x (s e) k).toReal else 0) * (1 / y) * (W k j).toReal : ℝ) : EReal) := by
    intro k
    unfold meanRows
    rw [hcol k, hy, Ideal.div_coe hy0, EReal.coe_mul, EReal.coe_mul, ← hWr]
  show _ = ∑ k, meanRows d (fun e k => x (s e) k) n r k * W k j
  rw [hlhs, hy, Ideal.div_coe hy0, Finset.sum_congr rfl fun k _ => hterm k, coe_sum, ← EReal.coe_mul]
  refine congrArg (fun t : ℝ => (t : EReal)) ?_
  -- now in the reals
  rw [Finset.sum_mul]
  have hsplit : ∀ e, (if d e = (r.val : ℤ) then (∑ k, (x (s e) k).toReal * (W k j).toReal) else 0) * (1 / y)
      = ∑ k, (if d e = (r.val : ℤ) then (x (s e) k).toReal else 0) * (1 / y) * (W k j).toReal := by
    intro e
    split
    · rw [Finset.sum_mul]; refine Finset.sum_congr rfl fun k _ => ?_; ring
    · simp
  rw [Finset.sum_congr rfl fun e _ => hsplit e, Finset.sum_comm]
  refine Finset.sum_congr rfl fun k _ => ?_
  rw [Finset.sum_mul, Finset.sum_mul]

/-- A layer depends on its input array only through the rows it reads: the first `n` and the gathered ones. -/
theorem layer_congr {N N' E n K D : ℕ} (hn : n ≤ N) (hn' : n ≤ N') (h : Mat N K) (h' : Mat N' K)
    (s : Fin E → Fin N) (s' : Fin E → Fin N') (d : Fin E → ℤ) (Ws Wn : Mat K D) (b : Fin D → EReal)
    (htop : ∀ r k, h (Fin.castLE hn r) k = h' (Fin.castLE hn' r) k) (hg : ∀ e k, h (s e) k = h' (s' e) k) :
    layer n hn h s d Ws Wn b = layer n hn' h' s' d Ws Wn b := by
  refine funext fun r => funext fun j => ?_
  unfold layer mm top meanRows
  simp only [htop, hg]

/-- A layer computed on more nodes agrees, on the first ones, with the layer computed on fewer. -/
theorem layer_castLE {N E n n' K D : ℕ} (hnn' : n ≤ n') (hn : n ≤ N) (hn' : n' ≤ N) (h : Mat N K)
    (s : Fin E → Fin N) (d : Fin E → ℤ) (Ws Wn : Mat K D) (b : Fin D → EReal) (r : Fin n) (j : Fin D) :
    layer n' hn' h s d Ws Wn b (Fin.castLE hnn' r) j = layer n hn h s d Ws Wn b r j := rfl

section Chains

variable (x : Mat 100000 512) (s0 : Fin 400000 → Fin 100000) (d0 : Fin 400000 → ℤ)
  (s1 : Fin 100000 → Fin 25000) (d1 : Fin 100000 → ℤ) (s2 : Fin 25600 → Fin 6250) (d2 : Fin 25600 → ℤ)
  (Ws0 Wn0 : Mat 512 256) (b0 : Fin 256 → EReal) (Ws1 Wn1 : Mat 256 256) (b1 : Fin 256 → EReal)
  (Ws2 Wn2 : Mat 256 256) (b2 : Fin 256 → EReal) (Wfc : Mat 256 256) (bfc : Fin 256 → EReal)

/-- The first layers agree: the product with `Wn0` before the segment mean is the product after it. -/
theorem h1_eq (hx : ∀ r k, x r k ≠ ⊤ ∧ x r k ≠ ⊥) (hW : ∀ k j, Wn0 k j ≠ ⊤ ∧ Wn0 k j ≠ ⊥) :
    h1K x s0 d0 Ws0 Wn0 b0 = h1R x s0 d0 Ws0 Wn0 b0 := by
  refine funext fun r => funext fun j => ?_
  unfold h1K h1R layer
  rw [mean_proj x Wn0 s0 d0 hx hW r j]

/-- Row `r < 6250` of the 6400-row second layer is row `r` of the 6250-row one. -/
theorem h2_eq (hx : ∀ r k, x r k ≠ ⊤ ∧ x r k ≠ ⊥) (hW : ∀ k j, Wn0 k j ≠ ⊤ ∧ Wn0 k j ≠ ⊥) (r : Fin 6250) (j : Fin 256) :
    h2K x s0 d0 s1 d1 Ws0 Wn0 b0 Ws1 Wn1 b1 (Fin.castLE (by norm_num) r) j = h2R x s0 d0 s1 d1 Ws0 Wn0 b0 Ws1 Wn1 b1 r j := by
  unfold h2K h2R
  rw [h1_eq x s0 d0 Ws0 Wn0 b0 hx hW, layer_castLE (by norm_num : 6250 ≤ 6400) (by norm_num) (by norm_num)]

/-- The two results agree: the third layer reads the second at rows below 6250 only. -/
theorem out_eq (hx : ∀ r k, x r k ≠ ⊤ ∧ x r k ≠ ⊥) (hW : ∀ k j, Wn0 k j ≠ ⊤ ∧ Wn0 k j ≠ ⊥) :
    outK x s0 d0 s1 d1 s2 d2 Ws0 Wn0 b0 Ws1 Wn1 b1 Ws2 Wn2 b2 Wfc bfc = outR x s0 d0 s1 d1 s2 d2 Ws0 Wn0 b0 Ws1 Wn1 b1 Ws2 Wn2 b2 Wfc bfc := by
  refine funext fun r => funext fun j => ?_
  unfold outK outR
  rw [layer_congr (by norm_num : 1600 ≤ 6400) (by norm_num : 1600 ≤ 6250) (h2K x s0 d0 s1 d1 Ws0 Wn0 b0 Ws1 Wn1 b1)
    (h2R x s0 d0 s1 d1 Ws0 Wn0 b0 Ws1 Wn1 b1) (fun e => Fin.castLE (by norm_num : 6250 ≤ 6400) (s2 e)) s2 d2 Ws2 Wn2 b2
    (fun q k => h2_eq x s0 d0 s1 d1 Ws0 Wn0 b0 Ws1 Wn1 b1 hx hW (Fin.castLE (by norm_num) q) k)
    (fun e k => h2_eq x s0 d0 s1 d1 Ws0 Wn0 b0 Ws1 Wn1 b1 hx hW (s2 e) k)]

end Chains

end Cert.Spec

end
-- ==== Proof.lean ====
/-
  A three-layer GraphSAGE stack with mean aggregation and a final affine map: the Pallas program against its jnp
  reference, equal over the extended reals.

  The program computes each layer `h ↦ h_dst · Ws + mean(h[src] by dst) · Wn + b` with the dense parts in four
  pallas_calls (the projection `x · Wn0`, then one combining call per layer, the last with the final map folded in)
  and the gather and the segment sums on the host between them; the reference is the same stack written with whole-
  array operations.  Two things separate them.  In the first layer the program multiplies by `Wn0` before it
  gathers and sums, which agrees with the reference once every entry of `x` and `Wn0` is a real number (`Spec.out_eq`).
  And the program's gather fills an out-of-range row where the reference's clamps it, so the source indices are taken
  in range: the precondition states `0 ≤ src < N` for each layer's sources (destinations need nothing: both programs
  drop an out-of-range destination).

  The three frames: the two programs with pallas_calls run by the launch of their four regions among the host
  stretches, each region's body run at every grid point (`Hand.frame`, once per instance); the reference is a
  straight line of host operations.  The equality: the program's result array is the last region's fold of its
  write-backs, read back through the regions and the host stretches as the chain `Spec.outK` of the arguments
  (`Hand.kernel_value`); the reference's result is `Spec.outR` of them (`RefValue.ref_value`).
-/
import proofs.«417426_j23381801959787_3_alg».proof.Defs
import proofs.«417426_j23381801959787_3_alg».proof.Proof.Gen.Kernel
import proofs.«417426_j23381801959787_3_alg».proof.Proof.Gen.KernelIdeal
import proofs.«417426_j23381801959787_3_alg».proof.Proof.Gen.ReferenceIdeal
import proofs.«417426_j23381801959787_3_alg».proof.Proof.Gen.Pre_finite_inputs
import proofs.«417426_j23381801959787_3_alg».proof.Proof.Gen.ReferenceIdeal.Run
import proofs.«417426_j23381801959787_3_alg».proof.Proof.Gen.ReferenceIdeal.Read
import proofs.«417426_j23381801959787_3_alg».proof.Proof.KB.Run
import proofs.«417426_j23381801959787_3_alg».proof.Proof.KI.Run
import proofs.«417426_j23381801959787_3_alg».proof.Proof.KI.KernelValue
import proofs.«417426_j23381801959787_3_alg».proof.Proof.RefValue
import proofs.«417426_j23381801959787_3_alg».proof.Proof.PreFacts
import proofs.«417426_j23381801959787_3_alg».proof.Proof.SpecEq
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_k : Cert.frame_Kernel := fun m ρ _ => Cert.Kernel.Hand.frame m ρ

/-- So does the idealized program. -/
theorem frame_ki : Cert.frame_KernelIdeal := fun m ρ _ => Cert.KernelIdeal.Hand.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, with real-valued float inputs and source indices in range, both programs
    end with the same result: the program's is the chain `outK` of the arguments, the reference's the chain `outR`,
    and the two chains are one function. -/
theorem algebraic : Cert.algebraic_KernelIdeal_ReferenceIdeal := by
  intro m ρ m' ρ' hpre hagree
  refine ⟨fun c => Cert.KernelIdeal.Hand.B10 m c Cert.KernelIdeal.main_v30, Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v83 m' c = Cert.KernelIdeal.Hand.B10 m c Cert.KernelIdeal.main_v30
  obtain ⟨hx, hW, h1, h3, h5⟩ := Cert.PreFacts.decode _ _ _ _ _ _ _ _ _ _ _ _ _ _ _ _ _ _ (hpre c)
  obtain ⟨e0, e1, e2, e3, e4, e5, e6, e7, e8, e9, e10, e11, e12, e13, e14, e15, e16, e17⟩ := hagree c
  rw [Cert.ReferenceIdeal.Read.val_main_v83_eq, e0, e1, e2, e3, e4, e5, e6, e7, e8, e9, e10, e11, e12, e13, e14, e15, e16, e17,
    Cert.RefValue.ref_value _ _ _ _ _ _ _ _ _ _ _ _ _ _ _ _ _ _ h1 h3 h5,
    Cert.KernelIdeal.Hand.kernel_value m c h1 h3 h5]
  refine funext fun i => ?_
  exact (congrFun (congrFun (Cert.Spec.out_eq _ _ _ _ _ _ _ _ _ _ _ _ _ _ _ _ _ _
    (fun r k => hx (ValueIdx.ix2 r k)) (fun k j => hW (ValueIdx.ix2 k j))) _) _).symm

/-- The certificate: the programs' stated side conditions hold, and the five claims. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
